-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S4096x24x4 : Shape := ⟨3, ![4096, 24, 4]⟩
abbrev S4096x40x2 : Shape := ⟨3, ![4096, 40, 2]⟩
abbrev S66x128 : Shape := ⟨2, ![66, 128]⟩
abbrev S287x64 : Shape := ⟨2, ![287, 64]⟩
abbrev S132x128 : Shape := ⟨2, ![132, 128]⟩
abbrev S128 : Shape := ⟨1, ![128]⟩
abbrev S128x128 : Shape := ⟨2, ![128, 128]⟩
abbrev S130x128 : Shape := ⟨2, ![130, 128]⟩
abbrev S4096x24 : Shape := ⟨2, ![4096, 24]⟩
abbrev S4096x40 : Shape := ⟨2, ![4096, 40]⟩
abbrev S4096x70 : Shape := ⟨2, ![4096, 70]⟩
abbrev S_ : Shape := ⟨0, ![]⟩
abbrev S4096x24x24 : Shape := ⟨3, ![4096, 24, 24]⟩
abbrev S4096x40x40 : Shape := ⟨3, ![4096, 40, 40]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S4096x24x4 : S_.BroadcastsInDim S4096x24x4 (![] : Fin 0 → Fin S4096x24x4.rank)
  reducesTo_S4096x24x4_S_d0_1_2 : S4096x24x4.ReducesTo [0, 1, 2] S_
  bcast_S_S4096x40x2 : S_.BroadcastsInDim S4096x40x2 (![] : Fin 0 → Fin S4096x40x2.rank)
  reducesTo_S4096x40x2_S_d0_1_2 : S4096x40x2.ReducesTo [0, 1, 2] S_
  bcast_S_S66x128 : S_.BroadcastsInDim S66x128 (![] : Fin 0 → Fin S66x128.rank)
  reducesTo_S66x128_S_d0_1 : S66x128.ReducesTo [0, 1] S_
  bcast_S_S287x64 : S_.BroadcastsInDim S287x64 (![] : Fin 0 → Fin S287x64.rank)
  reducesTo_S287x64_S_d0_1 : S287x64.ReducesTo [0, 1] S_
  bcast_S_S132x128 : S_.BroadcastsInDim S132x128 (![] : Fin 0 → Fin S132x128.rank)
  reducesTo_S132x128_S_d0_1 : S132x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S130x128 : S_.BroadcastsInDim S130x128 (![] : Fin 0 → Fin S130x128.rank)
  reducesTo_S130x128_S_d0_1 : S130x128.ReducesTo [0, 1] S_
  bcast_S_S4096x24 : S_.BroadcastsInDim S4096x24 (![] : Fin 0 → Fin S4096x24.rank)
  reducesTo_S4096x24_S_d0_1 : S4096x24.ReducesTo [0, 1] S_
  bcast_S_S4096x40 : S_.BroadcastsInDim S4096x40 (![] : Fin 0 → Fin S4096x40.rank)
  reducesTo_S4096x40_S_d0_1 : S4096x40.ReducesTo [0, 1] S_
  bcast_S_S4096x70 : S_.BroadcastsInDim S4096x70 (![] : Fin 0 → Fin S4096x70.rank)
  reducesTo_S4096x70_S_d0_1 : S4096x70.ReducesTo [0, 1] S_
  bcast_S4096x24_S4096x24x24_0_1 : S4096x24.BroadcastsInDim S4096x24x24 (![0, 1] : Fin 2 → Fin S4096x24x24.rank)
  bcast_S4096x24_S4096x24x24_0_2 : S4096x24.BroadcastsInDim S4096x24x24 (![0, 2] : Fin 2 → Fin S4096x24x24.rank)
  reducesTo_S4096x24x24_S_d0_1_2 : S4096x24x24.ReducesTo [0, 1, 2] S_
  bcast_S4096x40_S4096x40x40_0_1 : S4096x40.BroadcastsInDim S4096x40x40 (![0, 1] : Fin 2 → Fin S4096x40x40.rank)
  bcast_S4096x40_S4096x40x40_0_2 : S4096x40.BroadcastsInDim S4096x40x40 (![0, 2] : Fin 2 → Fin S4096x40x40.rank)
  reducesTo_S4096x40x40_S_d0_1_2 : S4096x40x40.ReducesTo [0, 1, 2] S_

variable [Facts]

def fn_part5 {F : FTy → Type} [FloatOps F] (main_arg13 : IVec S4096x24 32) (main_arg14 : IVec S4096x40 32) (main_v84 : IVec S_ 1) : IVec S_ 1 :=
  let main_v85 : IVec S4096x24x24 32 := broadcastInDim S4096x24x24 ![0, 1] bcast_S4096x24_S4096x24x24_0_1 main_arg13
  let main_v86 : IVec S4096x24x24 32 := broadcastInDim S4096x24x24 ![0, 2] bcast_S4096x24_S4096x24x24_0_2 main_arg13
  let main_v87 : IVec S4096x24x24 32 := iotaInDim S4096x24x24 32 1
  let main_v88 : IVec S4096x24x24 32 := iotaInDim S4096x24x24 32 2
  let main_v89 : IVec S4096x24x24 1 := cmpi .ne main_v85 main_v86
  let main_v90 : IVec S4096x24x24 1 := cmpi .eq main_v87 main_v88
  let main_v91 : IVec S4096x24x24 1 := ori main_v89 main_v90
  let main_c_33 : IVec S_ 1 := constantI S_ 1 1#1
  let main_v92 : IVec S_ 1 := (fun x v => Host.reduce IntOp.andi x v reducesTo_S4096x24x24_S_d0_1_2 h_S_) main_v91 main_c_33
  let main_v93 : IVec S_ 1 := andi main_v84 main_v92
  let main_v94 : IVec S4096x40x40 32 := broadcastInDim S4096x40x40 ![0, 1] bcast_S4096x40_S4096x40x40_0_1 main_arg14
  let main_v95 : IVec S4096x40x40 32 := broadcastInDim S4096x40x40 ![0, 2] bcast_S4096x40_S4096x40x40_0_2 main_arg14
  let main_v96 : IVec S4096x40x40 32 := iotaInDim S4096x40x40 32 1
  let main_v97 : IVec S4096x40x40 32 := iotaInDim S4096x40x40 32 2
  let main_v98 : IVec S4096x40x40 1 := cmpi .ne main_v94 main_v95
  let main_v99 : IVec S4096x40x40 1 := cmpi .eq main_v96 main_v97
  let main_v100 : IVec S4096x40x40 1 := ori main_v98 main_v99
  let main_c_34 : IVec S_ 1 := constantI S_ 1 1#1
  let main_v101 : IVec S_ 1 := (fun x v => Host.reduce IntOp.andi x v reducesTo_S4096x40x40_S_d0_1_2 h_S_) main_v100 main_c_34
  let main_v102 : IVec S_ 1 := andi main_v93 main_v101
  main_v102

def fn_part4 {F : FTy → Type} [FloatOps F] (main_arg13 : IVec S4096x24 32) (main_arg14 : IVec S4096x40 32) (main_arg15 : IVec S4096x70 32) (main_v63 : IVec S_ 1) (main_v65 : IVec S4096x24 1) (main_v67 : IVec S4096x24 1) : IVec S_ 1 :=
  let main_v68 : IVec S4096x24 1 := andi main_v65 main_v67
  let main_c_26 : IVec S_ 1 := constantI S_ 1 1#1
  let main_v69 : IVec S_ 1 := (fun x v => Host.reduce IntOp.andi x v reducesTo_S4096x24_S_d0_1 h_S_) main_v68 main_c_26
  let main_v70 : IVec S_ 1 := andi main_v63 main_v69
  let main_c_27 : IVec S_ 32 := constantI S_ 32 0#32
  let main_v71 : IVec S4096x40 32 := broadcastInDim S4096x40 ![] bcast_S_S4096x40 main_c_27
  let main_v72 : IVec S4096x40 1 := cmpi .sge main_arg14 main_v71
  let main_c_28 : IVec S_ 32 := constantI S_ 32 66#32
  let main_v73 : IVec S4096x40 32 := broadcastInDim S4096x40 ![] bcast_S_S4096x40 main_c_28
  let main_v74 : IVec S4096x40 1 := cmpi .slt main_arg14 main_v73
  let main_v75 : IVec S4096x40 1 := andi main_v72 main_v74
  let main_c_29 : IVec S_ 1 := constantI S_ 1 1#1
  let main_v76 : IVec S_ 1 := (fun x v => Host.reduce IntOp.andi x v reducesTo_S4096x40_S_d0_1 h_S_) main_v75 main_c_29
  let main_v77 : IVec S_ 1 := andi main_v70 main_v76
  let main_c_30 : IVec S_ 32 := constantI S_ 32 0#32
  let main_v78 : IVec S4096x70 32 := broadcastInDim S4096x70 ![] bcast_S_S4096x70 main_c_30
  let main_v79 : IVec S4096x70 1 := cmpi .sge main_arg15 main_v78
  let main_c_31 : IVec S_ 32 := constantI S_ 32 287#32
  let main_v80 : IVec S4096x70 32 := broadcastInDim S4096x70 ![] bcast_S_S4096x70 main_c_31
  let main_v81 : IVec S4096x70 1 := cmpi .slt main_arg15 main_v80
  let main_v82 : IVec S4096x70 1 := andi main_v79 main_v81
  let main_c_32 : IVec S_ 1 := constantI S_ 1 1#1
  let main_v83 : IVec S_ 1 := (fun x v => Host.reduce IntOp.andi x v reducesTo_S4096x70_S_d0_1 h_S_) main_v82 main_c_32
  let main_v84 : IVec S_ 1 := andi main_v77 main_v83
  fn_part5 (F := F) main_arg13 main_arg14 main_v84

def fn_part3 {F : FTy → Type} [FloatOps F] (main_arg11 : FVec F S128x128 .f32) (main_arg12 : FVec F S128 .f32) (main_arg13 : IVec S4096x24 32) (main_arg14 : IVec S4096x40 32) (main_arg15 : IVec S4096x70 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S4096x24 32 := broadcastInDim S4096x24 ![] bcast_S_S4096x24 main_c_24
  let main_v65 : IVec S4096x24 1 := cmpi .sge main_arg13 main_v64
  let main_c_25 : IVec S_ 32 := constantI S_ 32 66#32
  let main_v66 : IVec S4096x24 32 := broadcastInDim S4096x24 ![] bcast_S_S4096x24 main_c_25
  let main_v67 : IVec S4096x24 1 := cmpi .slt main_arg13 main_v66
  fn_part4 (F := F) main_arg13 main_arg14 main_arg15 main_v63 main_v65 main_v67

def fn_part2 {F : FTy → Type} [FloatOps F] (main_arg7 : FVec F S128x128 .f32) (main_arg8 : FVec F S128 .f32) (main_arg9 : FVec F S130x128 .f32) (main_arg10 : FVec F S128 .f32) (main_arg11 : FVec F S128x128 .f32) (main_arg12 : FVec F S128 .f32) (main_arg13 : IVec S4096x24 32) (main_arg14 : IVec S4096x40 32) (main_arg15 : IVec S4096x70 32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S130x128 .f32 := Host.absf main_arg9
  let main_cst_16 : FVec F S_ .f32 := constant S_ .f32 0x7F800000#32
  let main_v45 : FVec F S130x128 .f32 := broadcastInDim S130x128 ![] bcast_S_S130x128 main_cst_16
  let main_v46 : IVec S130x128 1 := cmpf .olt main_v44 main_v45
  let main_c_17 : IVec S_ 1 := constantI S_ 1 1#1
  let main_v47 : IVec S_ 1 := (fun x v => Host.reduce IntOp.andi x v reducesTo_S130x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_v48 main_v49 main_v50

def fn_part1 {F : FTy → Type} [FloatOps F] (main_arg4 : FVec F S287x64 .f32) (main_arg5 : FVec F S132x128 .f32) (main_arg6 : FVec F S128 .f32) (main_arg7 : FVec F S128x128 .f32) (main_arg8 : FVec F S128 .f32) (main_arg9 : FVec F S130x128 .f32) (main_arg10 : FVec F S128 .f32) (main_arg11 : FVec F S128x128 .f32) (main_arg12 : FVec F S128 .f32) (main_arg13 : IVec S4096x24 32) (main_arg14 : IVec S4096x40 32) (main_arg15 : IVec S4096x70 32) (main_v13 : IVec S_ 1) (main_v16 : IVec S66x128 1) : IVec S_ 1 :=
  let main_c_5 : IVec S_ 1 := constantI S_ 1 1#1
  let main_v17 : IVec S_ 1 := (fun x v => Host.reduce IntOp.andi x v reducesTo_S66x128_S_d0_1 h_S_) main_v16 main_c_5
  let main_v18 : IVec S_ 1 := andi main_v13 main_v17
  let main_v19 : FVec F S287x64 .f32 := Host.absf main_arg4
  let main_cst_6 : FVec F S_ .f32 := constant S_ .f32 0x7F800000#32
  let main_v20 : FVec F S287x64 .f32 := broadcastInDim S287x64 ![] bcast_S_S287x64 main_cst_6
  let main_v21 : IVec S287x64 1 := cmpf .olt main_v19 main_v20
  let main_c_7 : IVec S_ 1 := constantI S_ 1 1#1
  let main_v22 : IVec S_ 1 := (fun x v => Host.reduce IntOp.andi x v reducesTo_S287x64_S_d0_1 h_S_) main_v21 main_c_7
  let main_v23 : IVec S_ 1 := andi main_v18 main_v22
  let main_v24 : FVec F S132x128 .f32 := Host.absf main_arg5
  let main_cst_8 : FVec F S_ .f32 := constant S_ .f32 0x7F800000#32
  let main_v25 : FVec F S132x128 .f32 := broadcastInDim S132x128 ![] bcast_S_S132x128 main_cst_8
  let main_v26 : IVec S132x128 1 := cmpf .olt main_v24 main_v25
  let main_c_9 : IVec S_ 1 := constantI S_ 1 1#1
  let main_v27 : IVec S_ 1 := (fun x v => Host.reduce IntOp.andi x v reducesTo_S132x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x32 .f32) (main_arg1 : FVec F S4096x24x4 .f32) (main_arg2 : FVec F S4096x40x2 .f32) (main_arg3 : FVec F S66x128 .f32) (main_arg4 : FVec F S287x64 .f32) (main_arg5 : FVec F S132x128 .f32) (main_arg6 : FVec F S128 .f32) (main_arg7 : FVec F S128x128 .f32) (main_arg8 : FVec F S128 .f32) (main_arg9 : FVec F S130x128 .f32) (main_arg10 : FVec F S128 .f32) (main_arg11 : FVec F S128x128 .f32) (main_arg12 : FVec F S128 .f32) (main_arg13 : IVec S4096x24 32) (main_arg14 : IVec S4096x40 32) (main_arg15 : IVec S4096x70 32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S4096x24x4 .f32 := Host.absf main_arg1
  let main_cst_0 : FVec F S_ .f32 := constant S_ .f32 0x7F800000#32
  let main_v5 : FVec F S4096x24x4 .f32 := broadcastInDim S4096x24x4 ![] bcast_S_S4096x24x4 main_cst_0
  let main_v6 : IVec S4096x24x4 1 := cmpf .olt main_v4 main_v5
  let main_c_1 : IVec S_ 1 := constantI S_ 1 1#1
  let main_v7 : IVec S_ 1 := (fun x v => Host.reduce IntOp.andi x v reducesTo_S4096x24x4_S_d0_1_2 h_S_) main_v6 main_c_1
  let main_v8 : IVec S_ 1 := andi main_v3 main_v7
  let main_v9 : FVec F S4096x40x2 .f32 := Host.absf main_arg2
  let main_cst_2 : FVec F S_ .f32 := constant S_ .f32 0x7F800000#32
  let main_v10 : FVec F S4096x40x2 .f32 := broadcastInDim S4096x40x2 ![] bcast_S_S4096x40x2 main_cst_2
  let main_v11 : IVec S4096x40x2 1 := cmpf .olt main_v9 main_v10
  let main_c_3 : IVec S_ 1 := constantI S_ 1 1#1
  let main_v12 : IVec S_ 1 := (fun x v => Host.reduce IntOp.andi x v reducesTo_S4096x40x2_S_d0_1_2 h_S_) main_v11 main_c_3
  let main_v13 : IVec S_ 1 := andi main_v8 main_v12
  let main_v14 : FVec F S66x128 .f32 := Host.absf main_arg3
  let main_cst_4 : FVec F S_ .f32 := constant S_ .f32 0x7F800000#32
  let main_v15 : FVec F S66x128 .f32 := broadcastInDim S66x128 ![] bcast_S_S66x128 main_cst_4
  let main_v16 : IVec S66x128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x32 : Shape := ⟨2, ![4096, 32]⟩
abbrev S4096x24x4 : Shape := ⟨3, ![4096, 24, 4]⟩
abbrev S4096x40x2 : Shape := ⟨3, ![4096, 40, 2]⟩
abbrev S66x128 : Shape := ⟨2, ![66, 128]⟩
abbrev S287x64 : Shape := ⟨2, ![287, 64]⟩
abbrev S132x128 : Shape := ⟨2, ![132, 128]⟩
abbrev S128 : Shape := ⟨1, ![128]⟩
abbrev S128x128 : Shape := ⟨2, ![128, 128]⟩
abbrev S130x128 : Shape := ⟨2, ![130, 128]⟩
abbrev S4096x24 : Shape := ⟨2, ![4096, 24]⟩
abbrev S4096x40 : Shape := ⟨2, ![4096, 40]⟩
abbrev S4096x70 : Shape := ⟨2, ![4096, 70]⟩
abbrev S4096x21408 : Shape := ⟨2, ![4096, 21408]⟩
abbrev S64x32 : Shape := ⟨2, ![64, 32]⟩
abbrev S64x24x4 : Shape := ⟨3, ![64, 24, 4]⟩
abbrev S64x40x2 : Shape := ⟨3, ![64, 40, 2]⟩
abbrev S64x24 : Shape := ⟨2, ![64, 24]⟩
abbrev S64x40 : Shape := ⟨2, ![64, 40]⟩
abbrev S64x70 : Shape := ⟨2, ![64, 70]⟩
abbrev S64x21408 : Shape := ⟨2, ![64, 21408]⟩
abbrev S64x24x66 : Shape := ⟨3, ![64, 24, 66]⟩
abbrev S64x24x1 : Shape := ⟨3, ![64, 24, 1]⟩
abbrev S64x24x66x1 : Shape := ⟨4, ![64, 24, 66, 1]⟩
abbrev S64x24x1x4 : Shape := ⟨4, ![64, 24, 1, 4]⟩
abbrev S64x24x66x4 : Shape := ⟨4, ![64, 24, 66, 4]⟩
abbrev S64x66x4 : Shape := ⟨3, ![64, 66, 4]⟩
abbrev S64x40x66 : Shape := ⟨3, ![64, 40, 66]⟩
abbrev S64x40x1 : Shape := ⟨3, ![64, 40, 1]⟩
abbrev S64x40x66x1 : Shape := ⟨4, ![64, 40, 66, 1]⟩
abbrev S64x40x1x2 : Shape := ⟨4, ![64, 40, 1, 2]⟩
abbrev S64x40x66x2 : Shape := ⟨4, ![64, 40, 66, 2]⟩
abbrev S64x66x2 : Shape := ⟨3, ![64, 66, 2]⟩
abbrev S1x66x128 : Shape := ⟨3, ![1, 66, 128]⟩
abbrev S64x66x128 : Shape := ⟨3, ![64, 66, 128]⟩
abbrev S64x66x132 : Shape := ⟨3, ![64, 66, 132]⟩
abbrev S4224x132 : Shape := ⟨2, ![4224, 132]⟩
abbrev S4224x128 : Shape := ⟨2, ![4224, 128]⟩
abbrev S1x128 : Shape := ⟨2, ![1, 128]⟩
abbrev S64x8448 : Shape := ⟨2, ![64, 8448]⟩
abbrev S64x66x130 : Shape := ⟨3, ![64, 66, 130]⟩
abbrev S4224x130 : Shape := ⟨2, ![4224, 130]⟩
abbrev S64x70x287 : Shape := ⟨3, ![64, 70, 287]⟩
abbrev S64x70x1 : Shape := ⟨3, ![64, 70, 1]⟩
abbrev S4480x287 : Shape := ⟨2, ![4480, 287]⟩
abbrev S4480x64 : Shape := ⟨2, ![4480, 64]⟩
abbrev S64x4480 : Shape := ⟨2, ![64, 4480]⟩

abbrev nBuf : Space → Nat
  | .hbm => 17
  | .vmem => 24
  | .smem => 0
  | _ => 0

abbrev bufTy : (tb : Table) → Fin (tcTables nBuf tb) → BufTy
  | .hbm, ⟨0, _⟩ => ⟨S4096x32, .f32⟩
  | .hbm, ⟨1, _⟩ => ⟨S4096x24x4, .f32⟩
  | .hbm, ⟨2, _⟩ => ⟨S4096x40x2, .f32⟩
  | .hbm, ⟨3, _⟩ => ⟨S66x128, .f32⟩
  | .hbm, ⟨4, _⟩ => ⟨S287x64, .f32⟩
  | .hbm, ⟨5, _⟩ => ⟨S132x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S130x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S4096x24, .i32⟩
  | .hbm, ⟨14, _⟩ => ⟨S4096x40, .i32⟩
  | .hbm, ⟨15, _⟩ => ⟨S4096x70, .i32⟩
  | .hbm, ⟨16, _⟩ => ⟨S4096x21408, .f32⟩
  | .local _ .vmem, ⟨0, _⟩ => ⟨S64x32, .f32⟩
  | .local _ .vmem, ⟨1, _⟩ => ⟨S64x32, .f32⟩
  | .local _ .vmem, ⟨2, _⟩ => ⟨S64x24x4, .f32⟩
  | .local _ .vmem, ⟨3, _⟩ => ⟨S64x24x4, .f32⟩
  | .local _ .vmem, ⟨4, _⟩ => ⟨S64x40x2, .f32⟩
  | .local _ .vmem, ⟨5, _⟩ => ⟨S64x40x2, .f32⟩
  | .local _ .vmem, ⟨6, _⟩ => ⟨S66x128, .f32⟩
  | .local _ .vmem, ⟨7, _⟩ => ⟨S287x64, .f32⟩
  | .local _ .vmem, ⟨8, _⟩ => ⟨S132x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S130x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S64x24, .i32⟩
  | .local _ .vmem, ⟨17, _⟩ => ⟨S64x24, .i32⟩
  | .local _ .vmem, ⟨18, _⟩ => ⟨S64x40, .i32⟩
  | .local _ .vmem, ⟨19, _⟩ => ⟨S64x40, .i32⟩
  | .local _ .vmem, ⟨20, _⟩ => ⟨S64x70, .i32⟩
  | .local _ .vmem, ⟨21, _⟩ => ⟨S64x70, .i32⟩
  | .local _ .vmem, ⟨22, _⟩ => ⟨S64x21408, .f32⟩
  | .local _ .vmem, ⟨23, _⟩ => ⟨S64x21408, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x24x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x40x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S66x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S287x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S132x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S130x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x24 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x40 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x70 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x21408 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  inb_S64x24_S64x24_0_0 : ∀ a, (![0, 0] : Fin 2 → Nat) a + S64x24.size a ≤ S64x24.size a
  h_S64x24 : 0 < S64x24.numel
  iota_S64x24x66_d2_w32 : S64x24x66.Iotas .tc 32 [2]
  shapeCasts_S64x24_S64x24x1 : S64x24.ShapeCasts S64x24x1
  broadcasts_S64x24x1_S64x24x66 : S64x24x1.Broadcasts S64x24x66
  natLt_1_32 : 1 < 32
  inb_S64x24x4_S64x24x4_0_0_0 : ∀ a, (![0, 0, 0] : Fin 3 → Nat) a + S64x24x4.size a ≤ S64x24x4.size a
  h_S64x24x4 : 0 < S64x24x4.numel
  shapeCasts_S64x24x66_S64x24x66x1 : S64x24x66.ShapeCasts S64x24x66x1
  shapeCasts_S64x24x4_S64x24x1x4 : S64x24x4.ShapeCasts S64x24x1x4
  broadcasts_S64x24x66x1_S64x24x66x4 : S64x24x66x1.Broadcasts S64x24x66x4
  broadcasts_S64x24x1x4_S64x24x66x4 : S64x24x1x4.Broadcasts S64x24x66x4
  reduces_S64x24x66x4_S64x66x4 : S64x24x66x4.Reduces [1] S64x66x4
  inb_S64x40_S64x40_0_0 : ∀ a, (![0, 0] : Fin 2 → Nat) a + S64x40.size a ≤ S64x40.size a
  h_S64x40 : 0 < S64x40.numel
  iota_S64x40x66_d2_w32 : S64x40x66.Iotas .tc 32 [2]
  shapeCasts_S64x40_S64x40x1 : S64x40.ShapeCasts S64x40x1
  broadcasts_S64x40x1_S64x40x66 : S64x40x1.Broadcasts S64x40x66
  inb_S64x40x2_S64x40x2_0_0_0 : ∀ a, (![0, 0, 0] : Fin 3 → Nat) a + S64x40x2.size a ≤ S64x40x2.size a
  h_S64x40x2 : 0 < S64x40x2.numel
  shapeCasts_S64x40x66_S64x40x66x1 : S64x40x66.ShapeCasts S64x40x66x1
  shapeCasts_S64x40x2_S64x40x1x2 : S64x40x2.ShapeCasts S64x40x1x2
  broadcasts_S64x40x66x1_S64x40x66x2 : S64x40x66x1.Broadcasts S64x40x66x2
  broadcasts_S64x40x1x2_S64x40x66x2 : S64x40x1x2.Broadcasts S64x40x66x2
  reduces_S64x40x66x2_S64x66x2 : S64x40x66x2.Reduces [1] S64x66x2
  inb_S66x128_S66x128_0_0 : ∀ a, (![0, 0] : Fin 2 → Nat) a + S66x128.size a ≤ S66x128.size a
  h_S66x128 : 0 < S66x128.numel
  shapeCasts_S66x128_S1x66x128 : S66x128.ShapeCasts S1x66x128
  shapeCasts_S1x66x128_S1x66x128 : S1x66x128.ShapeCasts S1x66x128
  broadcasts_S1x66x128_S64x66x128 : S1x66x128.Broadcasts S64x66x128
  concatenates_S64x66x128_S64x66x4_S64x66x132_d2 : Shape.Concatenates [S64x66x128, S64x66x4] S64x66x132 2
  shapeCasts_S64x66x132_S4224x132 : S64x66x132.ShapeCasts S4224x132
  inb_S132x128_S132x128_0_0 : ∀ a, (![0, 0] : Fin 2 → Nat) a + S132x128.size a ≤ S132x128.size a
  h_S132x128 : 0 < S132x128.numel
  inb_S128_S128_0 : ∀ a, (![0] : Fin 1 → Nat) a + S128.size a ≤ S128.size a
  h_S128 : 0 < S128.numel
  shapeCasts_S128_S1x128 : S128.ShapeCasts S1x128
  broadcasts_S1x128_S4224x128 : S1x128.Broadcasts S4224x128
  inb_S128x128_S128x128_0_0 : ∀ a, (![0, 0] : Fin 2 → Nat) a + S128x128.size a ≤ S128x128.size a
  h_S128x128 : 0 < S128x128.numel
  shapeCasts_S4224x128_S64x8448 : S4224x128.ShapeCasts S64x8448
  concatenates_S64x66x128_S64x66x2_S64x66x130_d2 : Shape.Concatenates [S64x66x128, S64x66x2] S64x66x130 2
  shapeCasts_S64x66x130_S4224x130 : S64x66x130.ShapeCasts S4224x130
  inb_S130x128_S130x128_0_0 : ∀ a, (![0, 0] : Fin 2 → Nat) a + S130x128.size a ≤ S130x128.size a
  h_S130x128 : 0 < S130x128.numel
  inb_S64x70_S64x70_0_0 : ∀ a, (![0, 0] : Fin 2 → Nat) a + S64x70.size a ≤ S64x70.size a
  h_S64x70 : 0 < S64x70.numel
  iota_S64x70x287_d2_w32 : S64x70x287.Iotas .tc 32 [2]
  shapeCasts_S64x70_S64x70x1 : S64x70.ShapeCasts S64x70x1
  broadcasts_S64x70x1_S64x70x287 : S64x70x1.Broadcasts S64x70x287
  shapeCasts_S64x70x287_S4480x287 : S64x70x287.ShapeCasts S4480x287
  inb_S287x64_S287x64_0_0 : ∀ a, (![0, 0] : Fin 2 → Nat) a + S287x64.size a ≤ S287x64.size a
  h_S287x64 : 0 < S287x64.numel
  shapeCasts_S4480x64_S64x4480 : S4480x64.ShapeCasts S64x4480
  inb_S64x32_S64x32_0_0 : ∀ a, (![0, 0] : Fin 2 → Nat) a + S64x32.size a ≤ S64x32.size a
  h_S64x32 : 0 < S64x32.numel
  inb_S64x21408_S64x32_0_0 : ∀ a, (![0, 0] : Fin 2 → Nat) a + S64x32.size a ≤ S64x21408.size a
  inb_S64x21408_S64x8448_0_32 : ∀ a, (![0, 32] : Fin 2 → Nat) a + S64x8448.size a ≤ S64x21408.size a
  h_S64x8448 : 0 < S64x8448.numel
  inb_S64x21408_S64x8448_0_8480 : ∀ a, (![0, 8480] : Fin 2 → Nat) a + S64x8448.size a ≤ S64x21408.size a
  inb_S64x21408_S64x4480_0_16928 : ∀ a, (![0, 16928] : Fin 2 → Nat) a + S64x4480.size a ≤ S64x21408.size a
  h_S64x4480 : 0 < S64x4480.numel
  dot_S4224x132_S132x128_S4224x128_1_0_0_1_n_n_wf : DotDims.WF S4224x132 S132x128 S4224x128 [1] [0] [0] [1] [] []
  dot_S4224x128_S128x128_S4224x128_1_0_0_1_n_n_wf : DotDims.WF S4224x128 S128x128 S4224x128 [1] [0] [0] [1] [] []
  dot_S4224x130_S130x128_S4224x128_1_0_0_1_n_n_wf : DotDims.WF S4224x130 S130x128 S4224x128 [1] [0] [0] [1] [] []
  dot_S4480x287_S287x64_S4480x64_1_0_0_1_n_n_wf : DotDims.WF S4480x287 S287x64 S4480x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32.size a ≤ S4096x32.size a
  hwx0_0 : ∀ i : grid0.Coords, EltTy.bits .f32 = 32 ∨ (Rect.block (s := S4096x32) S64x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x24x4.size a ≤ S4096x24x4.size a
  hwx0_1 : ∀ i : grid0.Coords, EltTy.bits .f32 = 32 ∨ (Rect.block (s := S4096x24x4) S64x24x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x40x2.size a ≤ S4096x40x2.size a
  hwx0_2 : ∀ i : grid0.Coords, EltTy.bits .f32 = 32 ∨ (Rect.block (s := S4096x40x2) S64x40x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S66x128.size a ≤ S66x128.size a
  hwx0_3 : ∀ i : grid0.Coords, EltTy.bits .f32 = 32 ∨ (Rect.block (s := S66x128) S66x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S287x64.size a ≤ S287x64.size a
  hwx0_4 : ∀ i : grid0.Coords, EltTy.bits .f32 = 32 ∨ (Rect.block (s := S287x64) S287x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S132x128.size a ≤ S132x128.size a
  hwx0_5 : ∀ i : grid0.Coords, EltTy.bits .f32 = 32 ∨ (Rect.block (s := S132x128) S132x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S130x128.size a ≤ S130x128.size a
  hwx0_9 : ∀ i : grid0.Coords, EltTy.bits .f32 = 32 ∨ (Rect.block (s := S130x128) S130x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S64x24.size a ≤ S4096x24.size a
  hwx0_13 : ∀ i : grid0.Coords, EltTy.bits .i32 = 32 ∨ (Rect.block (s := S4096x24) S64x24.size (cc0_transform_13 i) (hinb0_13 i)).WholeWords (EltTy.packing .i32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x40.size a ≤ S4096x40.size a
  hwx0_14 : ∀ i : grid0.Coords, EltTy.bits .i32 = 32 ∨ (Rect.block (s := S4096x40) S64x40.size (cc0_transform_14 i) (hinb0_14 i)).WholeWords (EltTy.packing .i32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S64x70.size a ≤ S4096x70.size a
  hwx0_15 : ∀ i : grid0.Coords, EltTy.bits .i32 = 32 ∨ (Rect.block (s := S4096x70) S64x70.size (cc0_transform_15 i) (hinb0_15 i)).WholeWords (EltTy.packing .i32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S64x21408.size a ≤ S4096x21408.size a
  hwx0_16 : ∀ i : grid0.Coords, EltTy.bits .f32 = 32 ∨ (Rect.block (s := S4096x21408) S64x21408.size (cc0_transform_16 i) (hinb0_16 i)).WholeWords (EltTy.packing .f32)

variable [Facts₀]

def dot_S4224x132_S132x128_S4224x128_1_0_0_1_n_n : DotDims S4224x132 S132x128 S4224x128 where
  lhsContracting := [1]
  rhsContracting := [0]
  lhsNonContracting := [0]
  rhsNonContracting := [1]
  lhsBatch := []
  rhsBatch := []
  wf := dot_S4224x132_S132x128_S4224x128_1_0_0_1_n_n_wf
def dot_S4224x128_S128x128_S4224x128_1_0_0_1_n_n : DotDims S4224x128 S128x128 S4224x128 where
  lhsContracting := [1]
  rhsContracting := [0]
  lhsNonContracting := [0]
  rhsNonContracting := [1]
  lhsBatch := []
  rhsBatch := []
  wf := dot_S4224x128_S128x128_S4224x128_1_0_0_1_n_n_wf
def dot_S4224x130_S130x128_S4224x128_1_0_0_1_n_n : DotDims S4224x130 S130x128 S4224x128 where
  lhsContracting := [1]
  rhsContracting := [0]
  lhsNonContracting := [0]
  rhsNonContracting := [1]
  lhsBatch := []
  rhsBatch := []
  wf := dot_S4224x130_S130x128_S4224x128_1_0_0_1_n_n_wf
def dot_S4480x287_S287x64_S4480x64_1_0_0_1_n_n : DotDims S4480x287 S287x64 S4480x64 where
  lhsContracting := [1]
  rhsContracting := [0]
  lhsNonContracting := [0]
  rhsNonContracting := [1]
  lhsBatch := []
  rhsBatch := []
  wf := dot_S4480x287_S287x64_S4480x64_1_0_0_1_n_n_wf

abbrev win0_0 : Pipeline.Window sig grid0 :=
  Pipeline.Window.ofSpec (Memref.whole main_arg0) S64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x24x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x40x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S66x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S287x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S132x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S130x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64x24.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64x40.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S64x70.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0) S64x21408.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x32 : Shape := ⟨2, ![4096, 32]⟩
abbrev S4096x24x4 : Shape := ⟨3, ![4096, 24, 4]⟩
abbrev S4096x40x2 : Shape := ⟨3, ![4096, 40, 2]⟩
abbrev S66x128 : Shape := ⟨2, ![66, 128]⟩
abbrev S287x64 : Shape := ⟨2, ![287, 64]⟩
abbrev S132x128 : Shape := ⟨2, ![132, 128]⟩
abbrev S128 : Shape := ⟨1, ![128]⟩
abbrev S128x128 : Shape := ⟨2, ![128, 128]⟩
abbrev S130x128 : Shape := ⟨2, ![130, 128]⟩
abbrev S4096x24 : Shape := ⟨2, ![4096, 24]⟩
abbrev S4096x40 : Shape := ⟨2, ![4096, 40]⟩
abbrev S4096x70 : Shape := ⟨2, ![4096, 70]⟩
abbrev S4096 : Shape := ⟨1, ![4096]⟩
abbrev S4096x1 : Shape := ⟨2, ![4096, 1]⟩
abbrev S_ : Shape := ⟨0, ![]⟩
abbrev S4096x66x4 : Shape := ⟨3, ![4096, 66, 4]⟩
abbrev S4096x24x1 : Shape := ⟨3, ![4096, 24, 1]⟩
abbrev S4096x24x2 : Shape := ⟨3, ![4096, 24, 2]⟩
abbrev S4096x66x2 : Shape := ⟨3, ![4096, 66, 2]⟩
abbrev S4096x40x1 : Shape := ⟨3, ![4096, 40, 1]⟩
abbrev S4096x70x1 : Shape := ⟨3, ![4096, 70, 1]⟩
abbrev S4096x70x64 : Shape := ⟨3, ![4096, 70, 64]⟩
abbrev S4096x4480 : Shape := ⟨2, ![4096, 4480]⟩
abbrev S4096x66x128 : Shape := ⟨3, ![4096, 66, 128]⟩
abbrev S4096x66x132 : Shape := ⟨3, ![4096, 66, 132]⟩
abbrev S1x1x128 : Shape := ⟨3, ![1, 1, 128]⟩
abbrev S4096x66x130 : Shape := ⟨3, ![4096, 66, 130]⟩
abbrev S4096x8448 : Shape := ⟨2, ![4096, 8448]⟩
abbrev S4096x21408 : Shape := ⟨2, ![4096, 21408]⟩

abbrev nBuf : Space → Nat
  | .hbm => 98
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096x24x4, .f32⟩
  | .hbm, ⟨2, _⟩ => ⟨S4096x40x2, .f32⟩
  | .hbm, ⟨3, _⟩ => ⟨S66x128, .f32⟩
  | .hbm, ⟨4, _⟩ => ⟨S287x64, .f32⟩
  | .hbm, ⟨5, _⟩ => ⟨S132x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S130x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S4096x24, .i32⟩
  | .hbm, ⟨14, _⟩ => ⟨S4096x40, .i32⟩
  | .hbm, ⟨15, _⟩ => ⟨S4096x70, .i32⟩
  | .hbm, ⟨16, _⟩ => ⟨S4096, .i32⟩
  | .hbm, ⟨17, _⟩ => ⟨S4096x1, .i32⟩
  | .hbm, ⟨18, _⟩ => ⟨S_, .f32⟩
  | .hbm, ⟨19, _⟩ => ⟨S4096x66x4, .f32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .i32⟩
  | .hbm, ⟨27, _⟩ => ⟨S_, .i32⟩
  | .hbm, ⟨28, _⟩ => ⟨S4096x24, .i32⟩
  | .hbm, ⟨29, _⟩ => ⟨S4096x24, .i1⟩
  | .hbm, ⟨30, _⟩ => ⟨S_, .i32⟩
  | .hbm, ⟨31, _⟩ => ⟨S4096x24, .i32⟩
  | .hbm, ⟨32, _⟩ => ⟨S4096x24, .i32⟩
  | .hbm, ⟨33, _⟩ => ⟨S4096x24, .i32⟩
  | .hbm, ⟨34, _⟩ => ⟨S4096x24, .i32⟩
  | .hbm, ⟨35, _⟩ => ⟨S4096x24x1, .i32⟩
  | .hbm, ⟨36, _⟩ => ⟨S4096x24x1, .i32⟩
  | .hbm, ⟨37, _⟩ => ⟨S4096x24x2, .i32⟩
  | .hbm, ⟨38, _⟩ => ⟨S4096x66x4, .f32⟩
  | .hbm, ⟨39, _⟩ => ⟨S_, .f32⟩
  | .hbm, ⟨40, _⟩ => ⟨S4096x66x2, .f32⟩
  | .hbm, ⟨41, _⟩ => ⟨S_, .i32⟩
  | .hbm, ⟨42, _⟩ => ⟨S4096x1, .i32⟩
  | .hbm, ⟨43, _⟩ => ⟨S4096x1, .i1⟩
  | .hbm, ⟨44, _⟩ => ⟨S_, .i32⟩
  | .hbm, ⟨45, _⟩ => ⟨S4096x1, .i32⟩
  | .hbm, ⟨46, _⟩ => ⟨S4096x1, .i32⟩
  | .hbm, ⟨47, _⟩ => ⟨S4096x1, .i32⟩
  | .hbm, ⟨48, _⟩ => ⟨S_, .i32⟩
  | .hbm, ⟨49, _⟩ => ⟨S4096x40, .i32⟩
  | .hbm, ⟨50, _⟩ => ⟨S4096x40, .i1⟩
  | .hbm, ⟨51, _⟩ => ⟨S_, .i32⟩
  | .hbm, ⟨52, _⟩ => ⟨S4096x40, .i32⟩
  | .hbm, ⟨53, _⟩ => ⟨S4096x40, .i32⟩
  | .hbm, ⟨54, _⟩ => ⟨S4096x40, .i32⟩
  | .hbm, ⟨55, _⟩ => ⟨S4096x40, .i32⟩
  | .hbm, ⟨56, _⟩ => ⟨S4096x40x1, .i32⟩
  | .hbm, ⟨57, _⟩ => ⟨S4096x40x1, .i32⟩
  | .hbm, ⟨58, _⟩ => ⟨S4096x40x2, .i32⟩
  | .hbm, ⟨59, _⟩ => ⟨S4096x66x2, .f32⟩
  | .hbm, ⟨60, _⟩ => ⟨S_, .i32⟩
  | .hbm, ⟨61, _⟩ => ⟨S4096x70, .i32⟩
  | .hbm, ⟨62, _⟩ => ⟨S4096x70, .i1⟩
  | .hbm, ⟨63, _⟩ => ⟨S_, .i32⟩
  | .hbm, ⟨64, _⟩ => ⟨S4096x70, .i32⟩
  | .hbm, ⟨65, _⟩ => ⟨S4096x70, .i32⟩
  | .hbm, ⟨66, _⟩ => ⟨S4096x70, .i32⟩
  | .hbm, ⟨67, _⟩ => ⟨S4096x70x1, .i32⟩
  | .hbm, ⟨68, _⟩ => ⟨S4096x70x64, .f32⟩
  | .hbm, ⟨69, _⟩ => ⟨S4096x4480, .f32⟩
  | .hbm, ⟨70, _⟩ => ⟨S4096x66x128, .f32⟩
  | .hbm, ⟨71, _⟩ => ⟨S4096x66x132, .f32⟩
  | .hbm, ⟨72, _⟩ => ⟨S4096x66x128, .f32⟩
  | .hbm, ⟨73, _⟩ => ⟨S1x1x128, .f32⟩
  | .hbm, ⟨74, _⟩ => ⟨S4096x66x128, .f32⟩
  | .hbm, ⟨75, _⟩ => ⟨S4096x66x128, .f32⟩
  | .hbm, ⟨76, _⟩ => ⟨S_, .f32⟩
  | .hbm, ⟨77, _⟩ => ⟨S4096x66x128, .f32⟩
  | .hbm, ⟨78, _⟩ => ⟨S4096x66x128, .f32⟩
  | .hbm, ⟨79, _⟩ => ⟨S4096x66x128, .f32⟩
  | .hbm, ⟨80, _⟩ => ⟨S1x1x128, .f32⟩
  | .hbm, ⟨81, _⟩ => ⟨S4096x66x128, .f32⟩
  | .hbm, ⟨82, _⟩ => ⟨S4096x66x128, .f32⟩
  | .hbm, ⟨83, _⟩ => ⟨S4096x66x130, .f32⟩
  | .hbm, ⟨84, _⟩ => ⟨S4096x66x128, .f32⟩
  | .hbm, ⟨85, _⟩ => ⟨S1x1x128, .f32⟩
  | .hbm, ⟨86, _⟩ => ⟨S4096x66x128, .f32⟩
  | .hbm, ⟨87, _⟩ => ⟨S4096x66x128, .f32⟩
  | .hbm, ⟨88, _⟩ => ⟨S_, .f32⟩
  | .hbm, ⟨89, _⟩ => ⟨S4096x66x128, .f32⟩
  | .hbm, ⟨90, _⟩ => ⟨S4096x66x128, .f32⟩
  | .hbm, ⟨91, _⟩ => ⟨S4096x66x128, .f32⟩
  | .hbm, ⟨92, _⟩ => ⟨S1x1x128, .f32⟩
  | .hbm, ⟨93, _⟩ => ⟨S4096x66x128, .f32⟩
  | .hbm, ⟨94, _⟩ => ⟨S4096x66x128, .f32⟩
  | .hbm, ⟨95, _⟩ => ⟨S4096x8448, .f32⟩
  | .hbm, ⟨96, _⟩ => ⟨S4096x8448, .f32⟩
  | .hbm, ⟨97, _⟩ => ⟨S4096x21408, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_c_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call1_cst : Ref sig .tc := ⟨.hbm, 88, rfl⟩
abbrev main_call1_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x66x4 : S_.BroadcastsInDim S4096x66x4 (![] : Fin 0 → Fin S4096x66x4.rank)
  bcast_S_S4096x1 : S_.BroadcastsInDim S4096x1 (![] : Fin 0 → Fin S4096x1.rank)
  bcast_S_S4096x24 : S_.BroadcastsInDim S4096x24 (![] : Fin 0 → Fin S4096x24.rank)
  bcast_S4096x1_S4096x24_0_1 : S4096x1.BroadcastsInDim S4096x24 (![0, 1] : Fin 2 → Fin S4096x24.rank)
  bcast_S4096x24_S4096x24x1_0_1 : S4096x24.BroadcastsInDim S4096x24x1 (![0, 1] : Fin 2 → Fin S4096x24x1.rank)
  concatenates_S4096x24x1_S4096x24x1_S4096x24x2_d2 : Shape.Concatenates [S4096x24x1, S4096x24x1] S4096x24x2 2
  bcast_S_S4096x66x2 : S_.BroadcastsInDim S4096x66x2 (![] : Fin 0 → Fin S4096x66x2.rank)
  bcast_S_S4096x40 : S_.BroadcastsInDim S4096x40 (![] : Fin 0 → Fin S4096x40.rank)
  bcast_S4096x1_S4096x40_0_1 : S4096x1.BroadcastsInDim S4096x40 (![0, 1] : Fin 2 → Fin S4096x40.rank)
  bcast_S4096x40_S4096x40x1_0_1 : S4096x40.BroadcastsInDim S4096x40x1 (![0, 1] : Fin 2 → Fin S4096x40x1.rank)
  concatenates_S4096x40x1_S4096x40x1_S4096x40x2_d2 : Shape.Concatenates [S4096x40x1, S4096x40x1] S4096x40x2 2
  bcast_S_S4096x70 : S_.BroadcastsInDim S4096x70 (![] : Fin 0 → Fin S4096x70.rank)
  bcast_S4096x70_S4096x70x1_0_1 : S4096x70.BroadcastsInDim S4096x70x1 (![0, 1] : Fin 2 → Fin S4096x70x1.rank)
  shapeCasts_S4096x70x64_S4096x4480 : S4096x70x64.ShapeCasts S4096x4480
  bcast_S66x128_S4096x66x128_1_2 : S66x128.BroadcastsInDim S4096x66x128 (![1, 2] : Fin 2 → Fin S4096x66x128.rank)
  concatenates_S4096x66x128_S4096x66x4_S4096x66x132_d2 : Shape.Concatenates [S4096x66x128, S4096x66x4] S4096x66x132 2
  bcast_S128_S1x1x128_2 : S128.BroadcastsInDim S1x1x128 (![2] : Fin 1 → Fin S1x1x128.rank)
  bcast_S1x1x128_S4096x66x128_0_1_2 : S1x1x128.BroadcastsInDim S4096x66x128 (![0, 1, 2] : Fin 3 → Fin S4096x66x128.rank)
  bcast_S_S4096x66x128 : S_.BroadcastsInDim S4096x66x128 (![] : Fin 0 → Fin S4096x66x128.rank)
  concatenates_S4096x66x128_S4096x66x2_S4096x66x130_d2 : Shape.Concatenates [S4096x66x128, S4096x66x2] S4096x66x130 2
  shapeCasts_S4096x66x128_S4096x8448 : S4096x66x128.ShapeCasts S4096x8448
  concatenates_S4096x32_S4096x8448_S4096x8448_S4096x4480_S4096x21408_d1 : Shape.Concatenates [S4096x32, S4096x8448, S4096x8448, S4096x4480] S4096x21408 1
  scatter_S4096x66x4_S4096x24x2_S4096x24x4_2_01_01_2_wf : ScatterDims.WF S4096x66x4 S4096x24x2 S4096x24x4 [2] [0, 1] [0, 1] 2
  scatter_S4096x66x2_S4096x40x2_S4096x40x2_2_01_01_2_wf : ScatterDims.WF S4096x66x2 S4096x40x2 S4096x40x2 [2] [0, 1] [0, 1] 2
  gather_S287x64_S4096x70x1_S4096x70x64_2_0_n_n_0_2_164_wf : GatherDims.WF S287x64 S4096x70x1 S4096x70x64 [2] [0] [] [0] [] 2 ![1, 64]
  dot_S4096x66x132_S132x128_S4096x66x128_2_0_01_1_n_n_wf : DotDims.WF S4096x66x132 S132x128 S4096x66x128 [2] [0] [0, 1] [1] [] []
  dot_S4096x66x128_S128x128_S4096x66x128_2_0_01_1_n_n_wf : DotDims.WF S4096x66x128 S128x128 S4096x66x128 [2] [0] [0, 1] [1] [] []
  dot_S4096x66x130_S130x128_S4096x66x128_2_0_01_1_n_n_wf : DotDims.WF S4096x66x130 S130x128 S4096x66x128 [2] [0] [0, 1] [1] [] []

variable [Facts₀]

def scatter_S4096x66x4_S4096x24x2_S4096x24x4_2_01_01_2 : ScatterDims S4096x66x4 S4096x24x2 S4096x24x4 where
  updateWindowDims := [2]
  insertedWindowDims := [0, 1]
  scatterDimsToOperandDims := [0, 1]
  indexVectorDim := 2
  wf := scatter_S4096x66x4_S4096x24x2_S4096x24x4_2_01_01_2_wf
def scatter_S4096x66x2_S4096x40x2_S4096x40x2_2_01_01_2 : ScatterDims S4096x66x2 S4096x40x2 S4096x40x2 where
  updateWindowDims := [2]
  insertedWindowDims := [0, 1]
  scatterDimsToOperandDims := [0, 1]
  indexVectorDim := 2
  wf := scatter_S4096x66x2_S4096x40x2_S4096x40x2_2_01_01_2_wf
def gather_S287x64_S4096x70x1_S4096x70x64_2_0_n_n_0_2_164 : GatherDims S287x64 S4096x70x1 S4096x70x64 where
  offsetDims := [2]
  collapsedSliceDims := [0]
  operandBatchingDims := []
  startIndicesBatchingDims := []
  startIndexMap := [0]
  indexVectorDim := 2
  sliceSizes := ![1, 64]
  wf := gather_S287x64_S4096x70x1_S4096x70x64_2_0_n_n_0_2_164_wf
def dot_S4096x66x132_S132x128_S4096x66x128_2_0_01_1_n_n : DotDims S4096x66x132 S132x128 S4096x66x128 where
  lhsContracting := [2]
  rhsContracting := [0]
  lhsNonContracting := [0, 1]
  rhsNonContracting := [1]
  lhsBatch := []
  rhsBatch := []
  wf := dot_S4096x66x132_S132x128_S4096x66x128_2_0_01_1_n_n_wf
def dot_S4096x66x128_S128x128_S4096x66x128_2_0_01_1_n_n : DotDims S4096x66x128 S128x128 S4096x66x128 where
  lhsContracting := [2]
  rhsContracting := [0]
  lhsNonContracting := [0, 1]
  rhsNonContracting := [1]
  lhsBatch := []
  rhsBatch := []
  wf := dot_S4096x66x128_S128x128_S4096x66x128_2_0_01_1_n_n_wf
def dot_S4096x66x130_S130x128_S4096x66x128_2_0_01_1_n_n : DotDims S4096x66x130 S130x128 S4096x66x128 where
  lhsContracting := [2]
  rhsContracting := [0]
  lhsNonContracting := [0, 1]
  rhsNonContracting := [1]
  lhsBatch := []
  rhsBatch := []
  wf := dot_S4096x66x130_S130x128_S4096x66x128_2_0_01_1_n_n_wf

class Facts : Prop extends Facts₀ where

variable [Facts]
-- ==== Proof.Spec.lean ====
/-
  What the observation row holds, as one function of the sixteen inputs.

  A sample's row has four stretches.  Columns 0–31 are the continuous features unchanged.  Columns 32–8479 and
  8480–16927 are, for the screen and for the minimap, the outputs of a two-layer perceptron with a rectifier applied
  to each of the 66 character slots: the perceptron's input row for slot t is the slot's embedding (128 numbers)
  followed by the features of the detection whose id is t (4 numbers for the screen, 2 for the minimap; zeros when no
  detection names t).  Columns 16928–21407 are the embeddings (64 numbers each) of the sample's 70 items.

  "The features of the detection whose id is t" is written here as a sum over the detections of a 0/1 weight times the
  detection's features; when a sample's ids are pairwise distinct at most one term is non-zero, and the sum is that
  detection's features.  Likewise an item's embedding is written as the sum over the table's rows of a 0/1 weight times
  the row; for an id inside the table exactly one term is non-zero.
-/
import Idealize.ShloMosaic.PureOps.Ideal
import Idealize.ShloMosaic.Lib.ValueIdx

noncomputable section

namespace Cert.Spec

open Idealize.ShloMosaic Idealize.ShloMosaic.ValueIdx
open scoped BigOperators

/-- The 0/1 weight of a word against a number: one when the word is that number, zero otherwise. -/
def hot (w : BitVec 32) (t : ℕ) : EReal := if w = BitVec.ofNat 32 t then 1 else 0

/-- The features gathered into slot `t`: each detection's features weighted by whether its id is `t`, summed. -/
def slot {N E : ℕ} (ids : Fin N → BitVec 32) (feats : Fin N → Fin E → EReal) (t : ℕ) (e : Fin E) : EReal :=
  ∑ n : Fin N, hot (ids n) t * feats n e

/-- A perceptron's input row: 128 embedding numbers followed by `E` slot features (the row has `K = 128 + E` entries;
    an entry past the end, which no caller asks for, reads zero). -/
def catRow {E K : ℕ} (base : Fin 128 → EReal) (extra : Fin E → EReal) (f : Fin K) : EReal :=
  if h : f.val < 128 then base ⟨f.val, h⟩ else if h' : f.val - 128 < E then extra ⟨f.val - 128, h'⟩ else 0

/-- The hidden layer: the input row times the first weight matrix, plus the bias, rectified. -/
def hidden {K : ℕ} (x : Fin K → EReal) (W1 : Fin K → Fin 128 → EReal) (b1 : Fin 128 → EReal) (k : Fin 128) : EReal :=
  max ((∑ f : Fin K, x f * W1 f k) + b1 k) 0

/-- The perceptron's output: the hidden layer times the second weight matrix, plus the bias. -/
def mlp {K : ℕ} (x : Fin K → EReal) (W1 : Fin K → Fin 128 → EReal) (b1 : Fin 128 → EReal)
    (W2 : Fin 128 → Fin 128 → EReal) (b2 : Fin 128 → EReal) (j : Fin 128) : EReal :=
  (∑ k : Fin 128, hidden x W1 b1 k * W2 k j) + b2 j

/-- An item's embedding as a weighted sum of the table's rows. -/
def itemRow {R : ℕ} (w : BitVec 32) (tab : Fin R → Fin 64 → EReal) (e : Fin 64) : EReal :=
  ∑ r : Fin R, hot w r.val * tab r e

abbrev A4096x32 : Shape := ⟨2, ![4096, 32]⟩
abbrev A4096x24x4 : Shape := ⟨3, ![4096, 24, 4]⟩
abbrev A4096x40x2 : Shape := ⟨3, ![4096, 40, 2]⟩
abbrev A66x128 : Shape := ⟨2, ![66, 128]⟩
abbrev A287x64 : Shape := ⟨2, ![287, 64]⟩
abbrev A132x128 : Shape := ⟨2, ![132, 128]⟩
abbrev A130x128 : Shape := ⟨2, ![130, 128]⟩
abbrev A128x128 : Shape := ⟨2, ![128, 128]⟩
abbrev A128 : Shape := ⟨1, ![128]⟩
abbrev A4096x24 : Shape := ⟨2, ![4096, 24]⟩
abbrev A4096x40 : Shape := ⟨2, ![4096, 40]⟩
abbrev A4096x70 : Shape := ⟨2, ![4096, 70]⟩
abbrev A4096x21408 : Shape := ⟨2, ![4096, 21408]⟩

/-- The sixteen inputs. -/
structure Inputs where
  cont : FVec Ideal A4096x32 .f32
  sfeat : FVec Ideal A4096x24x4 .f32
  mfeat : FVec Ideal A4096x40x2 .f32
  char : FVec Ideal A66x128 .f32
  item : FVec Ideal A287x64 .f32
  Ws1 : FVec Ideal A132x128 .f32
  bs1 : FVec Ideal A128 .f32
  Ws2 : FVec Ideal A128x128 .f32
  bs2 : FVec Ideal A128 .f32
  Wm1 : FVec Ideal A130x128 .f32
  bm1 : FVec Ideal A128 .f32
  Wm2 : FVec Ideal A128x128 .f32
  bm2 : FVec Ideal A128 .f32
  sids : IVec A4096x24 32
  mids : IVec A4096x40 32
  items : IVec A4096x70 32

variable (I : Inputs)

/-- The screen perceptron's input row for sample `b`, slot `t`. -/
def rowS (b : Fin 4096) (t : Fin 66) : Fin 132 → EReal :=
  catRow (fun f => I.char (ix2 t f)) (slot (fun n : Fin 24 => I.sids (ix2 b n)) (fun n e => I.sfeat (ix3 b n e)) t.val)

/-- The minimap perceptron's input row for sample `b`, slot `t`. -/
def rowM (b : Fin 4096) (t : Fin 66) : Fin 130 → EReal :=
  catRow (fun f => I.char (ix2 t f)) (slot (fun n : Fin 40 => I.mids (ix2 b n)) (fun n e => I.mfeat (ix3 b n e)) t.val)

/-- The screen stretch: slot `t`'s perceptron output `j`. -/
def outS (b : Fin 4096) (t : Fin 66) (j : Fin 128) : EReal :=
  mlp (rowS I b t) (fun f k => I.Ws1 (ix2 f k)) (fun k => I.bs1 (ix1 k)) (fun k j => I.Ws2 (ix2 k j)) (fun j => I.bs2 (ix1 j)) j

/-- The minimap stretch. -/
def outM (b : Fin 4096) (t : Fin 66) (j : Fin 128) : EReal :=
  mlp (rowM I b t) (fun f k => I.Wm1 (ix2 f k)) (fun k => I.bm1 (ix1 k)) (fun k j => I.Wm2 (ix2 k j)) (fun j => I.bm2 (ix1 j)) j

/-- The item stretch: item `k`'s embedding number `e`. -/
def outI (b : Fin 4096) (k : Fin 70) (e : Fin 64) : EReal :=
  itemRow (I.items (ix2 b k)) (fun r e => I.item (ix2 r e)) e

/-- Row `(r, t)` of a block's 64 × 66 sample-slot pairs laid out as 4224 rows. -/
abbrev rowOf (r : Fin 64) (t : Fin 66) : Fin 4224 := ⟨r.val * 66 + t.val, by have := r.isLt; have := t.isLt; omega⟩
/-- Column `(t, j)` of a sample's 66 slots of 128 outputs laid out as 8448 columns. -/
abbrev colOf (t : Fin 66) (j : Fin 128) : Fin 8448 := ⟨t.val * 128 + j.val, by have := t.isLt; have := j.isLt; omega⟩
/-- Row `(r, k)` of a block's 64 × 70 sample-item pairs laid out as 4480 rows. -/
abbrev itemRowOf (r : Fin 64) (k : Fin 70) : Fin 4480 := ⟨r.val * 70 + k.val, by have := r.isLt; have := k.isLt; omega⟩
/-- Column `(k, e)` of a sample's 70 items of 64 numbers laid out as 4480 columns. -/
abbrev itemColOf (k : Fin 70) (e : Fin 64) : Fin 4480 := ⟨k.val * 64 + e.val, by have := k.isLt; have := e.isLt; omega⟩

/-- The observation at sample `b`, column `c`. -/
def obsAt (b : Fin 4096) (c : ℕ) (hc : c < 21408) : EReal :=
  if h1 : c < 32 then I.cont (ix2 b ⟨c, h1⟩)
  else if h2 : c < 8480 then outS I b ⟨(c - 32) / 128, by omega⟩ ⟨(c - 32) % 128, Nat.mod_lt _ (by norm_num)⟩
  else if h3 : c < 16928 then outM I b ⟨(c - 8480) / 128, by omega⟩ ⟨(c - 8480) % 128, Nat.mod_lt _ (by norm_num)⟩
  else outI I b ⟨(c - 16928) / 64, by omega⟩ ⟨(c - 16928) % 64, Nat.mod_lt _ (by norm_num)⟩

/-- The whole observation array. -/
def obs : FVec Ideal A4096x21408 .f32 := fun i => obsAt I (i 0) (i 1).val (i 1).isLt

/-- The domain the claim is stated on: every detection id names one of the 66 slots, every item id a row of the item
    table, and within a sample no two screen detections (and no two minimap detections) carry the same id. -/
structure Dom : Prop where
  sids_lt : ∀ (b : Fin 4096) (n : Fin 24), (I.sids (ix2 b n)).toNat < 66
  mids_lt : ∀ (b : Fin 4096) (n : Fin 40), (I.mids (ix2 b n)).toNat < 66
  items_lt : ∀ (b : Fin 4096) (k : Fin 70), (I.items (ix2 b k)).toNat < 287
  sids_inj : ∀ (b : Fin 4096) (n n' : Fin 24), n ≠ n' → I.sids (ix2 b n) ≠ I.sids (ix2 b n')
  mids_inj : ∀ (b : Fin 4096) (n n' : Fin 40), n ≠ n' → I.mids (ix2 b n) ≠ I.mids (ix2 b n')

end Cert.Spec

end
-- ==== Proof.KScreen.lean ====
/-
  The screen perceptron of one block of 64 samples, read entry by entry.

  The body forms a 0/1 weight for every (sample, detection, slot) — is the detection's id the slot's number? —, multiplies it
  with the detection's four features and sums over the 24 detections: the features gathered into each of the 66 slots.  It
  joins them to the slots' embeddings (128 numbers), lays the 64 × 66 rows out as 4224 rows of 132, multiplies by the first
  weight matrix, adds the bias, takes the positive part, multiplies by the second matrix, adds the bias, and lays the
  4224 × 128 result out as 64 rows of 8448.

  Read at sample r, slot t, output j this is the two-layer perceptron of the specification applied to the row
  (embedding of t, gathered features of t): the two re-layings only rename (r, t) as r·66 + t and (t, j) as t·128 + j, a
  matrix product into a zero accumulator is the plain sum over the contracted index, the sum over detections is the
  specification's weighted sum, and the 0/1 weight, computed as an integer compare widened and converted, is 1 or 0.
-/
import proofs.«428663_j32658931319072_2_alg».proof.Proof.Gen.KernelIdeal.Skeleton
import proofs.«428663_j32658931319072_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KScreen

open Cert.KernelIdeal Cert.KernelIdeal.Gen Idealize.ShloMosaic Idealize.ShloMosaic.ValueIdx
open scoped BigOperators

/-! ## The 0/1 weight -/

/-- The comparison bit of a word against the number `t`, widened to a word and read as a signed integer, is the 0/1
    weight: the bit is set exactly when the word is `t`, and a set bit widens to the word one. -/
private theorem hot_word (w : BitVec 32) (t : ℕ) :
    (FloatOps.sitofp (F := Ideal) .f32 ((IntOp.cmpi .eq w (BitVec.ofNat 32 t)).setWidth 32) : Ideal .f32) = Spec.hot w t := by
  show (((((IntOp.cmpi .eq w (BitVec.ofNat 32 t)).setWidth 32).toInt : ℝ)) : EReal) = Spec.hot w t
  unfold Spec.hot
  by_cases h : w = BitVec.ofNat 32 t
  · have hc : IntOp.cmpi .eq w (BitVec.ofNat 32 t) = 1#1 := by simp [IntOp.cmpi, h]
    rw [hc, if_pos h]
    have e1 : ((1#1 : BitVec 1).setWidth 32).toInt = 1 := by decide
    rw [e1]; simp
  · have hb : (w == BitVec.ofNat 32 t) = false := beq_eq_false_iff_ne.mpr h
    have hc : IntOp.cmpi .eq w (BitVec.ofNat 32 t) = 0#1 := by
      show BitVec.ofBool (w == BitVec.ofNat 32 t) = 0#1
      rw [hb]; rfl
    rw [hc, if_neg h]
    have e0 : ((0#1 : BitVec 1).setWidth 32).toInt = 0 := by decide
    rw [e0]; simp

/-! ## The two matrix products -/

/-- The left operand's index of the product at output index `i` and contraction index `q`, axis 0: the output's row. -/
private theorem lhsA_0 (i : S4224x128.Idx) (q : dot_S4224x132_S132x128_S4224x128_1_0_0_1_n_n.contr.Idx) :
    (dot_S4224x132_S132x128_S4224x128_1_0_0_1_n_n.lhsIdx i q 0).val = (i 0).val := by
  unfold DotDims.lhsIdx
  rw [dif_neg (show ¬(0 : Fin S4224x132.rank) ∈ dot_S4224x132_S132x128_S4224x128_1_0_0_1_n_n.lhsBatch by decide), dif_pos (show (0 : Fin S4224x132.rank) ∈ dot_S4224x132_S132x128_S4224x128_1_0_0_1_n_n.lhsNonContracting by decide)]
  rfl
/-- Axis 1 of the left operand's index: the contraction coordinate. -/
private theorem lhsA_1 (i : S4224x128.Idx) (q : dot_S4224x132_S132x128_S4224x128_1_0_0_1_n_n.contr.Idx) :
    (dot_S4224x132_S132x128_S4224x128_1_0_0_1_n_n.lhsIdx i q 1).val = (q ⟨0, by decide⟩).val :=
  dot_S4224x132_S132x128_S4224x128_1_0_0_1_n_n.lhsIdx_val_of_single rfl i q
/-- Axis 0 of the right operand's index: the contraction coordinate. -/
private theorem rhsA_0 (i : S4224x128.Idx) (q : dot_S4224x132_S132x128_S4224x128_1_0_0_1_n_n.contr.Idx) :
    (dot_S4224x132_S132x128_S4224x128_1_0_0_1_n_n.rhsIdx i q 0).val = (q ⟨0, by decide⟩).val :=
  dot_S4224x132_S132x128_S4224x128_1_0_0_1_n_n.rhsIdx_val_of_single rfl i q
/-- Axis 1 of the right operand's index: the output's column. -/
private theorem rhsA_1 (i : S4224x128.Idx) (q : dot_S4224x132_S132x128_S4224x128_1_0_0_1_n_n.contr.Idx) :
    (dot_S4224x132_S132x128_S4224x128_1_0_0_1_n_n.rhsIdx i q 1).val = (i 1).val := by
  unfold DotDims.rhsIdx
  rw [dif_neg (show ¬(1 : Fin S132x128.rank) ∈ dot_S4224x132_S132x128_S4224x128_1_0_0_1_n_n.rhsBatch by decide), dif_pos (show (1 : Fin S132x128.rank) ∈ dot_S4224x132_S132x128_S4224x128_1_0_0_1_n_n.rhsNonContracting by decide)]
  rfl

/-- A matrix product with a zero accumulator, read at row `ρ`, column `c`: the sum over the 132 contraction positions of
    the products of the left operand's row entry and the right operand's column entry. -/
private theorem mmA_apply (x : FVec Ideal S4224x132 .f32) (w : FVec Ideal S132x128 .f32) (ρ : Fin 4224) (c : Fin 128) :
    matmul dot_S4224x132_S132x128_S4224x128_1_0_0_1_n_n (some .fp32) x w (constant (F := Ideal) S4224x128 .f32 0x00000000#32) (ix2 ρ c)
      = ∑ f : Fin 132, x (ix2 ρ f) * w (ix2 f c) := by
  show FloatOps.matmul dot_S4224x132_S132x128_S4224x128_1_0_0_1_n_n (some .fp32) x w (constant (F := Ideal) S4224x128 .f32 0x00000000#32) (ix2 ρ c) = _
  rw [Ideal.matmul_constant_zero_apply, ← Equiv.sum_comp (ValueIdx.contrEquiv1 dot_S4224x132_S132x128_S4224x128_1_0_0_1_n_n 132 rfl rfl).symm]
  refine Finset.sum_congr rfl fun f _ => ?_
  have hk := ValueIdx.contrEquiv1_symm_val dot_S4224x132_S132x128_S4224x128_1_0_0_1_n_n 132 rfl rfl f
  have el : dot_S4224x132_S132x128_S4224x128_1_0_0_1_n_n.lhsIdx (ix2 ρ c) ((ValueIdx.contrEquiv1 dot_S4224x132_S132x128_S4224x128_1_0_0_1_n_n 132 rfl rfl).symm f) = ix2 ρ f := funext fun a => Fin.ext (by
    match a with
    | ⟨0, _⟩ => exact lhsA_0 _ _
    | ⟨1, _⟩ => exact (lhsA_1 _ _).trans hk)
  have er : dot_S4224x132_S132x128_S4224x128_1_0_0_1_n_n.rhsIdx (ix2 ρ c) ((ValueIdx.contrEquiv1 dot_S4224x132_S132x128_S4224x128_1_0_0_1_n_n 132 rfl rfl).symm f) = ix2 f c := funext fun a => Fin.ext (by
    match a with
    | ⟨0, _⟩ => exact (rhsA_0 _ _).trans hk
    | ⟨1, _⟩ => exact rhsA_1 _ _)
  rw [el, er]

/-- The left operand's index of the product at output index `i` and contraction index `q`, axis 0: the output's row. -/
private theorem lhsB_0 (i : S4224x128.Idx) (q : dot_S4224x128_S128x128_S4224x128_1_0_0_1_n_n.contr.Idx) :
    (dot_S4224x128_S128x128_S4224x128_1_0_0_1_n_n.lhsIdx i q 0).val = (i 0).val := by
  unfold DotDims.lhsIdx
  rw [dif_neg (show ¬(0 : Fin S4224x128.rank) ∈ dot_S4224x128_S128x128_S4224x128_1_0_0_1_n_n.lhsBatch by decide), dif_pos (show (0 : Fin S4224x128.rank) ∈ dot_S4224x128_S128x128_S4224x128_1_0_0_1_n_n.lhsNonContracting by decide)]
  rfl
/-- Axis 1 of the left operand's index: the contraction coordinate. -/
private theorem lhsB_1 (i : S4224x128.Idx) (q : dot_S4224x128_S128x128_S4224x128_1_0_0_1_n_n.contr.Idx) :
    (dot_S4224x128_S128x128_S4224x128_1_0_0_1_n_n.lhsIdx i q 1).val = (q ⟨0, by decide⟩).val :=
  dot_S4224x128_S128x128_S4224x128_1_0_0_1_n_n.lhsIdx_val_of_single rfl i q
/-- Axis 0 of the right operand's index: the contraction coordinate. -/
private theorem rhsB_0 (i : S4224x128.Idx) (q : dot_S4224x128_S128x128_S4224x128_1_0_0_1_n_n.contr.Idx) :
    (dot_S4224x128_S128x128_S4224x128_1_0_0_1_n_n.rhsIdx i q 0).val = (q ⟨0, by decide⟩).val :=
  dot_S4224x128_S128x128_S4224x128_1_0_0_1_n_n.rhsIdx_val_of_single rfl i q
/-- Axis 1 of the right operand's index: the output's column. -/
private theorem rhsB_1 (i : S4224x128.Idx) (q : dot_S4224x128_S128x128_S4224x128_1_0_0_1_n_n.contr.Idx) :
    (dot_S4224x128_S128x128_S4224x128_1_0_0_1_n_n.rhsIdx i q 1).val = (i 1).val := by
  unfold DotDims.rhsIdx
  rw [dif_neg (show ¬(1 : Fin S128x128.rank) ∈ dot_S4224x128_S128x128_S4224x128_1_0_0_1_n_n.rhsBatch by decide), dif_pos (show (1 : Fin S128x128.rank) ∈ dot_S4224x128_S128x128_S4224x128_1_0_0_1_n_n.rhsNonContracting by decide)]
  rfl

/-- A matrix product with a zero accumulator, read at row `ρ`, column `c`: the sum over the 128 contraction positions of
    the products of the left operand's row entry and the right operand's column entry. -/
private theorem mmB_apply (x : FVec Ideal S4224x128 .f32) (w : FVec Ideal S128x128 .f32) (ρ : Fin 4224) (c : Fin 128) :
    matmul dot_S4224x128_S128x128_S4224x128_1_0_0_1_n_n (some .fp32) x w (constant (F := Ideal) S4224x128 .f32 0x00000000#32) (ix2 ρ c)
      = ∑ f : Fin 128, x (ix2 ρ f) * w (ix2 f c) := by
  show FloatOps.matmul dot_S4224x128_S128x128_S4224x128_1_0_0_1_n_n (some .fp32) x w (constant (F := Ideal) S4224x128 .f32 0x00000000#32) (ix2 ρ c) = _
  rw [Ideal.matmul_constant_zero_apply, ← Equiv.sum_comp (ValueIdx.contrEquiv1 dot_S4224x128_S128x128_S4224x128_1_0_0_1_n_n 128 rfl rfl).symm]
  refine Finset.sum_congr rfl fun f _ => ?_
  have hk := ValueIdx.contrEquiv1_symm_val dot_S4224x128_S128x128_S4224x128_1_0_0_1_n_n 128 rfl rfl f
  have el : dot_S4224x128_S128x128_S4224x128_1_0_0_1_n_n.lhsIdx (ix2 ρ c) ((ValueIdx.contrEquiv1 dot_S4224x128_S128x128_S4224x128_1_0_0_1_n_n 128 rfl rfl).symm f) = ix2 ρ f := funext fun a => Fin.ext (by
    match a with
    | ⟨0, _⟩ => exact lhsB_0 _ _
    | ⟨1, _⟩ => exact (lhsB_1 _ _).trans hk)
  have er : dot_S4224x128_S128x128_S4224x128_1_0_0_1_n_n.rhsIdx (ix2 ρ c) ((ValueIdx.contrEquiv1 dot_S4224x128_S128x128_S4224x128_1_0_0_1_n_n 128 rfl rfl).symm f) = ix2 f c := funext fun a => Fin.ext (by
    match a with
    | ⟨0, _⟩ => exact (rhsB_0 _ _).trans hk
    | ⟨1, _⟩ => exact rhsB_1 _ _)
  rw [el, er]

/-! ## The bias row and the two reshapes -/

/-- A bias vector viewed as one row and repeated over the 4224 rows reads, at any row, the vector's entry of the column. -/
private theorem bias_apply (b : FVec Ideal S128 .f32) (ρ : Fin 4224) (c : Fin 128) :
    broadcastTo S4224x128 (shapeCast S1x128 b shapeCasts_S128_S1x128) broadcasts_S1x128_S4224x128 (ix2 ρ c) = b (ix1 c) :=
  (broadcastTo_1b_ab_apply _ broadcasts_S1x128_S4224x128 ρ c).trans (shapeCast_a_1a_apply b shapeCasts_S128_S1x128 0 c)

/-- The 64 × 66 × 132 array laid out as 4224 rows: row `r * 66 + t` is the pair (r, t). -/
private theorem castIn_apply (x : FVec Ideal S64x66x132 .f32) (r : Fin 64) (t : Fin 66) (f : Fin 132) :
    shapeCast S4224x132 x shapeCasts_S64x66x132_S4224x132 (ix2 (Spec.rowOf r t) f) = x (ix3 r t f) :=
  shapeCast_apply x _ _ _ (by
    rw [Shape.rowMajor_val_three, Shape.rowMajor_val_two]
    show (r.val * 66 + t.val) * 132 + f.val = (r.val * 66 + t.val) * 132 + f.val
    rfl)

/-- The 4224 × 128 array laid out as 64 rows of 8448: column `t * 128 + j` of row `r` is entry `j` of row `r * 66 + t`. -/
private theorem castOut_apply (y : FVec Ideal S4224x128 .f32) (r : Fin 64) (t : Fin 66) (j : Fin 128) :
    shapeCast S64x8448 y shapeCasts_S4224x128_S64x8448 (ix2 r (Spec.colOf t j)) = y (ix2 (Spec.rowOf r t) j) :=
  shapeCast_apply y _ _ _ (by
    rw [Shape.rowMajor_val_two, Shape.rowMajor_val_two]
    show (r.val * 66 + t.val) * 128 + j.val = r.val * 8448 + (t.val * 128 + j.val)
    omega)

/-! ## The perceptron's input row -/

/-- The embedding table repeated over the samples reads, at (sample, slot, entry), the table at (slot, entry). -/
private theorem pay2_apply (v28 : Vec Ideal S66x128 .f32) (r : Fin 64) (t : Fin 66) (f : Fin 128) :
    k0_pay2 (F := Ideal) v28 (ix3 r t f) = v28 (ix2 t f) := by
  show broadcastTo S64x66x128 (shapeCast S1x66x128 (shapeCast S1x66x128 v28 shapeCasts_S66x128_S1x66x128) shapeCasts_S1x66x128_S1x66x128)
      broadcasts_S1x66x128_S64x66x128 (ix3 r t f) = _
  refine (broadcastTo_apply _ broadcasts_S1x66x128_S64x66x128 (ix3 r t f) (ix3 (0 : Fin 1) t f) (fun a => ?_)).trans ?_
  · match a with
    | ⟨0, _⟩ => rfl
    | ⟨1, _⟩ => rfl
    | ⟨2, _⟩ => rfl
  · rw [shapeCast_self]
    exact shapeCast_ab_1ab_apply v28 shapeCasts_S66x128_S1x66x128 0 t f

/-- Two arrays joined along the last axis, 128 entries then 4: the joined row is the first array's row followed by the second's. -/
private theorem cat_apply (a : FVec Ideal S64x66x128 .f32) (b : FVec Ideal S64x66x4 .f32) (r : Fin 64) (t : Fin 66) (f : Fin 132) :
    concatenate S64x66x132 2 [⟨S64x66x128, a⟩, ⟨S64x66x4, b⟩] concatenates_S64x66x128_S64x66x4_S64x66x132_d2 (ix3 r t f)
      = Spec.catRow (fun g => a (ix3 r t g)) (fun e => b (ix3 r t e)) f := by
  unfold Spec.catRow
  by_cases h : f.val < 128
  · rw [dif_pos h]
    exact concatenate_pair_apply_left (t := S64x66x132) (s₁ := S64x66x128) (s₂ := S64x66x4) (2 : Fin 3) a b
      concatenates_S64x66x128_S64x66x4_S64x66x132_d2 (ix3 r t f) rfl (ix3 r t (⟨f.val, h⟩ : Fin 128)) (fun c => by
        match c with
        | ⟨0, _⟩ => rfl
        | ⟨1, _⟩ => rfl
        | ⟨2, _⟩ => rfl)
  · have h' : f.val - 128 < 4 := by have := f.isLt; omega
    rw [dif_neg h, dif_pos h']
    exact concatenate_pair_apply_right (t := S64x66x132) (s₁ := S64x66x128) (s₂ := S64x66x4) (2 : Fin 3) a b
      concatenates_S64x66x128_S64x66x4_S64x66x132_d2 (ix3 r t f) rfl rfl (ix3 r t (⟨f.val - 128, h'⟩ : Fin 4)) (fun c hc => by
        match c, hc with
        | ⟨0, _⟩, _ => rfl
        | ⟨1, _⟩, _ => rfl
        | ⟨2, _⟩, hc => exact absurd rfl hc)
      (by show (f.val - 128) + 128 = f.val; omega)

/-- The 0/1 weights of one block: at (sample, detection, slot) the detection's id compared with the slot's number. -/
private def hotV (v0 : Vec Ideal S64x24 .i32) : FVec Ideal S64x24x66 .f32 :=
  sitofp .f32 (extui 32 (cmpi .eq (broadcastTo S64x24x66 (shapeCast S64x24x1 v0 shapeCasts_S64x24_S64x24x1) broadcasts_S64x24x1_S64x24x66)
    (iota .tc S64x24x66 32 [2] iota_S64x24x66_d2_w32)) natLt_1_32)

private theorem hotV_apply (v0 : Vec Ideal S64x24 .i32) (r : Fin 64) (n : Fin 24) (t : Fin 66) :
    hotV v0 (ix3 r n t) = Spec.hot (v0 (ix2 r n)) t.val := by
  have e1 : broadcastTo S64x24x66 (shapeCast S64x24x1 v0 shapeCasts_S64x24_S64x24x1) broadcasts_S64x24x1_S64x24x66 (ix3 r n t) = v0 (ix2 r n) :=
    (broadcastTo_apply _ broadcasts_S64x24x1_S64x24x66 (ix3 r n t) (ix3 r n (0 : Fin 1)) (fun a => by
      match a with
      | ⟨0, _⟩ => rfl
      | ⟨1, _⟩ => rfl
      | ⟨2, _⟩ => rfl)).trans
    (shapeCast_apply v0 shapeCasts_S64x24_S64x24x1 _ (ix2 r n) (by
      rw [Shape.rowMajor_val_two, Shape.rowMajor_val_three]
      show r.val * 24 + n.val = (r.val * 24 + n.val) * 1 + 0
      omega))
  have e2 : iota .tc S64x24x66 32 [2] iota_S64x24x66_d2_w32 (ix3 r n t) = BitVec.ofNat 32 t.val :=
    iota_single_apply .tc S64x24x66 32 2 iota_S64x24x66_d2_w32 (ix3 r n t)
  exact (congrArg₂ (fun (a b : BitVec 32) => (FloatOps.sitofp (F := Ideal) .f32 ((IntOp.cmpi .eq a b).setWidth 32) : Ideal .f32)) e1 e2).trans
    (hot_word _ _)

/-- Each detection's features weighted by its 0/1 weight for each slot. -/
private def prodV (v0 : Vec Ideal S64x24 .i32) (v7 : Vec Ideal S64x24x4 .f32) : FVec Ideal S64x24x66x4 .f32 :=
  mulf (broadcastTo S64x24x66x4 (shapeCast S64x24x66x1 (hotV v0) shapeCasts_S64x24x66_S64x24x66x1) broadcasts_S64x24x66x1_S64x24x66x4)
    (broadcastTo S64x24x66x4 (shapeCast S64x24x1x4 v7 shapeCasts_S64x24x4_S64x24x1x4) broadcasts_S64x24x1x4_S64x24x66x4)

private theorem prodV_apply (v0 : Vec Ideal S64x24 .i32) (v7 : Vec Ideal S64x24x4 .f32) (r : Fin 64) (n : Fin 24) (t : Fin 66) (e : Fin 4) :
    prodV v0 v7 (ix4 r n t e) = Spec.hot (v0 (ix2 r n)) t.val * v7 (ix3 r n e) := by
  have e1 : broadcastTo S64x24x66x4 (shapeCast S64x24x66x1 (hotV v0) shapeCasts_S64x24x66_S64x24x66x1) broadcasts_S64x24x66x1_S64x24x66x4 (ix4 r n t e)
      = hotV v0 (ix3 r n t) :=
    (broadcastTo_apply _ broadcasts_S64x24x66x1_S64x24x66x4 (ix4 r n t e) (ix4 r n t (0 : Fin 1)) (fun a => by
      match a with
      | ⟨0, _⟩ => rfl
      | ⟨1, _⟩ => rfl
      | ⟨2, _⟩ => rfl
      | ⟨3, _⟩ => rfl)).trans
    (shapeCast_apply (hotV v0) shapeCasts_S64x24x66_S64x24x66x1 _ (ix3 r n t) (by
      rw [Shape.rowMajor_val_three, Shape.rowMajor_val_four]
      show (r.val * 24 + n.val) * 66 + t.val = ((r.val * 24 + n.val) * 66 + t.val) * 1 + 0
      omega))
  have e2 : broadcastTo S64x24x66x4 (shapeCast S64x24x1x4 v7 shapeCasts_S64x24x4_S64x24x1x4) broadcasts_S64x24x1x4_S64x24x66x4 (ix4 r n t e)
      = v7 (ix3 r n e) :=
    (broadcastTo_apply _ broadcasts_S64x24x1x4_S64x24x66x4 (ix4 r n t e) (ix4 r n (0 : Fin 1) e) (fun a => by
      match a with
      | ⟨0, _⟩ => rfl
      | ⟨1, _⟩ => rfl
      | ⟨2, _⟩ => rfl
      | ⟨3, _⟩ => rfl)).trans
    (shapeCast_apply v7 shapeCasts_S64x24x4_S64x24x1x4 _ (ix3 r n e) (by
      rw [Shape.rowMajor_val_three, Shape.rowMajor_val_four]
      show (r.val * 24 + n.val) * 4 + e.val = ((r.val * 24 + n.val) * 1 + 0) * 4 + e.val
      omega))
  show broadcastTo S64x24x66x4 (shapeCast S64x24x66x1 (hotV v0) shapeCasts_S64x24x66_S64x24x66x1) broadcasts_S64x24x66x1_S64x24x66x4 (ix4 r n t e)
      * broadcastTo S64x24x66x4 (shapeCast S64x24x1x4 v7 shapeCasts_S64x24x4_S64x24x1x4) broadcasts_S64x24x1x4_S64x24x66x4 (ix4 r n t e) = _
  rw [e1, e2, hotV_apply]

/-- The slot sums: the weighted features summed over the 24 detections. -/
private def slotV (v0 : Vec Ideal S64x24 .i32) (v7 : Vec Ideal S64x24x4 .f32) : FVec Ideal S64x66x4 .f32 :=
  multiReduction .add [1] S64x66x4 (prodV v0 v7) 0x00000000#32 reduces_S64x24x66x4_S64x66x4 (.inl rfl) rfl

private theorem slotV_apply (v0 : Vec Ideal S64x24 .i32) (v7 : Vec Ideal S64x24x4 .f32) (r : Fin 64) (t : Fin 66) (e : Fin 4) :
    slotV v0 v7 (ix3 r t e) = Spec.slot (fun n : Fin 24 => v0 (ix2 r n)) (fun n e => v7 (ix3 r n e)) t.val e := by
  unfold slotV Spec.slot
  refine (Ideal.multiReduction_add_single (prodV v0 v7) _ reduces_S64x24x66x4_S64x66x4 (.inl rfl) rfl (ix3 r t e)).trans ?_
  show ∑ n : Fin 24, prodV v0 v7 (reduces_S64x24x66x4_S64x66x4.lift (ix3 r t e) n) = _
  refine Finset.sum_congr rfl fun n _ => ?_
  have hi : reduces_S64x24x66x4_S64x66x4.lift (ix3 r t e) n = ix4 r n t e := funext fun a => Fin.ext (by
    match a with
    | ⟨0, _⟩ => rfl
    | ⟨1, _⟩ => rfl
    | ⟨2, _⟩ => rfl
    | ⟨3, _⟩ => rfl)
  rw [hi, prodV_apply]

/-! ## The two layers -/

/-- The first layer before the rectifier, at row (r, t) and hidden unit `c`: the input row times the first weight
    matrix's column, plus the bias. -/
private theorem pay3_apply (v0 : Vec Ideal S64x24 .i32) (v7 : Vec Ideal S64x24x4 .f32) (v28 : Vec Ideal S66x128 .f32)
    (v34 : Vec Ideal S132x128 .f32) (v36 : Vec Ideal S128 .f32) (r : Fin 64) (t : Fin 66) (c : Fin 128) :
    k0_pay3 (F := Ideal) v0 v7 v28 v34 v36 (ix2 (Spec.rowOf r t) c)
      = (∑ f : Fin 132, Spec.catRow (fun g => v28 (ix2 t g)) (Spec.slot (fun n : Fin 24 => v0 (ix2 r n)) (fun n e => v7 (ix3 r n e)) t.val) f
            * v34 (ix2 f c)) + v36 (ix1 c) := by
  show matmul dot_S4224x132_S132x128_S4224x128_1_0_0_1_n_n (some .fp32)
        (shapeCast S4224x132 (concatenate S64x66x132 2 [⟨S64x66x128, k0_pay2 (F := Ideal) v28⟩, ⟨S64x66x4, slotV v0 v7⟩]
          concatenates_S64x66x128_S64x66x4_S64x66x132_d2) shapeCasts_S64x66x132_S4224x132)
        v34 (constant (F := Ideal) S4224x128 .f32 0x00000000#32) (ix2 (Spec.rowOf r t) c)
      + broadcastTo S4224x128 (shapeCast S1x128 v36 shapeCasts_S128_S1x128) broadcasts_S1x128_S4224x128 (ix2 (Spec.rowOf r t) c) = _
  rw [mmA_apply, bias_apply]
  refine congrArg (· + v36 (ix1 c)) (Finset.sum_congr rfl fun f _ => ?_)
  rw [castIn_apply, cat_apply]
  simp only [pay2_apply, slotV_apply]

/-- The second layer at (sample r, column (t, j)): the rectified hidden row times the second weight matrix's column,
    plus the bias. -/
private theorem pay4_apply (h : FVec Ideal S4224x128 .f32) (v42 : Vec Ideal S128x128 .f32) (v44 : Vec Ideal S128 .f32)
    (r : Fin 64) (t : Fin 66) (j : Fin 128) :
    k0_pay4 (F := Ideal) h (Scalar.ofBits .f32 0x00000000#32) v42 v44 (ix2 r (Spec.colOf t j))
      = (∑ c : Fin 128, max (h (ix2 (Spec.rowOf r t) c)) 0 * v42 (ix2 c j)) + v44 (ix1 j) := by
  show shapeCast S64x8448
      (addf (matmul dot_S4224x128_S128x128_S4224x128_1_0_0_1_n_n (some .fp32)
          (maximumf h (broadcast S4224x128 (Scalar.ofBits (F := Ideal) .f32 0x00000000#32))) v42 (constant (F := Ideal) S4224x128 .f32 0x00000000#32))
        (broadcastTo S4224x128 (shapeCast S1x128 v44 shapeCasts_S128_S1x128) broadcasts_S1x128_S4224x128))
      shapeCasts_S4224x128_S64x8448 (ix2 r (Spec.colOf t j)) = _
  rw [castOut_apply]
  show matmul dot_S4224x128_S128x128_S4224x128_1_0_0_1_n_n (some .fp32)
        (maximumf h (broadcast S4224x128 (Scalar.ofBits (F := Ideal) .f32 0x00000000#32))) v42 (constant (F := Ideal) S4224x128 .f32 0x00000000#32)
        (ix2 (Spec.rowOf r t) j)
      + broadcastTo S4224x128 (shapeCast S1x128 v44 shapeCasts_S128_S1x128) broadcasts_S1x128_S4224x128 (ix2 (Spec.rowOf r t) j) = _
  rw [mmB_apply, bias_apply]
  refine congrArg (· + v44 (ix1 j)) (Finset.sum_congr rfl fun c _ => ?_)
  show max (h (ix2 (Spec.rowOf r t) c)) (Ideal.ofBits .f32 0x00000000#32) * v42 (ix2 c j) = _
  rw [Ideal.ofBits_zero_f32]

/-- The screen stretch of one block: entry (sample r, slot t, output j) of what the body computes for the screen
    perceptron is the perceptron of the slot's embedding followed by the slot's gathered screen features. -/
theorem screen_apply (v0 : Vec Ideal S64x24 .i32) (v7 : Vec Ideal S64x24x4 .f32) (v28 : Vec Ideal S66x128 .f32)
    (v34 : Vec Ideal S132x128 .f32) (v36 : Vec Ideal S128 .f32) (v42 : Vec Ideal S128x128 .f32) (v44 : Vec Ideal S128 .f32)
    (r : Fin 64) (t : Fin 66) (j : Fin 128) :
    k0_pay4 (F := Ideal) (k0_pay3 (F := Ideal) v0 v7 v28 v34 v36) (Scalar.ofBits .f32 0x00000000#32) v42 v44 (ix2 r (Spec.colOf t j))
      = Spec.mlp (Spec.catRow (fun f => v28 (ix2 t f)) (Spec.slot (fun n : Fin 24 => v0 (ix2 r n)) (fun n e => v7 (ix3 r n e)) t.val))
          (fun (f : Fin 132) k => v34 (ix2 f k)) (fun k => v36 (ix1 k)) (fun k j => v42 (ix2 k j)) (fun j => v44 (ix1 j)) j := by
  rw [pay4_apply]
  unfold Spec.mlp Spec.hidden
  refine congrArg (· + v44 (ix1 j)) (Finset.sum_congr rfl fun c _ => ?_)
  rw [pay3_apply]

end Cert.KScreen

end
-- ==== Proof.KMini.lean ====
/-
  The minimap perceptron of one block of 64 samples, read entry by entry.

  The same computation as for the screen, at other sizes: 40 detections of two features each are gathered into the 66
  slots by a sum of 0/1-weighted features, joined to the slots' embeddings into rows of 130, laid out as 4224 rows,
  sent through the two-layer perceptron with a rectifier, and laid out as 64 rows of 8448.

  Read at sample r, slot t, output j this is the specification's perceptron of the row (embedding of t, gathered minimap
  features of t): the re-layings rename (r, t) as r·66 + t and (t, j) as t·128 + j, and each matrix product into a zero
  accumulator is the plain sum over the contracted index.
-/
import proofs.«428663_j32658931319072_2_alg».proof.Proof.Gen.KernelIdeal.Skeleton
import proofs.«428663_j32658931319072_2_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KMini

open Cert.KernelIdeal Cert.KernelIdeal.Gen Idealize.ShloMosaic Idealize.ShloMosaic.ValueIdx
open scoped BigOperators

/-! ## The 0/1 weight -/

/-- Comparing a word with a number for equality, widening the bit and converting it gives the 0/1 weight. -/
private theorem hot_word (w : BitVec 32) (t : ℕ) :
    FloatOps.sitofp (F := Ideal) .f32 ((IntOp.cmpi .eq w (BitVec.ofNat 32 t)).setWidth 32) = Spec.hot w t := by
  unfold Spec.hot
  by_cases h : w = BitVec.ofNat 32 t
  · rw [if_pos h, StableHlo.Predicate.cmpi_eq_iff.mpr h]
    show (((BitVec.setWidth 32 1#1).toInt : ℝ) : EReal) = 1
    have e : (BitVec.setWidth 32 1#1).toInt = 1 := by decide
    rw [e]; norm_num
  · rw [if_neg h, eq_zero_of_ne_one (fun h' => h (StableHlo.Predicate.cmpi_eq_iff.mp h'))]
    show (((BitVec.setWidth 32 0#1).toInt : ℝ) : EReal) = 0
    have e : (BitVec.setWidth 32 0#1).toInt = 0 := by decide
    rw [e]; norm_num

/-! ## Unit axes: casts that add one, broadcasts that fill one -/

section Layout
variable {α : Type}

/-- An [a, b] array cast to [a, b, 1] reads (i, j) at (i, j, u). -/
private theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, c] array cast to [a, b, c, 1] reads (i, j, k) at (i, j, k, u). -/
private theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An [a, b, c] array cast to [a, b, 1, c] reads (i, j, k) at (i, j, u, k). -/
private theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_four, Shape.rowMajor_val_three]
    show (i.val * b + j.val) * c + k.val = ((i.val * b + j.val) * 1 + u.val) * c + k.val
    rw [hu, Nat.mul_one, Nat.add_zero])

end Layout

section Fill
variable {α : Type}

/-- An [a, b, 1] array broadcast to [a, b, c] reads (i, j, 0) at (i, j, k). -/
private theorem fill_ab1_abc {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, b, c, 1] array broadcast to [a, b, c, d] reads (i, j, k, 0) at (i, j, k, l). -/
private theorem fill_abc1_abcd {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An [a, b, 1, d] array broadcast to [a, b, c, d] reads (i, j, 0, l) at (i, j, k, l). -/
private theorem fill_ab1d_abcd {a b c d : ℕ} (x : (⟨4, ![a, b, 1, d]⟩ : Shape).Idx → α)
    (h : (⟨4, ![a, b, 1, d]⟩ : Shape).Broadcasts ⟨4, ![a, b, c, d]⟩) (i : Fin a) (j : Fin b) (k : Fin c) (l : Fin d) :
    broadcastTo ⟨4, ![a, b, c, d]⟩ x h (ix4 i j k l) = x (ix4 i j (0 : Fin 1) l) := by
  refine broadcastTo_apply x h (ix4 i j k l) (ix4 i j (0 : Fin 1) l) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ =>
    show l.val = if d = 1 then 0 else l.val
    split
    · have := l.isLt; omega
    · rfl

/-- A [1, b, c] array broadcast to [a, b, c] reads (0, j, k) at (i, j, k). -/
private theorem fill_1bc_abc {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Fill

/-! ## The slot sums and the broadcast table -/

/-- The slot sums: entry (r, t, e) is the sum over the sample's detections of the 0/1 weight of the detection's id
    against t, times the detection's feature e. -/
private theorem slots_apply (v14 : Vec Ideal S64x40 .i32) (v21 : Vec Ideal S64x40x2 .f32) (r : Fin 64) (t : Fin 66) (e : Fin 2) :
    k0_pay1 (F := Ideal) v14 v21 (ix3 r t e)
      = Spec.slot (fun n : Fin 40 => v14 (ix2 r n)) (fun n e => v21 (ix3 r n e)) t.val e := by
  unfold k0_pay1 Spec.slot
  refine (Ideal.multiReduction_add_single _ _ reduces_S64x40x66x2_S64x66x2 _ _ (ix3 r t e)).trans ?_
  refine Finset.sum_congr rfl fun (n : Fin 40) _ => ?_
  have hidx : reduces_S64x40x66x2_S64x66x2.lift (ix3 r t e) n = ix4 r n t e :=
    funext fun a => Fin.ext (match a with | ⟨0, _⟩ => rfl | ⟨1, _⟩ => rfl | ⟨2, _⟩ => rfl | ⟨3, _⟩ => rfl)
  rw [hidx, mulf_apply]
  congr 1
  · refine (fill_abc1_abcd _ _ r n t e).trans ?_
    refine (cast_abc_abc1 _ _ r n t 0).trans ?_
    rw [sitofp_apply, extui_apply]
    show FloatOps.sitofp (F := Ideal) .f32 ((IntOp.cmpi .eq _ _).setWidth 32) = _
    rw [fill_ab1_abc _ _ r n t, cast_ab_ab1 _ _ r n 0, iota_single_apply]
    exact hot_word _ _
  · refine (fill_ab1d_abcd _ _ r n t e).trans ?_
    exact cast_abc_ab1c _ _ r n 0 e

/-- The table broadcast over the samples: entry (r, t, f) is the table at (t, f). -/
private theorem table_apply (v28 : Vec Ideal S66x128 .f32) (r : Fin 64) (t : Fin 66) (f : Fin 128) :
    k0_pay2 (F := Ideal) v28 (ix3 r t f) = v28 (ix2 t f) := by
  unfold k0_pay2
  refine (fill_1bc_abc _ _ r t f).trans ?_
  rw [shapeCast_self]
  exact shapeCast_ab_1ab_apply _ _ 0 t f

/-! ## The perceptron's input rows -/

/-- The concatenation of the broadcast table and the slot sums along the last axis, at (r, t, f): the slot's embedding
    for f below 128, the slot's gathered features after. -/
private theorem row_apply (v14 : Vec Ideal S64x40 .i32) (v21 : Vec Ideal S64x40x2 .f32) (v28 : Vec Ideal S66x128 .f32)
    (r : Fin 64) (t : Fin 66) (f : Fin 130) :
    concatenate S64x66x130 2 [⟨S64x66x128, k0_pay2 (F := Ideal) v28⟩, ⟨S64x66x2, k0_pay1 (F := Ideal) v14 v21⟩]
        concatenates_S64x66x128_S64x66x2_S64x66x130_d2 (ix3 r t f)
      = Spec.catRow (fun f => v28 (ix2 t f)) (Spec.slot (fun n : Fin 40 => v14 (ix2 r n)) (fun n e => v21 (ix3 r n e)) t.val) f := by
  unfold Spec.catRow
  by_cases h : f.val < 128
  · rw [dif_pos h]
    refine (concatenate_pair_apply_left (t := S64x66x130) (s₁ := S64x66x128) (s₂ := S64x66x2) _ _ _ _ (ix3 r t f) rfl (ix3 r t (⟨f.val, h⟩ : Fin 128)) ?_).trans
      (table_apply v28 r t ⟨f.val, h⟩)
    intro b
    match b with
    | ⟨0, _⟩ => rfl
    | ⟨1, _⟩ => rfl
    | ⟨2, _⟩ => rfl
  · have h' : f.val - 128 < 2 := by have := f.isLt; omega
    rw [dif_neg h, dif_pos h']
    refine (concatenate_pair_apply_right (t := S64x66x130) (s₁ := S64x66x128) (s₂ := S64x66x2) _ _ _ _ (ix3 r t f) rfl rfl (ix3 r t (⟨f.val - 128, h'⟩ : Fin 2)) ?_ ?_).trans
      (slots_apply v14 v21 r t ⟨f.val - 128, h'⟩)
    · intro b hb
      match b, hb with
      | ⟨0, _⟩, _ => rfl
      | ⟨1, _⟩, _ => rfl
      | ⟨2, _⟩, hb => exact absurd (Fin.ext rfl) hb
    · show (f.val - 128) + 128 = f.val
      omega

section Regroup
variable {α : Type}

/-- The 64 × 66 sample-slot pairs laid out as 4224 rows: row (r, t) reads the pair's row. -/
private theorem rows_in (x : S64x66x130.Idx → α) (h : S64x66x130.ShapeCasts S4224x130) (r : Fin 64) (t : Fin 66) (f : Fin 130) :
    shapeCast S4224x130 x h (ix2 (Spec.rowOf r t) f) = x (ix3 r t f) :=
  shapeCast_apply x h _ _ (by
    rw [Shape.rowMajor_val_three, Shape.rowMajor_val_two]
    rfl)

/-- The 4224 rows of 128 outputs laid out as 64 samples of 8448 columns: column (t, j) of sample r reads row (r, t) at j. -/
private theorem cols_out (x : S4224x128.Idx → α) (h : S4224x128.ShapeCasts S64x8448) (r : Fin 64) (t : Fin 66) (j : Fin 128) :
    shapeCast S64x8448 x h (ix2 r (Spec.colOf t j)) = x (ix2 (Spec.rowOf r t) j) :=
  shapeCast_apply x h _ _ (by
    rw [Shape.rowMajor_val_two, Shape.rowMajor_val_two]
    show (r.val * 66 + t.val) * 128 + j.val = r.val * 8448 + (t.val * 128 + j.val)
    omega)

/-- A bias vector viewed as one row and repeated over the 4224 rows reads, at (ρ, k), its entry k. -/
private theorem bias_apply (b : S128.Idx → α) (h₁ : S128.ShapeCasts S1x128) (h₂ : S1x128.Broadcasts S4224x128) (ρ : Fin 4224) (k : Fin 128) :
    broadcastTo S4224x128 (shapeCast S1x128 b h₁) h₂ (ix2 ρ k) = b (ix1 k) :=
  (broadcastTo_1b_ab_apply _ h₂ ρ k).trans (shapeCast_a_1a_apply b h₁ 0 k)

end Regroup

/-! ## The two matrix products -/

/-- At output (ρ, k) and contraction position q, the left operand of the first layer's product is read in row ρ. -/
private theorem mm1_lhs_0 (i : S4224x128.Idx) (q : dot_S4224x130_S130x128_S4224x128_1_0_0_1_n_n.contr.Idx) :
    (dot_S4224x130_S130x128_S4224x128_1_0_0_1_n_n.lhsIdx i q 0).val = (i 0).val := by
  unfold DotDims.lhsIdx
  rw [dif_neg (show ¬(0 : Fin S4224x130.rank) ∈ dot_S4224x130_S130x128_S4224x128_1_0_0_1_n_n.lhsBatch by decide), dif_pos (show (0 : Fin S4224x130.rank) ∈ dot_S4224x130_S130x128_S4224x128_1_0_0_1_n_n.lhsNonContracting by decide)]
  rfl
/-- … and in column q. -/
private theorem mm1_lhs_1 (i : S4224x128.Idx) (q : dot_S4224x130_S130x128_S4224x128_1_0_0_1_n_n.contr.Idx) :
    (dot_S4224x130_S130x128_S4224x128_1_0_0_1_n_n.lhsIdx i q 1).val = (q ⟨0, by decide⟩).val :=
  dot_S4224x130_S130x128_S4224x128_1_0_0_1_n_n.lhsIdx_val_of_single rfl i q
/-- The right operand is read in row q … -/
private theorem mm1_rhs_0 (i : S4224x128.Idx) (q : dot_S4224x130_S130x128_S4224x128_1_0_0_1_n_n.contr.Idx) :
    (dot_S4224x130_S130x128_S4224x128_1_0_0_1_n_n.rhsIdx i q 0).val = (q ⟨0, by decide⟩).val :=
  dot_S4224x130_S130x128_S4224x128_1_0_0_1_n_n.rhsIdx_val_of_single rfl i q
/-- … and in column k. -/
private theorem mm1_rhs_1 (i : S4224x128.Idx) (q : dot_S4224x130_S130x128_S4224x128_1_0_0_1_n_n.contr.Idx) :
    (dot_S4224x130_S130x128_S4224x128_1_0_0_1_n_n.rhsIdx i q 1).val = (i 1).val := by
  unfold DotDims.rhsIdx
  rw [dif_neg (show ¬(1 : Fin S130x128.rank) ∈ dot_S4224x130_S130x128_S4224x128_1_0_0_1_n_n.rhsBatch by decide), dif_pos (show (1 : Fin S130x128.rank) ∈ dot_S4224x130_S130x128_S4224x128_1_0_0_1_n_n.rhsNonContracting by decide)]
  rfl

/-- the first layer's product onto the zero accumulator, at (ρ, k): the sum over the 130 contraction positions of row ρ of the left operand
    times column k of the right one. -/
private theorem mm1_apply (x : FVec Ideal S4224x130 .f32) (w : FVec Ideal S130x128 .f32) (ρ : Fin 4224) (k : Fin 128) :
    matmul dot_S4224x130_S130x128_S4224x128_1_0_0_1_n_n (some .fp32) x w (constant (F := Ideal) S4224x128 .f32 0x00000000#32) (ix2 ρ k)
      = ∑ f : Fin 130, x (ix2 ρ f) * w (ix2 f k) := by
  show FloatOps.matmul dot_S4224x130_S130x128_S4224x128_1_0_0_1_n_n (some .fp32) x w (constant (F := Ideal) S4224x128 .f32 0x00000000#32) (ix2 ρ k) = _
  rw [Ideal.matmul_constant_zero_apply, ← Equiv.sum_comp (contrEquiv1 dot_S4224x130_S130x128_S4224x128_1_0_0_1_n_n 130 rfl rfl).symm]
  refine Finset.sum_congr rfl fun f _ => ?_
  have hk := contrEquiv1_symm_val dot_S4224x130_S130x128_S4224x128_1_0_0_1_n_n 130 rfl rfl f
  have el : dot_S4224x130_S130x128_S4224x128_1_0_0_1_n_n.lhsIdx (ix2 ρ k) ((contrEquiv1 dot_S4224x130_S130x128_S4224x128_1_0_0_1_n_n 130 rfl rfl).symm f) = ix2 ρ f := funext fun a => Fin.ext (by
    match a with
    | ⟨0, _⟩ => exact mm1_lhs_0 _ _
    | ⟨1, _⟩ => exact (mm1_lhs_1 _ _).trans hk)
  have er : dot_S4224x130_S130x128_S4224x128_1_0_0_1_n_n.rhsIdx (ix2 ρ k) ((contrEquiv1 dot_S4224x130_S130x128_S4224x128_1_0_0_1_n_n 130 rfl rfl).symm f) = ix2 f k := funext fun a => Fin.ext (by
    match a with
    | ⟨0, _⟩ => exact (mm1_rhs_0 _ _).trans hk
    | ⟨1, _⟩ => exact mm1_rhs_1 _ _)
  rw [el, er]

/-- At output (ρ, k) and contraction position q, the left operand of the second layer's product is read in row ρ. -/
private theorem mm2_lhs_0 (i : S4224x128.Idx) (q : dot_S4224x128_S128x128_S4224x128_1_0_0_1_n_n.contr.Idx) :
    (dot_S4224x128_S128x128_S4224x128_1_0_0_1_n_n.lhsIdx i q 0).val = (i 0).val := by
  unfold DotDims.lhsIdx
  rw [dif_neg (show ¬(0 : Fin S4224x128.rank) ∈ dot_S4224x128_S128x128_S4224x128_1_0_0_1_n_n.lhsBatch by decide), dif_pos (show (0 : Fin S4224x128.rank) ∈ dot_S4224x128_S128x128_S4224x128_1_0_0_1_n_n.lhsNonContracting by decide)]
  rfl
/-- … and in column q. -/
private theorem mm2_lhs_1 (i : S4224x128.Idx) (q : dot_S4224x128_S128x128_S4224x128_1_0_0_1_n_n.contr.Idx) :
    (dot_S4224x128_S128x128_S4224x128_1_0_0_1_n_n.lhsIdx i q 1).val = (q ⟨0, by decide⟩).val :=
  dot_S4224x128_S128x128_S4224x128_1_0_0_1_n_n.lhsIdx_val_of_single rfl i q
/-- The right operand is read in row q … -/
private theorem mm2_rhs_0 (i : S4224x128.Idx) (q : dot_S4224x128_S128x128_S4224x128_1_0_0_1_n_n.contr.Idx) :
    (dot_S4224x128_S128x128_S4224x128_1_0_0_1_n_n.rhsIdx i q 0).val = (q ⟨0, by decide⟩).val :=
  dot_S4224x128_S128x128_S4224x128_1_0_0_1_n_n.rhsIdx_val_of_single rfl i q
/-- … and in column k. -/
private theorem mm2_rhs_1 (i : S4224x128.Idx) (q : dot_S4224x128_S128x128_S4224x128_1_0_0_1_n_n.contr.Idx) :
    (dot_S4224x128_S128x128_S4224x128_1_0_0_1_n_n.rhsIdx i q 1).val = (i 1).val := by
  unfold DotDims.rhsIdx
  rw [dif_neg (show ¬(1 : Fin S128x128.rank) ∈ dot_S4224x128_S128x128_S4224x128_1_0_0_1_n_n.rhsBatch by decide), dif_pos (show (1 : Fin S128x128.rank) ∈ dot_S4224x128_S128x128_S4224x128_1_0_0_1_n_n.rhsNonContracting by decide)]
  rfl

/-- the second layer's product onto the zero accumulator, at (ρ, k): the sum over the 128 contraction positions of row ρ of the left operand
    times column k of the right one. -/
private theorem mm2_apply (x : FVec Ideal S4224x128 .f32) (w : FVec Ideal S128x128 .f32) (ρ : Fin 4224) (k : Fin 128) :
    matmul dot_S4224x128_S128x128_S4224x128_1_0_0_1_n_n (some .fp32) x w (constant (F := Ideal) S4224x128 .f32 0x00000000#32) (ix2 ρ k)
      = ∑ f : Fin 128, x (ix2 ρ f) * w (ix2 f k) := by
  show FloatOps.matmul dot_S4224x128_S128x128_S4224x128_1_0_0_1_n_n (some .fp32) x w (constant (F := Ideal) S4224x128 .f32 0x00000000#32) (ix2 ρ k) = _
  rw [Ideal.matmul_constant_zero_apply, ← Equiv.sum_comp (contrEquiv1 dot_S4224x128_S128x128_S4224x128_1_0_0_1_n_n 128 rfl rfl).symm]
  refine Finset.sum_congr rfl fun f _ => ?_
  have hk := contrEquiv1_symm_val dot_S4224x128_S128x128_S4224x128_1_0_0_1_n_n 128 rfl rfl f
  have el : dot_S4224x128_S128x128_S4224x128_1_0_0_1_n_n.lhsIdx (ix2 ρ k) ((contrEquiv1 dot_S4224x128_S128x128_S4224x128_1_0_0_1_n_n 128 rfl rfl).symm f) = ix2 ρ f := funext fun a => Fin.ext (by
    match a with
    | ⟨0, _⟩ => exact mm2_lhs_0 _ _
    | ⟨1, _⟩ => exact (mm2_lhs_1 _ _).trans hk)
  have er : dot_S4224x128_S128x128_S4224x128_1_0_0_1_n_n.rhsIdx (ix2 ρ k) ((contrEquiv1 dot_S4224x128_S128x128_S4224x128_1_0_0_1_n_n 128 rfl rfl).symm f) = ix2 f k := funext fun a => Fin.ext (by
    match a with
    | ⟨0, _⟩ => exact (mm2_rhs_0 _ _).trans hk
    | ⟨1, _⟩ => exact mm2_rhs_1 _ _)
  rw [el, er]

/-! ## The minimap perceptron -/

/-- The minimap stretch of one block: entry (sample r, slot t, output j) of what the body computes for the minimap
    perceptron is the perceptron of the slot's embedding followed by the slot's gathered minimap features. -/
theorem mini_apply (v14 : Vec Ideal S64x40 .i32) (v21 : Vec Ideal S64x40x2 .f32) (v28 : Vec Ideal S66x128 .f32)
    (v51 : Vec Ideal S130x128 .f32) (v53 : Vec Ideal S128 .f32) (v59 : Vec Ideal S128x128 .f32) (v61 : Vec Ideal S128 .f32)
    (r : Fin 64) (t : Fin 66) (j : Fin 128) :
    k0_pay5 (F := Ideal) (k0_pay1 (F := Ideal) v14 v21) (k0_pay2 (F := Ideal) v28) v51 v53 v59 v61 (ix2 r (Spec.colOf t j))
      = Spec.mlp (Spec.catRow (fun f => v28 (ix2 t f)) (Spec.slot (fun n : Fin 40 => v14 (ix2 r n)) (fun n e => v21 (ix3 r n e)) t.val))
          (fun (f : Fin 130) k => v51 (ix2 f k)) (fun k => v53 (ix1 k)) (fun k j => v59 (ix2 k j)) (fun j => v61 (ix1 j)) j := by
  unfold k0_pay5 Spec.mlp
  refine (cols_out _ _ r t j).trans ?_
  rw [addf_apply]
  congr 1
  · refine (mm2_apply _ _ (Spec.rowOf r t) j).trans ?_
    refine Finset.sum_congr rfl fun k _ => ?_
    congr 1
    unfold Spec.hidden
    rw [maximumf_apply, broadcast_apply, addf_apply]
    congr 1
    · congr 1
      · refine (mm1_apply _ _ (Spec.rowOf r t) k).trans ?_
        refine Finset.sum_congr rfl fun f _ => ?_
        congr 1
        exact (rows_in _ _ r t f).trans (row_apply v14 v21 v28 r t f)
      · exact bias_apply v53 _ _ (Spec.rowOf r t) k
    · exact Ideal.ofBits_zero_f32
  · exact bias_apply v61 _ _ (Spec.rowOf r t) j

end Cert.KMini

end
-- ==== Proof.KItem.lean ====
/-
  The item embeddings of one block of 64 samples, read entry by entry.

  For every (sample, item) the body forms the row of 287 weights that is 1 where the item's id is the row's number and 0
  elsewhere, lays the 64 × 70 rows out as 4480 rows, multiplies by the 287 × 64 item table, and lays the 4480 × 64 result
  out as 64 rows of 4480.  Read at sample r, item k, number e this is the sum over the table's rows of weight times entry:
  the specification's weighted row sum.  The re-layings rename (r, k) as r·70 + k and (k, e) as k·64 + e.
-/
import proofs.«428663_j32658931319072_2_alg».proof.Proof.Gen.KernelIdeal.Skeleton
import proofs.«428663_j32658931319072_2_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KItem

open Cert.KernelIdeal Cert.KernelIdeal.Gen Idealize.ShloMosaic Idealize.ShloMosaic.ValueIdx
open scoped BigOperators

/-! ## The 0/1 weight

  The body compares an item's id with a table row's number, widens the one-bit answer to a word and reads that word as
  a signed integer: the result is 1 when the id is the row's number and 0 otherwise. -/

/-- The widened comparison bit, read as a number, is the 0/1 weight of the id against the row's number. -/
private theorem weight_eq (w : BitVec 32) (q : ℕ) :
    FloatOps.sitofp (F := Ideal) .f32 ((IntOp.cmpi .eq w (BitVec.ofNat 32 q)).setWidth 32) = Spec.hot w q := by
  show ((((IntOp.cmpi .eq w (BitVec.ofNat 32 q)).setWidth 32).toInt : ℝ) : EReal) = _
  unfold Spec.hot
  by_cases h : w = BitVec.ofNat 32 q
  · rw [if_pos h, StableHlo.Predicate.cmpi_eq_iff.mpr h]
    have h1 : ((1#1 : BitVec 1).setWidth 32).toInt = 1 := by decide
    rw [h1]
    norm_num
  · rw [if_neg h, eq_zero_of_ne_one (fun h1 => h (StableHlo.Predicate.cmpi_eq_iff.mp h1))]
    have h0 : ((0#1 : BitVec 1).setWidth 32).toInt = 0 := by decide
    rw [h0]
    norm_num

/-! ## The one-hot matrix

  Row (sample r, item k) of the 4480 × 287 matrix the product's left operand is holds, in column q, the weight of the
  item's id against q: the ids are given a trailing unit axis, repeated along it 287 times, compared with the column
  number, and the three-axis array of weights is laid out with the sample and item axes merged. -/

/-- The left operand of the product. -/
private def oneHot (v66 : Vec Ideal S64x70 .i32) : FVec Ideal S4480x287 .f32 :=
  shapeCast S4480x287
    (sitofp .f32
      (extui 32
        (cmpi .eq
          (broadcastTo S64x70x287 (shapeCast S64x70x1 v66 shapeCasts_S64x70_S64x70x1) broadcasts_S64x70x1_S64x70x287)
          (iota .tc S64x70x287 32 [2] iota_S64x70x287_d2_w32))
        natLt_1_32))
    shapeCasts_S64x70x287_S4480x287

/-- The one-hot matrix at row (r, k), column q. -/
private theorem oneHot_apply (v66 : Vec Ideal S64x70 .i32) (r : Fin 64) (k : Fin 70) (q : Fin 287) :
    oneHot v66 (ix2 (Spec.itemRowOf r k) q) = Spec.hot (v66 (ix2 r k)) q.val := by
  unfold oneHot
  -- the merged row (r, k) of the matrix is position (r, k) of the three-axis array: the same row-major place
  refine (shapeCast_apply _ shapeCasts_S64x70x287_S4480x287 (ix2 (Spec.itemRowOf r k) q) (ix3 r k q) ?_).trans ?_
  · rw [Shape.rowMajor_val_three, Shape.rowMajor_val_two]
    show (r.val * 70 + k.val) * 287 + q.val = (r.val * 70 + k.val) * 287 + q.val
    rfl
  rw [sitofp_apply, extui_apply]
  show FloatOps.sitofp (F := Ideal) .f32 ((IntOp.cmpi .eq _ _).setWidth 32) = _
  -- the repeated id at (r, k, q) is the id at (r, k, 0) of the array with the unit axis, which is the id at (r, k)
  have hid : broadcastTo S64x70x287 (shapeCast S64x70x1 v66 shapeCasts_S64x70_S64x70x1) broadcasts_S64x70x1_S64x70x287
      (ix3 r k q) = v66 (ix2 r k) := by
    refine (broadcastTo_apply _ broadcasts_S64x70x1_S64x70x287 (ix3 r k q) (ix3 r k (0 : Fin 1)) ?_).trans ?_
    · intro a
      match a with
      | ⟨0, _⟩ => show r.val = if (64 : ℕ) = 1 then 0 else r.val; rw [if_neg (by decide)]
      | ⟨1, _⟩ => show k.val = if (70 : ℕ) = 1 then 0 else k.val; rw [if_neg (by decide)]
      | ⟨2, _⟩ => show (0 : ℕ) = if (1 : ℕ) = 1 then 0 else q.val; rw [if_pos rfl]
    refine shapeCast_apply _ shapeCasts_S64x70_S64x70x1 (ix3 r k (0 : Fin 1)) (ix2 r k) ?_
    rw [Shape.rowMajor_val_three, Shape.rowMajor_val_two]
    show r.val * 70 + k.val = (r.val * 70 + k.val) * 1 + 0
    omega
  -- the column number at (r, k, q) is q
  have hcol : iota .tc S64x70x287 32 [2] iota_S64x70x287_d2_w32 (ix3 r k q) = BitVec.ofNat 32 q.val :=
    iota_single_apply .tc S64x70x287 32 2 iota_S64x70x287_d2_w32 (ix3 r k q)
  rw [hid, hcol]
  exact weight_eq _ _

/-! ## The product

  The contraction of the 4480 × 287 matrix with the 287 × 64 table, into zero, at (ρ, e): the sum over the 287 rows of
  the table of the matrix's entry (ρ, q) times the table's entry (q, e). -/

private theorem lhs_item_0 (i : S4480x64.Idx) (q : dot_S4480x287_S287x64_S4480x64_1_0_0_1_n_n.contr.Idx) :
    (dot_S4480x287_S287x64_S4480x64_1_0_0_1_n_n.lhsIdx i q 0).val = (i 0).val := by
  unfold DotDims.lhsIdx
  rw [dif_neg (show ¬(0 : Fin S4480x287.rank) ∈ dot_S4480x287_S287x64_S4480x64_1_0_0_1_n_n.lhsBatch by decide), dif_pos (show (0 : Fin S4480x287.rank) ∈ dot_S4480x287_S287x64_S4480x64_1_0_0_1_n_n.lhsNonContracting by decide)]
  rfl
private theorem lhs_item_1 (i : S4480x64.Idx) (q : dot_S4480x287_S287x64_S4480x64_1_0_0_1_n_n.contr.Idx) :
    (dot_S4480x287_S287x64_S4480x64_1_0_0_1_n_n.lhsIdx i q 1).val = (q ⟨0, by decide⟩).val :=
  dot_S4480x287_S287x64_S4480x64_1_0_0_1_n_n.lhsIdx_val_of_single rfl i q
private theorem rhs_item_0 (i : S4480x64.Idx) (q : dot_S4480x287_S287x64_S4480x64_1_0_0_1_n_n.contr.Idx) :
    (dot_S4480x287_S287x64_S4480x64_1_0_0_1_n_n.rhsIdx i q 0).val = (q ⟨0, by decide⟩).val :=
  dot_S4480x287_S287x64_S4480x64_1_0_0_1_n_n.rhsIdx_val_of_single rfl i q
private theorem rhs_item_1 (i : S4480x64.Idx) (q : dot_S4480x287_S287x64_S4480x64_1_0_0_1_n_n.contr.Idx) :
    (dot_S4480x287_S287x64_S4480x64_1_0_0_1_n_n.rhsIdx i q 1).val = (i 1).val := by
  unfold DotDims.rhsIdx
  rw [dif_neg (show ¬(1 : Fin S287x64.rank) ∈ dot_S4480x287_S287x64_S4480x64_1_0_0_1_n_n.rhsBatch by decide), dif_pos (show (1 : Fin S287x64.rank) ∈ dot_S4480x287_S287x64_S4480x64_1_0_0_1_n_n.rhsNonContracting by decide)]
  rfl

/-- The product into zero at (ρ, e), as a sum over the table's rows. -/
private theorem product_apply (x : FVec Ideal S4480x287 .f32) (y : FVec Ideal S287x64 .f32) (ρ : Fin 4480) (e : Fin 64) :
    matmul dot_S4480x287_S287x64_S4480x64_1_0_0_1_n_n (some .fp32) x y (constant (F := Ideal) S4480x64 .f32 0x00000000#32) (ix2 ρ e)
      = ∑ q : Fin 287, x (ix2 ρ q) * y (ix2 q e) := by
  show FloatOps.matmul dot_S4480x287_S287x64_S4480x64_1_0_0_1_n_n (some .fp32) x y (constant (F := Ideal) S4480x64 .f32 0x00000000#32) (ix2 ρ e) = _
  rw [Ideal.matmul_constant_zero_apply, ← Equiv.sum_comp (contrEquiv1 dot_S4480x287_S287x64_S4480x64_1_0_0_1_n_n 287 rfl rfl).symm]
  refine Finset.sum_congr rfl fun q _ => ?_
  have hq := contrEquiv1_symm_val dot_S4480x287_S287x64_S4480x64_1_0_0_1_n_n 287 rfl rfl q
  have el : dot_S4480x287_S287x64_S4480x64_1_0_0_1_n_n.lhsIdx (ix2 ρ e) ((contrEquiv1 dot_S4480x287_S287x64_S4480x64_1_0_0_1_n_n 287 rfl rfl).symm q) = ix2 ρ q := funext fun a => Fin.ext (by
    match a with
    | ⟨0, _⟩ => exact lhs_item_0 _ _
    | ⟨1, _⟩ => exact (lhs_item_1 _ _).trans hq)
  have er : dot_S4480x287_S287x64_S4480x64_1_0_0_1_n_n.rhsIdx (ix2 ρ e) ((contrEquiv1 dot_S4480x287_S287x64_S4480x64_1_0_0_1_n_n 287 rfl rfl).symm q) = ix2 q e := funext fun a => Fin.ext (by
    match a with
    | ⟨0, _⟩ => exact (rhs_item_0 _ _).trans hq
    | ⟨1, _⟩ => exact rhs_item_1 _ _)
  rw [el, er]

/-! ## The item stretch -/

/-- The item stretch of one block: entry (sample r, item k, number e) of what the body computes is the item table's rows
    weighted by whether the item's id names them, summed. -/
theorem item_apply (v66 : Vec Ideal S64x70 .i32) (v74 : Vec Ideal S287x64 .f32) (r : Fin 64) (k : Fin 70) (e : Fin 64) :
    k0_pay6 (F := Ideal) v66 v74 (ix2 r (Spec.itemColOf k e))
      = Spec.itemRow (v66 (ix2 r k)) (fun (q : Fin 287) e => v74 (ix2 q e)) e := by
  -- the body's value is the product of the one-hot matrix with the table, its 4480 rows of 64 laid out as 64 rows of 4480
  have hpay : k0_pay6 (F := Ideal) v66 v74
      = shapeCast S64x4480
          (matmul dot_S4480x287_S287x64_S4480x64_1_0_0_1_n_n (some .fp32) (oneHot v66) v74
            (constant (F := Ideal) S4480x64 .f32 0x00000000#32))
          shapeCasts_S4480x64_S64x4480 := rfl
  rw [hpay]
  -- column (k, e) of row r is row (r, k), column e of the product: the same row-major place
  refine (shapeCast_apply _ shapeCasts_S4480x64_S64x4480 (ix2 r (Spec.itemColOf k e)) (ix2 (Spec.itemRowOf r k) e) ?_).trans ?_
  · rw [Shape.rowMajor_val_two, Shape.rowMajor_val_two]
    show (r.val * 70 + k.val) * 64 + e.val = r.val * 4480 + (k.val * 64 + e.val)
    omega
  refine (product_apply (oneHot v66) v74 (Spec.itemRowOf r k) e).trans ?_
  unfold Spec.itemRow
  refine Finset.sum_congr rfl fun q _ => ?_
  rw [oneHot_apply]

end Cert.KItem

end
-- ==== Proof.KArray.lean ====
/-
  From the blocks the kernel writes to the whole result array.

  Grid point p handles the 64 samples 64p … 64p + 63: it reads block p of the six per-sample inputs (continuous features,
  screen and minimap features and ids, item ids) and the whole of the ten tables, weights and biases, and writes block p of
  the result, a 64 × 21408 slab, by four stores side by side: columns 0–31 the continuous features, columns 32–8479 the
  screen perceptron's outputs, columns 8480–16927 the minimap perceptron's, columns 16928–21407 the item embeddings.

  So at every index of the slab the stored value is the specification's observation at (64p + r, column): the three
  computed stretches by their entry-by-entry readings, with a column split as t·128 + j or k·64 + e.  The 64 slabs are
  disjoint and cover the 4096 rows (row b lies in slab b / 64), hence the result array is the observation array.
-/
import proofs.«428663_j32658931319072_2_alg».proof.Proof.Gen.KernelIdeal.Value
import proofs.«428663_j32658931319072_2_alg».proof.Proof.KScreen
import proofs.«428663_j32658931319072_2_alg».proof.Proof.KMini
import proofs.«428663_j32658931319072_2_alg».proof.Proof.KItem
import Idealize.ShloMosaic.Lib.Pipeline.Value
import Idealize.ShloMosaic.Lib.ValueIdx

noncomputable section

namespace Cert.KArray

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## One block of the result, as one function of the sixteen input blocks -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

section Block

/- The sixteen blocks the body loads, in the windows' order: the continuous features, the screen and minimap detections'
   features, the slot embeddings, the item table, the two perceptrons' weights and biases, the screen, minimap and item ids. -/
variable (x0 : Vec Ideal S64x32 .f32) (x1 : Vec Ideal S64x24x4 .f32) (x2 : Vec Ideal S64x40x2 .f32)
  (x3 : Vec Ideal S66x128 .f32) (x4 : Vec Ideal S287x64 .f32)
  (x5 : Vec Ideal S132x128 .f32) (x6 : Vec Ideal S128 .f32) (x7 : Vec Ideal S128x128 .f32) (x8 : Vec Ideal S128 .f32)
  (x9 : Vec Ideal S130x128 .f32) (x10 : Vec Ideal S128 .f32) (x11 : Vec Ideal S128x128 .f32) (x12 : Vec Ideal S128 .f32)
  (x13 : Vec Ideal S64x24 .i32) (x14 : Vec Ideal S64x40 .i32) (x15 : Vec Ideal S64x70 .i32)

/-- What the body stores on columns 32–8479: the screen perceptron's output, 64 rows of 66 × 128 numbers. -/
local notation "payS" =>
  k0_pay4 (F := Ideal) (k0_pay3 (F := Ideal) x13 x1 x3 x5 x6) (Scalar.ofBits FTy.f32 0x00000000#32) x7 x8
/-- What it stores on columns 8480–16927: the minimap perceptron's output. -/
local notation "payM" =>
  k0_pay5 (F := Ideal) (k0_pay1 (F := Ideal) x14 x2) (k0_pay2 (F := Ideal) x3) x9 x10 x11 x12
/-- What it stores on columns 16928–21407: the item embeddings, 64 rows of 70 × 64 numbers. -/
local notation "payI" => k0_pay6 (F := Ideal) x15 x4

/-- Entry (row r, column q) of a block of the result: by column range, the continuous block's entry, the screen
    perceptron's output, the minimap perceptron's output, the item embeddings. -/
def blkAt (r : Fin 64) (q : ℕ) (hq : q < 21408) : EReal :=
  if h1 : q < 32 then x0 (ix2 r ⟨q, h1⟩)
  else if h2 : q < 8480 then payS (ix2 r (⟨q - 32, by omega⟩ : Fin 8448))
  else if h3 : q < 16928 then payM (ix2 r (⟨q - 8480, by omega⟩ : Fin 8448))
  else payI (ix2 r (⟨q - 16928, by omega⟩ : Fin 4480))

/-- The block as a function of the block's index. -/
def blkFun : S64x21408.Idx → EReal :=
  fun y => blkAt x0 x1 x2 x3 x4 x5 x6 x7 x8 x9 x10 x11 x12 x13 x14 x15 ⟨(y 0).val, idx2_lt0 y⟩ (y 1).val (idx2_lt1 y)

variable {x0 x1 x2 x3 x4 x5 x6 x7 x8 x9 x10 x11 x12 x13 x14 x15}

local notation "blkAt'" => blkAt x0 x1 x2 x3 x4 x5 x6 x7 x8 x9 x10 x11 x12 x13 x14 x15
local notation "blkFun'" => blkFun x0 x1 x2 x3 x4 x5 x6 x7 x8 x9 x10 x11 x12 x13 x14 x15

/-! ### The block function on each of its four column ranges -/

theorem blkAt_cont (r : Fin 64) (q : Fin 32) (n : ℕ) (hn : n < 21408) (h : n = q.val) :
    blkAt' r n hn = x0 (ix2 r q) := by
  subst h
  unfold blkAt
  exact dif_pos q.isLt

theorem blkAt_screen (r : Fin 64) (q : Fin 8448) (n : ℕ) (hn : n < 21408) (h : n = 32 + q.val) :
    blkAt' r n hn = payS (ix2 r q) := by
  subst h
  unfold blkAt
  rw [dif_neg (by omega), dif_pos (by have := q.isLt; omega)]
  exact congrArg (fun z : Fin 8448 => payS (ix2 r z)) (Fin.ext (by show 32 + q.val - 32 = q.val; omega))

theorem blkAt_mini (r : Fin 64) (q : Fin 8448) (n : ℕ) (hn : n < 21408) (h : n = 8480 + q.val) :
    blkAt' r n hn = payM (ix2 r q) := by
  subst h
  unfold blkAt
  rw [dif_neg (by omega), dif_neg (by omega), dif_pos (by have := q.isLt; omega)]
  exact congrArg (fun z : Fin 8448 => payM (ix2 r z)) (Fin.ext (by show 8480 + q.val - 8480 = q.val; omega))

theorem blkAt_items (r : Fin 64) (q : Fin 4480) (n : ℕ) (hn : n < 21408) (h : n = 16928 + q.val) :
    blkAt' r n hn = payI (ix2 r q) := by
  subst h
  unfold blkAt
  rw [dif_neg (by omega), dif_neg (by omega), dif_neg (by omega)]
  exact congrArg (fun z : Fin 4480 => payI (ix2 r z)) (Fin.ext (by show 16928 + q.val - 16928 = q.val; omega))

theorem blkFun_cont (y : S64x21408.Idx) (r : Fin 64) (q : Fin 32) (h0 : (y 0).val = r.val) (h1 : (y 1).val = q.val) :
    blkFun' y = x0 (ix2 r q) := by
  obtain rfl : r = ⟨(y 0).val, idx2_lt0 y⟩ := Fin.ext h0.symm
  exact blkAt_cont _ q _ _ h1

theorem blkFun_screen (y : S64x21408.Idx) (r : Fin 64) (q : Fin 8448) (h0 : (y 0).val = r.val)
    (h1 : (y 1).val = 32 + q.val) : blkFun' y = payS (ix2 r q) := by
  obtain rfl : r = ⟨(y 0).val, idx2_lt0 y⟩ := Fin.ext h0.symm
  exact blkAt_screen _ q _ _ h1

theorem blkFun_mini (y : S64x21408.Idx) (r : Fin 64) (q : Fin 8448) (h0 : (y 0).val = r.val)
    (h1 : (y 1).val = 8480 + q.val) : blkFun' y = payM (ix2 r q) := by
  obtain rfl : r = ⟨(y 0).val, idx2_lt0 y⟩ := Fin.ext h0.symm
  exact blkAt_mini _ q _ _ h1

theorem blkFun_items (y : S64x21408.Idx) (r : Fin 64) (q : Fin 4480) (h0 : (y 0).val = r.val)
    (h1 : (y 1).val = 16928 + q.val) : blkFun' y = payI (ix2 r q) := by
  obtain rfl : r = ⟨(y 0).val, idx2_lt0 y⟩ := Fin.ext h0.symm
  exact blkAt_items _ q _ _ h1

/-! ### Each of the body's four stores writes that function's values on its own columns -/

theorem piece_cont (inb : ∀ a, (![0, 0] : Fin 2 → ℕ) a + (![64, 32] : Fin 2 → ℕ) a ≤ S64x21408.size a)
    (x : S64x32.Idx) : x0 x = blkFun' ((Rect.unit (s := S64x21408) ![0, 0] ![64, 32] inb).emb x) := by
  refine (congrArg x0 (eq_ix2 x)).trans (blkFun_cont _ (x 0) (x 1) ?_ ?_).symm
  · rw [Rect.emb_apply]; show 0 + 1 * (x 0).val = (x 0).val; omega
  · rw [Rect.emb_apply]; show 0 + 1 * (x 1).val = (x 1).val; omega

theorem piece_screen (inb : ∀ a, (![0, 32] : Fin 2 → ℕ) a + (![64, 8448] : Fin 2 → ℕ) a ≤ S64x21408.size a)
    (x : S64x8448.Idx) : payS x = blkFun' ((Rect.unit (s := S64x21408) ![0, 32] ![64, 8448] inb).emb x) := by
  refine (congrArg payS (eq_ix2 x)).trans (blkFun_screen _ (x 0) (x 1) ?_ ?_).symm
  · rw [Rect.emb_apply]; show 0 + 1 * (x 0).val = (x 0).val; omega
  · rw [Rect.emb_apply]; show 32 + 1 * (x 1).val = 32 + (x 1).val; omega

theorem piece_mini (inb : ∀ a, (![0, 8480] : Fin 2 → ℕ) a + (![64, 8448] : Fin 2 → ℕ) a ≤ S64x21408.size a)
    (x : S64x8448.Idx) : payM x = blkFun' ((Rect.unit (s := S64x21408) ![0, 8480] ![64, 8448] inb).emb x) := by
  refine (congrArg payM (eq_ix2 x)).trans (blkFun_mini _ (x 0) (x 1) ?_ ?_).symm
  · rw [Rect.emb_apply]; show 0 + 1 * (x 0).val = (x 0).val; omega
  · rw [Rect.emb_apply]; show 8480 + 1 * (x 1).val = 8480 + (x 1).val; omega

theorem piece_items (inb : ∀ a, (![0, 16928] : Fin 2 → ℕ) a + (![64, 4480] : Fin 2 → ℕ) a ≤ S64x21408.size a)
    (x : S64x4480.Idx) : payI x = blkFun' ((Rect.unit (s := S64x21408) ![0, 16928] ![64, 4480] inb).emb x) := by
  refine (congrArg payI (eq_ix2 x)).trans (blkFun_items _ (x 0) (x 1) ?_ ?_).symm
  · rw [Rect.emb_apply]; show 0 + 1 * (x 0).val = (x 0).val; omega
  · rw [Rect.emb_apply]; show 16928 + 1 * (x 1).val = 16928 + (x 1).val; omega

/-- What the body leaves in the result's staging buffer, at any index of the block: the four stores tile the block, and
    each store's payload is the block function on the store's columns. -/
theorem out_apply (c : Dev nD) (i : grid0.Coords)
    (a1 : Memref sig .tc .vmem S64x32 .f32) (w1 : a1.IsWhole) (a2 : Memref sig .tc .vmem S64x24x4 .f32) (w2 : a2.IsWhole)
    (a3 : Memref sig .tc .vmem S64x40x2 .f32) (w3 : a3.IsWhole) (a4 : Memref sig .tc .vmem S66x128 .f32) (w4 : a4.IsWhole)
    (a5 : Memref sig .tc .vmem S287x64 .f32) (w5 : a5.IsWhole) (a6 : Memref sig .tc .vmem S132x128 .f32) (w6 : a6.IsWhole)
    (a7 : Memref sig .tc .vmem S128 .f32) (w7 : a7.IsWhole) (a8 : Memref sig .tc .vmem S128x128 .f32) (w8 : a8.IsWhole)
    (a9 : Memref sig .tc .vmem S128 .f32) (w9 : a9.IsWhole) (a10 : Memref sig .tc .vmem S130x128 .f32) (w10 : a10.IsWhole)
    (a11 : Memref sig .tc .vmem S128 .f32) (w11 : a11.IsWhole) (a12 : Memref sig .tc .vmem S128x128 .f32) (w12 : a12.IsWhole)
    (a13 : Memref sig .tc .vmem S128 .f32) (w13 : a13.IsWhole) (a14 : Memref sig .tc .vmem S64x24 .i32) (w14 : a14.IsWhole)
    (a15 : Memref sig .tc .vmem S64x40 .i32) (w15 : a15.IsWhole) (a16 : Memref sig .tc .vmem S64x70 .i32) (w16 : a16.IsWhole)
    (a17 : Memref sig .tc .vmem S64x21408 .f32) (w17 : a17.IsWhole) (y : S64x21408.Idx) :
    out0_A_16 (F := Ideal) c i a1 w1 a2 w2 a3 w3 a4 w4 a5 w5 a6 w6 a7 w7 a8 w8 a9 w9 a10 w10 a11 w11 a12 w12 a13 w13 a14 w14
        a15 w15 a16 w16 a17 w17 x0 x1 x2 x3 x4 x5 x6 x7 x8 x9 x10 x11 x12 x13 x14 x15 y
      = blkFun' y := by
  have hcov := cover0_A_16 (F := Ideal) c i a1 w1 a2 w2 a3 w3 a4 w4 a5 w5 a6 w6 a7 w7 a8 w8 a9 w9 a10 w10 a11 w11 a12 w12
    a13 w13 a14 w14 a15 w15 a16 w16 a17 w17 x0 x1 x2 x3 x4 x5 x6 x7 x8 x9 x10 x11 x12 x13 x14 x15
  unfold out0_A_16
  rw [View.read_writes_eq_canon _ _ _ hcov]
  refine View.canon_apply_of_pieces blkFun' _ ?_ y (hcov y)
  unfold kernelRun0_A
  dsimp only
  sl_unfold_words
  simp only [View.readAt_eq_ld, w1.read_unread, w2.read_unread, w3.read_unread, w4.read_unread, w5.read_unread,
    w6.read_unread, w7.read_unread, w8.read_unread, w9.read_unread, w10.read_unread, w11.read_unread, w12.read_unread,
    w13.read_unread, w14.read_unread, w15.read_unread, w16.read_unread,
    View.ld_unit_zero (S := S64x32) hz2, View.ld_unit_zero (S := S64x24x4) hz3, View.ld_unit_zero (S := S64x40x2) hz3,
    View.ld_unit_zero (S := S66x128) hz2, View.ld_unit_zero (S := S287x64) hz2, View.ld_unit_zero (S := S132x128) hz2,
    View.ld_unit_zero (S := S128) hz1, View.ld_unit_zero (S := S128x128) hz2, View.ld_unit_zero (S := S130x128) hz2,
    View.ld_unit_zero (S := S64x24) hz2, View.ld_unit_zero (S := S64x40) hz2, View.ld_unit_zero (S := S64x70) hz2]
  intro p hp x
  simp only [List.mem_cons, List.mem_nil_iff, or_false] at hp
  rcases hp with rfl | rfl | rfl | rfl
  · exact piece_items inb_S64x21408_S64x4480_0_16928 x
  · exact piece_mini inb_S64x21408_S64x8448_0_8480 x
  · exact piece_screen inb_S64x21408_S64x8448_0_32 x
  · exact piece_cont inb_S64x21408_S64x32_0_0 x

/-! ## The block function of the blocks of the arrays is the observation array -/

/-- Row r of block T of an array blocked by 64 along its first axis. -/
abbrev gRow (T : ℕ) (hT : T < 64) (r : Fin 64) : Fin 4096 := ⟨64 * T + r.val, by have := r.isLt; omega⟩

/-- The screen stretch: with the slot embeddings, weights and biases the whole arrays and the detections' ids and features
    block T of theirs, the body's screen payload at column q of row r is slot q / 128's perceptron output q % 128 for
    sample 64 T + r. -/
theorem screen_obs (I : Spec.Inputs) (T : ℕ) (hT : T < 64)
    (h1 : ∀ (r : Fin 64) (n : Fin 24) (e : Fin 4), x1 (ix3 r n e) = I.sfeat (ix3 (gRow T hT r) n e))
    (h13 : ∀ (r : Fin 64) (n : Fin 24), x13 (ix2 r n) = I.sids (ix2 (gRow T hT r) n))
    (r : Fin 64) (q : Fin 8448) :
    k0_pay4 (F := Ideal) (k0_pay3 (F := Ideal) x13 x1 I.char I.Ws1 I.bs1) (Scalar.ofBits .f32 0x00000000#32) I.Ws2 I.bs2 (ix2 r q)
      = Spec.outS I (gRow T hT r) ⟨q.val / 128, by have := q.isLt; omega⟩ ⟨q.val % 128, Nat.mod_lt _ (by norm_num)⟩ := by
  have e : q = Spec.colOf ⟨q.val / 128, by have := q.isLt; omega⟩ ⟨q.val % 128, Nat.mod_lt _ (by norm_num)⟩ :=
    Fin.ext (by show q.val = q.val / 128 * 128 + q.val % 128; omega)
  refine (congrArg (fun z : Fin 8448 => k0_pay4 (F := Ideal) (k0_pay3 (F := Ideal) x13 x1 I.char I.Ws1 I.bs1)
    (Scalar.ofBits .f32 0x00000000#32) I.Ws2 I.bs2 (ix2 r z)) e).trans ?_
  refine (Cert.KScreen.screen_apply x13 x1 I.char I.Ws1 I.bs1 I.Ws2 I.bs2 r _ _).trans ?_
  unfold Spec.outS Spec.rowS
  simp only [h1, h13]

/-- The minimap stretch, likewise. -/
theorem mini_obs (I : Spec.Inputs) (T : ℕ) (hT : T < 64)
    (h2 : ∀ (r : Fin 64) (n : Fin 40) (e : Fin 2), x2 (ix3 r n e) = I.mfeat (ix3 (gRow T hT r) n e))
    (h14 : ∀ (r : Fin 64) (n : Fin 40), x14 (ix2 r n) = I.mids (ix2 (gRow T hT r) n))
    (r : Fin 64) (q : Fin 8448) :
    k0_pay5 (F := Ideal) (k0_pay1 (F := Ideal) x14 x2) (k0_pay2 (F := Ideal) I.char) I.Wm1 I.bm1 I.Wm2 I.bm2 (ix2 r q)
      = Spec.outM I (gRow T hT r) ⟨q.val / 128, by have := q.isLt; omega⟩ ⟨q.val % 128, Nat.mod_lt _ (by norm_num)⟩ := by
  have e : q = Spec.colOf ⟨q.val / 128, by have := q.isLt; omega⟩ ⟨q.val % 128, Nat.mod_lt _ (by norm_num)⟩ :=
    Fin.ext (by show q.val = q.val / 128 * 128 + q.val % 128; omega)
  refine (congrArg (fun z : Fin 8448 => k0_pay5 (F := Ideal) (k0_pay1 (F := Ideal) x14 x2) (k0_pay2 (F := Ideal) I.char)
    I.Wm1 I.bm1 I.Wm2 I.bm2 (ix2 r z)) e).trans ?_
  refine (Cert.KMini.mini_apply x14 x2 I.char I.Wm1 I.bm1 I.Wm2 I.bm2 r _ _).trans ?_
  unfold Spec.outM Spec.rowM
  simp only [h2, h14]

/-- The item stretch: column q of row r is number q % 64 of the embedding of item q / 64 of sample 64 T + r. -/
theorem items_obs (I : Spec.Inputs) (T : ℕ) (hT : T < 64)
    (h15 : ∀ (r : Fin 64) (k : Fin 70), x15 (ix2 r k) = I.items (ix2 (gRow T hT r) k))
    (r : Fin 64) (q : Fin 4480) :
    k0_pay6 (F := Ideal) x15 I.item (ix2 r q)
      = Spec.outI I (gRow T hT r) ⟨q.val / 64, by have := q.isLt; omega⟩ ⟨q.val % 64, Nat.mod_lt _ (by norm_num)⟩ := by
  have e : q = Spec.itemColOf ⟨q.val / 64, by have := q.isLt; omega⟩ ⟨q.val % 64, Nat.mod_lt _ (by norm_num)⟩ :=
    Fin.ext (by show q.val = q.val / 64 * 64 + q.val % 64; omega)
  refine (congrArg (fun z : Fin 4480 => k0_pay6 (F := Ideal) x15 I.item (ix2 r z)) e).trans ?_
  refine (Cert.KItem.item_apply x15 I.item r _ _).trans ?_
  unfold Spec.outI
  simp only [h15]

/-- Block T of the observation array is the block function of block T of the sample-indexed arrays and of the whole
    tables, weights and biases. -/
theorem blkFun_eq_obs (I : Spec.Inputs) (T : ℕ) (hT : T < 64)
    (h0 : ∀ (r : Fin 64) (q : Fin 32), x0 (ix2 r q) = I.cont (ix2 (gRow T hT r) q))
    (h1 : ∀ (r : Fin 64) (n : Fin 24) (e : Fin 4), x1 (ix3 r n e) = I.sfeat (ix3 (gRow T hT r) n e))
    (h2 : ∀ (r : Fin 64) (n : Fin 40) (e : Fin 2), x2 (ix3 r n e) = I.mfeat (ix3 (gRow T hT r) n e))
    (h3 : x3 = I.char) (h4 : x4 = I.item) (h5 : x5 = I.Ws1) (h6 : x6 = I.bs1) (h7 : x7 = I.Ws2) (h8 : x8 = I.bs2)
    (h9 : x9 = I.Wm1) (h10 : x10 = I.bm1) (h11 : x11 = I.Wm2) (h12 : x12 = I.bm2)
    (h13 : ∀ (r : Fin 64) (n : Fin 24), x13 (ix2 r n) = I.sids (ix2 (gRow T hT r) n))
    (h14 : ∀ (r : Fin 64) (n : Fin 40), x14 (ix2 r n) = I.mids (ix2 (gRow T hT r) n))
    (h15 : ∀ (r : Fin 64) (k : Fin 70), x15 (ix2 r k) = I.items (ix2 (gRow T hT r) k))
    (r : Fin 64) (q : Fin 21408) :
    blkFun' (ix2 r q) = Spec.obs I (ix2 (gRow T hT r) q) := by
  subst h3 h4 h5 h6 h7 h8 h9 h10 h11 h12
  have hq := q.isLt
  unfold Spec.obs
  show _ = Spec.obsAt I (gRow T hT r) q.val q.isLt
  unfold Spec.obsAt
  by_cases c1 : q.val < 32
  · rw [dif_pos c1]
    exact (blkFun_cont (ix2 r q) r ⟨q.val, c1⟩ rfl rfl).trans (h0 r ⟨q.val, c1⟩)
  · rw [dif_neg c1]
    by_cases c2 : q.val < 8480
    · rw [dif_pos c2]
      exact (blkFun_screen (ix2 r q) r ⟨q.val - 32, by omega⟩ rfl (by show q.val = 32 + (q.val - 32); omega)).trans
        (screen_obs I T hT h1 h13 r ⟨q.val - 32, by omega⟩)
    · rw [dif_neg c2]
      by_cases c3 : q.val < 16928
      · rw [dif_pos c3]
        exact (blkFun_mini (ix2 r q) r ⟨q.val - 8480, by omega⟩ rfl (by show q.val = 8480 + (q.val - 8480); omega)).trans
          (mini_obs I T hT h2 h14 r ⟨q.val - 8480, by omega⟩)
      · rw [dif_neg c3]
        exact (blkFun_items (ix2 r q) r ⟨q.val - 16928, by omega⟩ rfl
          (by show q.val = 16928 + (q.val - 16928); omega)).trans (items_obs I T hT h15 r ⟨q.val - 16928, by omega⟩)

/-- The same at any two indices with those coordinates. -/
theorem blkFun_eq_obs' (I : Spec.Inputs) (T : ℕ) (hT : T < 64)
    (h0 : ∀ (r : Fin 64) (q : Fin 32), x0 (ix2 r q) = I.cont (ix2 (gRow T hT r) q))
    (h1 : ∀ (r : Fin 64) (n : Fin 24) (e : Fin 4), x1 (ix3 r n e) = I.sfeat (ix3 (gRow T hT r) n e))
    (h2 : ∀ (r : Fin 64) (n : Fin 40) (e : Fin 2), x2 (ix3 r n e) = I.mfeat (ix3 (gRow T hT r) n e))
    (h3 : x3 = I.char) (h4 : x4 = I.item) (h5 : x5 = I.Ws1) (h6 : x6 = I.bs1) (h7 : x7 = I.Ws2) (h8 : x8 = I.bs2)
    (h9 : x9 = I.Wm1) (h10 : x10 = I.bm1) (h11 : x11 = I.Wm2) (h12 : x12 = I.bm2)
    (h13 : ∀ (r : Fin 64) (n : Fin 24), x13 (ix2 r n) = I.sids (ix2 (gRow T hT r) n))
    (h14 : ∀ (r : Fin 64) (n : Fin 40), x14 (ix2 r n) = I.mids (ix2 (gRow T hT r) n))
    (h15 : ∀ (r : Fin 64) (k : Fin 70), x15 (ix2 r k) = I.items (ix2 (gRow T hT r) k))
    (y : S64x21408.Idx) (i : Spec.A4096x21408.Idx) (hi0 : (i 0).val = 64 * T + (y 0).val) (hi1 : (i 1).val = (y 1).val) :
    blkFun' y = Spec.obs I i := by
  obtain ⟨r, q, rfl⟩ : ∃ (r : Fin 64) (q : Fin 21408), y = ix2 r q := ⟨y 0, y 1, eq_ix2 y⟩
  obtain ⟨b, q', rfl⟩ : ∃ (b : Fin 4096) (q' : Fin 21408), i = ix2 b q' := ⟨i 0, i 1, eq_ix2 i⟩
  obtain rfl : b = gRow T hT r := Fin.ext hi0
  obtain rfl : q' = q := Fin.ext hi1
  exact blkFun_eq_obs I T hT h0 h1 h2 h3 h4 h5 h6 h7 h8 h9 h10 h11 h12 h13 h14 h15 _ _

end Block

variable (m : (ℓ : Loc nD τ sig) → Buf (Elt Ideal) ℓ) (ρ : Dev nD → PrngReg)

/-- The sixteen inputs as core `c`'s memory holds them at launch. -/
def inputs (c : Dev nD) : Spec.Inputs where
  cont := m ((c : Thread nD τ).loc main_arg0)
  sfeat := m ((c : Thread nD τ).loc main_arg1)
  mfeat := m ((c : Thread nD τ).loc main_arg2)
  char := m ((c : Thread nD τ).loc main_arg3)
  item := m ((c : Thread nD τ).loc main_arg4)
  Ws1 := m ((c : Thread nD τ).loc main_arg5)
  bs1 := m ((c : Thread nD τ).loc main_arg6)
  Ws2 := m ((c : Thread nD τ).loc main_arg7)
  bs2 := m ((c : Thread nD τ).loc main_arg8)
  Wm1 := m ((c : Thread nD τ).loc main_arg9)
  bm1 := m ((c : Thread nD τ).loc main_arg10)
  Wm2 := m ((c : Thread nD τ).loc main_arg11)
  bm2 := m ((c : Thread nD τ).loc main_arg12)
  sids := m ((c : Thread nD τ).loc main_arg13)
  mids := m ((c : Thread nD τ).loc main_arg14)
  items := m ((c : Thread nD τ).loc main_arg15)

/-! ## The windows' blocks, read where the arrays say -/

/-! The printed index maps, decided over the 64 grid points: the six sample-indexed windows move along axis 0 with the
    point; the slot embeddings, the item table, the weights and the biases stay at block 0. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0
    ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0
    ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)

/-! Each window's block at point t, named at its literal type, and read at an index: an element of a block sits in its
    array, on each axis, at block index × block size + its coordinate in the block. The sample-indexed windows' blocks
    are rows 64 t … 64 t + 63 of their arrays. -/

abbrev blk0 (c : Dev nD) (t : Fin cfg0.N) : Vec Ideal S64x32 .f32 := iblk m c 0 t
theorem blk0_apply (c : Dev nD) (t : Fin cfg0.N) (hT : t.val < 64) (r : Fin 64) (q : Fin 32) :
    blk0 m c t (ix2 r q) = (inputs m c).cont (ix2 (gRow t.val hT r) q) := by
  obtain ⟨e0, e1⟩ := idx0 t
  unfold blk0 iblk
  rw [View.read_apply]
  show V m c main_arg0 _ = m ((c : Thread nD τ).loc main_arg0) _
  unfold V
  congr 1
  funext a
  apply Fin.ext
  match a with
  | ⟨0, _⟩ => show win0_0.index t (0 : Fin 2) * 64 + 1 * r.val = 64 * t.val + r.val; rw [e0]; omega
  | ⟨1, _⟩ => show win0_0.index t (1 : Fin 2) * 32 + 1 * q.val = q.val; rw [e1]; omega

abbrev blk1 (c : Dev nD) (t : Fin cfg0.N) : Vec Ideal S64x24x4 .f32 := iblk m c 1 t
theorem blk1_apply (c : Dev nD) (t : Fin cfg0.N) (hT : t.val < 64) (r : Fin 64) (n : Fin 24) (e : Fin 4) :
    blk1 m c t (ix3 r n e) = (inputs m c).sfeat (ix3 (gRow t.val hT r) n e) := by
  obtain ⟨e0, e1, e2⟩ := idx1 t
  unfold blk1 iblk
  rw [View.read_apply]
  show V m c main_arg1 _ = m ((c : Thread nD τ).loc main_arg1) _
  unfold V
  congr 1
  funext a
  apply Fin.ext
  match a with
  | ⟨0, _⟩ => show win0_1.index t (0 : Fin 3) * 64 + 1 * r.val = 64 * t.val + r.val; rw [e0]; omega
  | ⟨1, _⟩ => show win0_1.index t (1 : Fin 3) * 24 + 1 * n.val = n.val; rw [e1]; omega
  | ⟨2, _⟩ => show win0_1.index t (2 : Fin 3) * 4 + 1 * e.val = e.val; rw [e2]; omega

abbrev blk2 (c : Dev nD) (t : Fin cfg0.N) : Vec Ideal S64x40x2 .f32 := iblk m c 2 t
theorem blk2_apply (c : Dev nD) (t : Fin cfg0.N) (hT : t.val < 64) (r : Fin 64) (n : Fin 40) (e : Fin 2) :
    blk2 m c t (ix3 r n e) = (inputs m c).mfeat (ix3 (gRow t.val hT r) n e) := by
  obtain ⟨e0, e1, e2⟩ := idx2 t
  unfold blk2 iblk
  rw [View.read_apply]
  show V m c main_arg2 _ = m ((c : Thread nD τ).loc main_arg2) _
  unfold V
  congr 1
  funext a
  apply Fin.ext
  match a with
  | ⟨0, _⟩ => show win0_2.index t (0 : Fin 3) * 64 + 1 * r.val = 64 * t.val + r.val; rw [e0]; omega
  | ⟨1, _⟩ => show win0_2.index t (1 : Fin 3) * 40 + 1 * n.val = n.val; rw [e1]; omega
  | ⟨2, _⟩ => show win0_2.index t (2 : Fin 3) * 2 + 1 * e.val = e.val; rw [e2]; omega

abbrev blk13 (c : Dev nD) (t : Fin cfg0.N) : Vec Ideal S64x24 .i32 := iblk m c 13 t
theorem blk13_apply (c : Dev nD) (t : Fin cfg0.N) (hT : t.val < 64) (r : Fin 64) (n : Fin 24) :
    blk13 m c t (ix2 r n) = (inputs m c).sids (ix2 (gRow t.val hT r) n) := by
  obtain ⟨e0, e1⟩ := idx13 t
  unfold blk13 iblk
  rw [View.read_apply]
  show V m c main_arg13 _ = m ((c : Thread nD τ).loc main_arg13) _
  unfold V
  congr 1
  funext a
  apply Fin.ext
  match a with
  | ⟨0, _⟩ => show win0_13.index t (0 : Fin 2) * 64 + 1 * r.val = 64 * t.val + r.val; rw [e0]; omega
  | ⟨1, _⟩ => show win0_13.index t (1 : Fin 2) * 24 + 1 * n.val = n.val; rw [e1]; omega

abbrev blk14 (c : Dev nD) (t : Fin cfg0.N) : Vec Ideal S64x40 .i32 := iblk m c 14 t
theorem blk14_apply (c : Dev nD) (t : Fin cfg0.N) (hT : t.val < 64) (r : Fin 64) (n : Fin 40) :
    blk14 m c t (ix2 r n) = (inputs m c).mids (ix2 (gRow t.val hT r) n) := by
  obtain ⟨e0, e1⟩ := idx14 t
  unfold blk14 iblk
  rw [View.read_apply]
  show V m c main_arg14 _ = m ((c : Thread nD τ).loc main_arg14) _
  unfold V
  congr 1
  funext a
  apply Fin.ext
  match a with
  | ⟨0, _⟩ => show win0_14.index t (0 : Fin 2) * 64 + 1 * r.val = 64 * t.val + r.val; rw [e0]; omega
  | ⟨1, _⟩ => show win0_14.index t (1 : Fin 2) * 40 + 1 * n.val = n.val; rw [e1]; omega

abbrev blk15 (c : Dev nD) (t : Fin cfg0.N) : Vec Ideal S64x70 .i32 := iblk m c 15 t
theorem blk15_apply (c : Dev nD) (t : Fin cfg0.N) (hT : t.val < 64) (r : Fin 64) (k : Fin 70) :
    blk15 m c t (ix2 r k) = (inputs m c).items (ix2 (gRow t.val hT r) k) := by
  obtain ⟨e0, e1⟩ := idx15 t
  unfold blk15 iblk
  rw [View.read_apply]
  show V m c main_arg15 _ = m ((c : Thread nD τ).loc main_arg15) _
  unfold V
  congr 1
  funext a
  apply Fin.ext
  match a with
  | ⟨0, _⟩ => show win0_15.index t (0 : Fin 2) * 64 + 1 * r.val = 64 * t.val + r.val; rw [e0]; omega
  | ⟨1, _⟩ => show win0_15.index t (1 : Fin 2) * 70 + 1 * k.val = k.val; rw [e1]; omega

/-! The slot embeddings, the item table, the weights and the biases are fetched whole: their blocks are the arrays. -/

abbrev blk3 (c : Dev nD) (t : Fin cfg0.N) : Vec Ideal S66x128 .f32 := iblk m c 3 t
theorem blk3_eq (c : Dev nD) (t : Fin cfg0.N) : blk3 m c t = (inputs m c).char := by
  obtain ⟨e0, e1⟩ := idx3 t
  funext j
  unfold blk3 iblk
  rw [View.read_apply]
  show V m c main_arg3 _ = m ((c : Thread nD τ).loc main_arg3) _
  unfold V
  congr 1
  funext a
  apply Fin.ext
  match a with
  | ⟨0, _⟩ => show win0_3.index t (0 : Fin 2) * 66 + 1 * (j 0).val = (j 0).val; rw [e0]; omega
  | ⟨1, _⟩ => show win0_3.index t (1 : Fin 2) * 128 + 1 * (j 1).val = (j 1).val; rw [e1]; omega

abbrev blk4 (c : Dev nD) (t : Fin cfg0.N) : Vec Ideal S287x64 .f32 := iblk m c 4 t
theorem blk4_eq (c : Dev nD) (t : Fin cfg0.N) : blk4 m c t = (inputs m c).item := by
  obtain ⟨e0, e1⟩ := idx4 t
  funext j
  unfold blk4 iblk
  rw [View.read_apply]
  show V m c main_arg4 _ = m ((c : Thread nD τ).loc main_arg4) _
  unfold V
  congr 1
  funext a
  apply Fin.ext
  match a with
  | ⟨0, _⟩ => show win0_4.index t (0 : Fin 2) * 287 + 1 * (j 0).val = (j 0).val; rw [e0]; omega
  | ⟨1, _⟩ => show win0_4.index t (1 : Fin 2) * 64 + 1 * (j 1).val = (j 1).val; rw [e1]; omega

abbrev blk5 (c : Dev nD) (t : Fin cfg0.N) : Vec Ideal S132x128 .f32 := iblk m c 5 t
theorem blk5_eq (c : Dev nD) (t : Fin cfg0.N) : blk5 m c t = (inputs m c).Ws1 := by
  obtain ⟨e0, e1⟩ := idx5 t
  funext j
  unfold blk5 iblk
  rw [View.read_apply]
  show V m c main_arg5 _ = m ((c : Thread nD τ).loc main_arg5) _
  unfold V
  congr 1
  funext a
  apply Fin.ext
  match a with
  | ⟨0, _⟩ => show win0_5.index t (0 : Fin 2) * 132 + 1 * (j 0).val = (j 0).val; rw [e0]; omega
  | ⟨1, _⟩ => show win0_5.index t (1 : Fin 2) * 128 + 1 * (j 1).val = (j 1).val; rw [e1]; omega

abbrev blk6 (c : Dev nD) (t : Fin cfg0.N) : Vec Ideal S128 .f32 := iblk m c 6 t
theorem blk6_eq (c : Dev nD) (t : Fin cfg0.N) : blk6 m c t = (inputs m c).bs1 := by
  have e0 := idx6 t
  funext j
  unfold blk6 iblk
  rw [View.read_apply]
  show V m c main_arg6 _ = m ((c : Thread nD τ).loc main_arg6) _
  unfold V
  congr 1
  funext a
  apply Fin.ext
  match a with
  | ⟨0, _⟩ => show win0_6.index t (0 : Fin 1) * 128 + 1 * (j 0).val = (j 0).val; rw [e0]; omega

abbrev blk7 (c : Dev nD) (t : Fin cfg0.N) : Vec Ideal S128x128 .f32 := iblk m c 7 t
theorem blk7_eq (c : Dev nD) (t : Fin cfg0.N) : blk7 m c t = (inputs m c).Ws2 := by
  obtain ⟨e0, e1⟩ := idx7 t
  funext j
  unfold blk7 iblk
  rw [View.read_apply]
  show V m c main_arg7 _ = m ((c : Thread nD τ).loc main_arg7) _
  unfold V
  congr 1
  funext a
  apply Fin.ext
  match a with
  | ⟨0, _⟩ => show win0_7.index t (0 : Fin 2) * 128 + 1 * (j 0).val = (j 0).val; rw [e0]; omega
  | ⟨1, _⟩ => show win0_7.index t (1 : Fin 2) * 128 + 1 * (j 1).val = (j 1).val; rw [e1]; omega

abbrev blk8 (c : Dev nD) (t : Fin cfg0.N) : Vec Ideal S128 .f32 := iblk m c 8 t
theorem blk8_eq (c : Dev nD) (t : Fin cfg0.N) : blk8 m c t = (inputs m c).bs2 := by
  have e0 := idx8 t
  funext j
  unfold blk8 iblk
  rw [View.read_apply]
  show V m c main_arg8 _ = m ((c : Thread nD τ).loc main_arg8) _
  unfold V
  congr 1
  funext a
  apply Fin.ext
  match a with
  | ⟨0, _⟩ => show win0_8.index t (0 : Fin 1) * 128 + 1 * (j 0).val = (j 0).val; rw [e0]; omega

abbrev blk9 (c : Dev nD) (t : Fin cfg0.N) : Vec Ideal S130x128 .f32 := iblk m c 9 t
theorem blk9_eq (c : Dev nD) (t : Fin cfg0.N) : blk9 m c t = (inputs m c).Wm1 := by
  obtain ⟨e0, e1⟩ := idx9 t
  funext j
  unfold blk9 iblk
  rw [View.read_apply]
  show V m c main_arg9 _ = m ((c : Thread nD τ).loc main_arg9) _
  unfold V
  congr 1
  funext a
  apply Fin.ext
  match a with
  | ⟨0, _⟩ => show win0_9.index t (0 : Fin 2) * 130 + 1 * (j 0).val = (j 0).val; rw [e0]; omega
  | ⟨1, _⟩ => show win0_9.index t (1 : Fin 2) * 128 + 1 * (j 1).val = (j 1).val; rw [e1]; omega

abbrev blk10 (c : Dev nD) (t : Fin cfg0.N) : Vec Ideal S128 .f32 := iblk m c 10 t
theorem blk10_eq (c : Dev nD) (t : Fin cfg0.N) : blk10 m c t = (inputs m c).bm1 := by
  have e0 := idx10 t
  funext j
  unfold blk10 iblk
  rw [View.read_apply]
  show V m c main_arg10 _ = m ((c : Thread nD τ).loc main_arg10) _
  unfold V
  congr 1
  funext a
  apply Fin.ext
  match a with
  | ⟨0, _⟩ => show win0_10.index t (0 : Fin 1) * 128 + 1 * (j 0).val = (j 0).val; rw [e0]; omega

abbrev blk11 (c : Dev nD) (t : Fin cfg0.N) : Vec Ideal S128x128 .f32 := iblk m c 11 t
theorem blk11_eq (c : Dev nD) (t : Fin cfg0.N) : blk11 m c t = (inputs m c).Wm2 := by
  obtain ⟨e0, e1⟩ := idx11 t
  funext j
  unfold blk11 iblk
  rw [View.read_apply]
  show V m c main_arg11 _ = m ((c : Thread nD τ).loc main_arg11) _
  unfold V
  congr 1
  funext a
  apply Fin.ext
  match a with
  | ⟨0, _⟩ => show win0_11.index t (0 : Fin 2) * 128 + 1 * (j 0).val = (j 0).val; rw [e0]; omega
  | ⟨1, _⟩ => show win0_11.index t (1 : Fin 2) * 128 + 1 * (j 1).val = (j 1).val; rw [e1]; omega

abbrev blk12 (c : Dev nD) (t : Fin cfg0.N) : Vec Ideal S128 .f32 := iblk m c 12 t
theorem blk12_eq (c : Dev nD) (t : Fin cfg0.N) : blk12 m c t = (inputs m c).bm2 := by
  have e0 := idx12 t
  funext j
  unfold blk12 iblk
  rw [View.read_apply]
  show V m c main_arg12 _ = m ((c : Thread nD τ).loc main_arg12) _
  unfold V
  congr 1
  funext a
  apply Fin.ext
  match a with
  | ⟨0, _⟩ => show win0_12.index t (0 : Fin 1) * 128 + 1 * (j 0).val = (j 0).val; rw [e0]; omega

/-! ## From the blocks to the array -/

/-- What point t writes back is block t of the observation array: the staging buffer holds the block function of the
    point's input blocks, which are block t of the sample-indexed arrays and the whole tables, weights and biases. -/
theorem flushed_eq (c : Dev nD) (t : Fin cfg0.N) :
    (dats m 0 c).flushed 16 t = ((cfg0.win 16).blk t).view.read (Elt Ideal) (Spec.obs (inputs m c)) := by
  have hN : cfg0.N = 64 := N_0
  have hT : t.val < 64 := by have := t.isLt; omega
  obtain ⟨e0, e1⟩ := idx16 t
  rw [Value.flushed16_A]
  funext y
  rw [View.read_apply]
  show _ = Spec.obs (inputs m c) (((cfg0.win 16).blk t).view.emb y)
  refine (out_apply (x0 := blk0 m c t) (x1 := blk1 m c t) (x2 := blk2 m c t) (x3 := blk3 m c t) (x4 := blk4 m c t)
    (x5 := blk5 m c t) (x6 := blk6 m c t) (x7 := blk7 m c t) (x8 := blk8 m c t) (x9 := blk9 m c t) (x10 := blk10 m c t)
    (x11 := blk11 m c t) (x12 := blk12 m c t) (x13 := blk13 m c t) (x14 := blk14 m c t) (x15 := blk15 m c t)
    c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t)
    (ms0_16 t) (hs0_16 t) ((cfg0.win 16).xinj (grid0.coords t) y)).trans ?_
  refine blkFun_eq_obs' (x0 := blk0 m c t) (x1 := blk1 m c t) (x2 := blk2 m c t) (x3 := blk3 m c t) (x4 := blk4 m c t)
    (x5 := blk5 m c t) (x6 := blk6 m c t) (x7 := blk7 m c t) (x8 := blk8 m c t) (x9 := blk9 m c t) (x10 := blk10 m c t)
    (x11 := blk11 m c t) (x12 := blk12 m c t) (x13 := blk13 m c t) (x14 := blk14 m c t) (x15 := blk15 m c t)
    (inputs m c) t.val hT (blk0_apply m c t hT) (blk1_apply m c t hT) (blk2_apply m c t hT) (blk3_eq m c t) (blk4_eq m c t)
    (blk5_eq m c t) (blk6_eq m c t) (blk7_eq m c t) (blk8_eq m c t) (blk9_eq m c t) (blk10_eq m c t) (blk11_eq m c t)
    (blk12_eq m c t) (blk13_apply m c t hT) (blk14_apply m c t hT) (blk15_apply m c t hT) _ _ ?_ ?_
  · show win0_16.index t (0 : Fin 2) * 64 + 1 * (y 0).val = 64 * t.val + (y 0).val; rw [e0]; omega
  · show win0_16.index t (1 : Fin 2) * 21408 + 1 * (y 1).val = (y 1).val; rw [e1]; omega

/-- Row b of the array is in the block of point b / 64. -/
theorem cover (i : S4096x21408.Idx) :
    ∃ t : Fin cfg0.N, (cfg0.win 16).flush t = true ∧ i ∈ ((cfg0.win 16).blk t).view.set := by
  have hN : cfg0.N = 64 := N_0
  have hi0 : (i 0).val < 4096 := idx2_lt0 i
  have hi1 : (i 1).val < 21408 := idx2_lt1 i
  obtain ⟨t, ht⟩ : ∃ t : Fin cfg0.N, t.val = (i 0).val / 64 := ⟨⟨(i 0).val / 64, by omega⟩, rfl⟩
  obtain ⟨e0, e1⟩ := idx16 t
  refine ⟨t, flush0_16 t, ?_⟩
  show i ∈ ((View.whole main_v0).slice (win0_16.rect t)).set
  rw [View.set_slice_whole, Rect.mem_set_unit]
  intro a
  match a with
  | ⟨0, _⟩ =>
    show win0_16.index t (0 : Fin 2) * 64 ≤ (i 0).val ∧ (i 0).val < win0_16.index t (0 : Fin 2) * 64 + 64
    rw [e0]; omega
  | ⟨1, _⟩ =>
    show win0_16.index t (1 : Fin 2) * 21408 ≤ (i 1).val ∧ (i 1).val < win0_16.index t (1 : Fin 2) * 21408 + 21408
    rw [e1]; omega

/-- The observation array, as contents of the result array. -/
abbrev result (c : Dev nD) : Buf (Elt Ideal) ((c : Thread nD τ).loc main_v0) := Spec.obs (inputs m c)

/-- So the result array ends holding the observation array: every point's write-back is its block of that one array, and
    the 64 blocks cover it. -/
theorem final (c : Dev nD) : (dats m 0 c).arrAt 16 cfg0.N = Spec.obs (inputs m c) :=
  (dats m 0 c).arrAt_eq_of_cover 16 (result m c) (fun t _ => flushed_eq m c t) cover

/-- The kernel's run: every execution ends with the result array holding the observation array of the inputs, the
    arguments unchanged. -/
theorem kernel_run : θ_run defs (onTc (τ := τ) (main (F := Ideal))) ⟨m, fun _ => 0, ρ⟩ fun r => ∀ c : Dev nD,
      r.2.mem ((c : Thread nD τ).loc main_v0) = Spec.obs (inputs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) := by
  exact (θ_run defs _ _).mono (fun r h c => ⟨(h c).1.trans (final m c), (h c).2⟩) (Value.run_blocks m ρ)

end Cert.KArray

end
-- ==== Proof.SpecLaws.lean ====
/-
  Three facts about the weighted sums of the specification: a slot that exactly one detection names holds that detection's
  features (every other term has weight zero), a slot no detection names holds zero, and an item id inside the table picks
  out its row.  On the extended reals 0 · x = 0 and 1 · x = x for every x, so none of this needs the features to be finite.
-/
import proofs.«428663_j32658931319072_2_alg».proof.Proof.Spec

noncomputable section

namespace Cert.Spec

open Idealize.ShloMosaic Idealize.ShloMosaic.ValueIdx
open scoped BigOperators

/-- A slot that exactly one detection names holds that detection's features: every other term of the sum has weight zero. -/
theorem slot_of_hit {N E : ℕ} (ids : Fin N → BitVec 32) (feats : Fin N → Fin E → EReal) (t : ℕ) (e : Fin E) (n₀ : Fin N)
    (h₀ : ids n₀ = BitVec.ofNat 32 t) (hinj : ∀ n, n ≠ n₀ → ids n ≠ ids n₀) : slot ids feats t e = feats n₀ e := by
  unfold slot
  rw [Finset.sum_eq_single n₀]
  · -- the term of the named detection: weight one
    unfold hot
    rw [if_pos h₀, one_mul]
  · -- any other detection carries another id: weight zero
    intro n _ hn
    have hne : ids n ≠ BitVec.ofNat 32 t := h₀ ▸ hinj n hn
    unfold hot
    rw [if_neg hne, zero_mul]
  · intro h
    exact absurd (Finset.mem_univ n₀) h

/-- A slot that no detection names holds zero. -/
theorem slot_of_miss {N E : ℕ} (ids : Fin N → BitVec 32) (feats : Fin N → Fin E → EReal) (t : ℕ) (e : Fin E)
    (h : ∀ n, ids n ≠ BitVec.ofNat 32 t) : slot ids feats t e = 0 := by
  unfold slot
  refine Finset.sum_eq_zero fun n _ => ?_
  unfold hot
  rw [if_neg (h n), zero_mul]

/-- An id inside the table picks out its row. -/
theorem itemRow_of_lt {R : ℕ} (hR : R ≤ 2 ^ 32) (w : BitVec 32) (tab : Fin R → Fin 64 → EReal) (e : Fin 64) (h : w.toNat < R) :
    itemRow w tab e = tab ⟨w.toNat, h⟩ e := by
  unfold itemRow
  rw [Finset.sum_eq_single (⟨w.toNat, h⟩ : Fin R)]
  · -- the row numbered by the word itself: the word is the 32-bit numeral of its own value
    have hw : w = BitVec.ofNat 32 w.toNat := by
      apply BitVec.eq_of_toNat_eq
      rw [BitVec.toNat_ofNat, Nat.mod_eq_of_lt w.isLt]
    unfold hot
    rw [if_pos hw, one_mul]
  · -- another row r < R ≤ 2^32: its 32-bit numeral has value r, which is not the word's value
    intro r _ hr
    have hne : w ≠ BitVec.ofNat 32 r.val := by
      intro hw
      apply hr
      apply Fin.ext
      have hlt : r.val < 2 ^ 32 := lt_of_lt_of_le r.isLt hR
      have := congrArg BitVec.toNat hw
      rw [BitVec.toNat_ofNat, Nat.mod_eq_of_lt hlt] at this
      exact this.symm
    unfold hot
    rw [if_neg hne, zero_mul]
  · intro h'
    exact absurd (Finset.mem_univ _) h'

end Cert.Spec

end
-- ==== Proof.LibScatterSet.lean ====
/-
  A scatter whose body returns the update ("set"), read at an index, when no two updates land on the same element:
  the element holds the update that lands on it, and keeps the operand's value when none does.
-/
import Idealize.ShloMosaic.PureOps.ShapeOps
import Idealize.ShloMosaic.PureOps.Dims

noncomputable section

namespace Cert.LibScatterSet

open Idealize.ShloMosaic

variable {α : Type} {w : ℕ} {s si u : Shape}

/-- One step of the scatter: the update at row-major position `n`, when it lands on some element, replaces that
    element by the body's value; an update that lands nowhere changes nothing. -/
private def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the left fold of the step over the row-major positions of the updates. -/
private theorem scatter_eq_foldl (d : ScatterDims s si u) (f : α → α → α) (x : s.Idx → α) (idx : IVec si w)
    (upd : u.Idx → α) : Host.scatter d f x idx upd = (List.finRange u.numel).foldl (step d f idx upd) x := rfl

/-- A step whose update lands elsewhere (or nowhere) leaves element `i` alone. -/
private theorem step_of_ne (d : ScatterDims s si u) (f : α → α → α) (idx : IVec si w) (upd : u.Idx → α)
    (r : s.Idx → α) (n : Fin u.numel) (i : s.Idx) (h : d.resultIdx? (u.rowMajor.symm n) idx ≠ some i) :
    step d f idx upd r n i = r i := by
  unfold step
  cases heq : d.resultIdx? (u.rowMajor.symm n) idx with
  | none => rfl
  | some i' =>
      have hne : i ≠ i' := fun hii => h (hii ▸ heq)
      exact if_neg hne

/-- A step whose update lands on element `i` puts the body's value there. -/
private theorem step_of_eq (d : ScatterDims s si u) (f : α → α → α) (idx : IVec si w) (upd : u.Idx → α)
    (r : s.Idx → α) (n : Fin u.numel) (i : s.Idx) (h : d.resultIdx? (u.rowMajor.symm n) idx = some i) :
    step d f idx upd r n i = f (r i) (upd (u.rowMajor.symm n)) := by
  unfold step
  rw [h]
  exact if_pos rfl

/-- (A) Folding the steps of a list of positions none of which lands on `i` leaves element `i` as it was. -/
private theorem foldl_of_miss (d : ScatterDims s si u) (f : α → α → α) (idx : IVec si w) (upd : u.Idx → α)
    (i : s.Idx) (l : List (Fin u.numel)) (r : s.Idx → α)
    (h : ∀ n ∈ l, d.resultIdx? (u.rowMajor.symm n) idx ≠ some i) :
    l.foldl (step d f idx upd) r i = r i := by
  induction l generalizing r with
  | nil => rfl
  | cons n l ih =>
      rw [List.foldl_cons, ih _ (fun m hm => h m (List.mem_cons_of_mem _ hm))]
      exact step_of_ne d f idx upd r n i (h n List.mem_cons_self)

/-- (B) Folding the "set" steps of a duplicate-free list of positions in which `n₀` lands on `i` and is the only
    one that does: element `i` ends up holding the update at `n₀`.  When `n₀` is the head its step writes the
    update and (A) keeps it over the tail, where `n₀` does not occur again; otherwise the head lands elsewhere and
    the tail is handled by induction. -/
private theorem foldl_of_hit (d : ScatterDims s si u) (idx : IVec si w) (upd : u.Idx → α)
    (i : s.Idx) (n₀ : Fin u.numel) (l : List (Fin u.numel)) (r : s.Idx → α) (hnd : l.Nodup) (hmem : n₀ ∈ l)
    (h₀ : d.resultIdx? (u.rowMajor.symm n₀) idx = some i)
    (huniq : ∀ n ∈ l, d.resultIdx? (u.rowMajor.symm n) idx = some i → n = n₀) :
    l.foldl (step d (fun _ b => b) idx upd) r i = upd (u.rowMajor.symm n₀) := by
  induction l generalizing r with
  | nil => exact absurd hmem (List.not_mem_nil)
  | cons n l ih =>
      rw [List.foldl_cons]
      have hnd' := List.nodup_cons.1 hnd
      by_cases hn : n = n₀
      · subst hn
        have htail : ∀ m ∈ l, d.resultIdx? (u.rowMajor.symm m) idx ≠ some i := fun m hm hmi =>
          hnd'.1 (huniq m (List.mem_cons_of_mem _ hm) hmi ▸ hm)
        rw [foldl_of_miss d _ idx upd i l _ htail]
        exact step_of_eq d _ idx upd r n i h₀
      · have hmem' : n₀ ∈ l := by
          rcases List.mem_cons.1 hmem with h | h
          · exact absurd h.symm hn
          · exact h
        exact ih _ hnd'.2 hmem' (fun m hm => huniq m (List.mem_cons_of_mem _ hm))

/-- The element an update lands on gets that update, when it is the only update that lands there. -/
theorem scatter_set_of_hit (d : ScatterDims s si u) (x : s.Idx → α) (idx : IVec si w) (upd : u.Idx → α)
    (i : s.Idx) (j₀ : u.Idx) (h₀ : d.resultIdx? j₀ idx = some i)
    (huniq : ∀ j, d.resultIdx? j idx = some i → j = j₀) :
    Host.scatter d (fun _ b => b) x idx upd i = upd j₀ := by
  rw [scatter_eq_foldl]
  have h := foldl_of_hit d idx upd i (u.rowMajor j₀) (List.finRange u.numel) x (List.nodup_finRange _)
    (List.mem_finRange _) (by rw [Equiv.symm_apply_apply]; exact h₀)
    (fun n _ hn => by rw [← huniq _ hn, Equiv.apply_symm_apply])
  rw [h, Equiv.symm_apply_apply]

/-- An element no update lands on keeps the operand's value. -/
theorem scatter_set_of_miss (d : ScatterDims s si u) (x : s.Idx → α) (idx : IVec si w) (upd : u.Idx → α)
    (i : s.Idx) (h : ∀ j, d.resultIdx? j idx ≠ some i) :
    Host.scatter d (fun _ b => b) x idx upd i = x i := by
  rw [scatter_eq_foldl]
  exact foldl_of_miss d _ idx upd i _ x (fun n _ => h _)

end Cert.LibScatterSet

end
-- ==== Proof.RScatter.lean ====
/-
  The reference's scatter of detections into slots, read entry by entry.

  The reference builds, for every (sample b, detection n), the pair (b, id) — the sample number from an iota, the id after
  NumPy's wrap of a negative index — and writes the detection's features at that place of a zero array, one detection after
  the other.  For ids that name slots (0 ≤ id < 66) the wrap does nothing and every write lands inside the array; for ids
  pairwise distinct within a sample no two writes land on the same element.  So the element (b, t, e) holds the features
  of the one detection of sample b whose id is t, or zero when there is none: the specification's weighted sum.
-/
import proofs.«428663_j32658931319072_2_alg».proof.Proof.RefRead
import proofs.«428663_j32658931319072_2_alg».proof.Proof.SpecLaws
import proofs.«428663_j32658931319072_2_alg».proof.Proof.LibScatterSet
import Idealize.ShloMosaic.PureOps.ShapeOps
import Idealize.ShloMosaic.PureOps.Dims
import Idealize.ShloMosaic.PureOps.Ideal.Laws
import Idealize.ShloMosaic.Lib.ValueIdx
import Idealize.ShloMosaic.Lib.Pipeline.Value
import Idealize.ShloMosaic.Lib.StableHlo.Predicate

noncomputable section

namespace Cert.RScatter

open Idealize.ShloMosaic Idealize.ShloMosaic.ValueIdx Cert.ReferenceIdeal Cert.ReferenceIdeal.Read
open scoped BigOperators

/-! ## A scatter that sets rows of a rank-3 array at (row, column) pairs

The dimension numbers of `operand.at[rows, cols].set(upd)` over an operand `[B, T, E]`, index pairs `[B, N, 2]` and
updates `[B, N, E]`: update element `(b, n, e)` lands on operand element `(idx[b, n, 0], idx[b, n, 1], e)`, both
starts read signed and not clamped. -/

section SetRows

variable {α : Type} {B T E N : ℕ}

/-- Those dimension numbers; their conditions `wf` are decided on a program's literal shapes. -/
private abbrev setDims (B T E N : ℕ)
    (wf : ScatterDims.WF ⟨3, ![B, T, E]⟩ ⟨3, ![B, N, 2]⟩ ⟨3, ![B, N, E]⟩ [2] [0, 1] [0, 1] 2) :
    ScatterDims ⟨3, ![B, T, E]⟩ ⟨3, ![B, N, 2]⟩ ⟨3, ![B, N, E]⟩ where
  updateWindowDims := [2]
  insertedWindowDims := [0, 1]
  scatterDimsToOperandDims := [0, 1]
  indexVectorDim := 2
  wf := wf

variable (wf : ScatterDims.WF ⟨3, ![B, T, E]⟩ ⟨3, ![B, N, 2]⟩ ⟨3, ![B, N, E]⟩ [2] [0, 1] [0, 1] 2)

/-- The start of update `(b, n, e)` on the row axis is the first component of its index pair. -/
private theorem setDims_start0 (idx : IVec ⟨3, ![B, N, 2]⟩ 32) (b : Fin B) (n : Fin N) (e : Fin E) :
    (setDims B T E N wf).start (ix3 b n e) idx 0 = (idx (ix3 b n (0 : Fin 2))).toInt := by
  unfold ScatterDims.start
  rw [dif_pos (show (0 : Fin 3) ∈ (setDims B T E N wf).scatterDimsToOperandDims from List.mem_cons_self)]
  congr 2
  funext a; refine Fin.ext ?_
  match a with
  | ⟨0, _⟩ => rfl
  | ⟨1, _⟩ => rfl
  | ⟨2, _⟩ => rfl

/-- The start of update `(b, n, e)` on the column axis is the second component of its index pair. -/
private theorem setDims_start1 (idx : IVec ⟨3, ![B, N, 2]⟩ 32) (b : Fin B) (n : Fin N) (e : Fin E) :
    (setDims B T E N wf).start (ix3 b n e) idx 1 = (idx (ix3 b n (1 : Fin 2))).toInt := by
  unfold ScatterDims.start
  rw [dif_pos (show (1 : Fin 3) ∈ (setDims B T E N wf).scatterDimsToOperandDims from
    List.mem_cons_of_mem _ List.mem_cons_self)]
  congr 2
  funext a; refine Fin.ext ?_
  match a with
  | ⟨0, _⟩ => rfl
  | ⟨1, _⟩ => rfl
  | ⟨2, _⟩ => rfl

/-- The last axis is not scattered: its start is zero. -/
private theorem setDims_start2 (idx : IVec ⟨3, ![B, N, 2]⟩ 32) (j : (⟨3, ![B, N, E]⟩ : Shape).Idx) :
    (setDims B T E N wf).start j idx 2 = 0 := by
  unfold ScatterDims.start
  rw [dif_neg (show (2 : Fin 3) ∉ ([0, 1] : List (Fin 3)) by decide)]

/-- The window is one element wide on the two scattered axes and the whole last axis. -/
private theorem setDims_window0 (j : (⟨3, ![B, N, E]⟩ : Shape).Idx) : (setDims B T E N wf).window j 0 = 0 := by
  unfold ScatterDims.window
  exact dif_neg (show (0 : Fin 3) ∉ (List.finRange 3).filter (fun a : Fin 3 => a ∉ ([0, 1] : List (Fin 3))) by decide)

private theorem setDims_window1 (j : (⟨3, ![B, N, E]⟩ : Shape).Idx) : (setDims B T E N wf).window j 1 = 0 := by
  unfold ScatterDims.window
  exact dif_neg (show (1 : Fin 3) ∉ (List.finRange 3).filter (fun a : Fin 3 => a ∉ ([0, 1] : List (Fin 3))) by decide)

private theorem setDims_window2 (b : Fin B) (n : Fin N) (e : Fin E) : (setDims B T E N wf).window (ix3 b n e) 2 = e.val := by
  unfold ScatterDims.window
  refine (dif_pos (show (2 : Fin 3) ∈ (List.finRange 3).filter (fun a : Fin 3 => a ∉ ([0, 1] : List (Fin 3))) by decide)).trans ?_
  rfl

end SetRows

section SetRowsLanding

variable {α : Type} {B T E N : ℕ}
variable (wf : ScatterDims.WF ⟨3, ![B, T, E]⟩ ⟨3, ![B, N, 2]⟩ ⟨3, ![B, N, E]⟩ [2] [0, 1] [0, 1] 2)

/-- Update `(b, n, e)` whose index pair reads `(r, c)` inside the operand lands on operand element `(r, c, e)`. -/
private theorem setDims_resultIdx (idx : IVec ⟨3, ![B, N, 2]⟩ 32) (b : Fin B) (n : Fin N) (e : Fin E) (r : Fin B) (c : Fin T)
    (hr : (idx (ix3 b n (0 : Fin 2))).toInt = r.val) (hc : (idx (ix3 b n (1 : Fin 2))).toInt = c.val) :
    (setDims B T E N wf).resultIdx? (ix3 b n e) idx = some (ix3 r c e) := by
  -- start plus window coordinate, axis by axis
  have hsum : ∀ a : Fin 3, (setDims B T E N wf).start (ix3 b n e) idx a + (setDims B T E N wf).window (ix3 b n e) a
      = ((ix3 r c e a).val : ℤ) := by
    intro a
    match a with
    | ⟨0, _⟩ =>
        show (setDims B T E N wf).start (ix3 b n e) idx 0 + ((setDims B T E N wf).window (ix3 b n e) 0 : ℕ) = (r.val : ℤ)
        rw [setDims_start0, setDims_window0, hr]; simp
    | ⟨1, _⟩ =>
        show (setDims B T E N wf).start (ix3 b n e) idx 1 + ((setDims B T E N wf).window (ix3 b n e) 1 : ℕ) = (c.val : ℤ)
        rw [setDims_start1, setDims_window1, hc]; simp
    | ⟨2, _⟩ =>
        show (setDims B T E N wf).start (ix3 b n e) idx 2 + ((setDims B T E N wf).window (ix3 b n e) 2 : ℕ) = (e.val : ℤ)
        rw [setDims_start2, setDims_window2]; simp
  unfold ScatterDims.resultIdx?
  rw [dif_pos (fun a => by
    rw [hsum a]
    exact ⟨Int.natCast_nonneg _, by exact_mod_cast (ix3 r c e a).isLt⟩)]
  congr 1
  funext a
  refine Fin.ext ?_
  show ((setDims B T E N wf).start (ix3 b n e) idx a + (setDims B T E N wf).window (ix3 b n e) a).toNat = (ix3 r c e a).val
  rw [hsum a, Int.toNat_natCast]

/-- THE SCATTER READ AT AN ELEMENT AN UPDATE SETS: when every update `(b, n, ·)` lands on row `b`, column `col b n`,
    and within a row `n₀` is the only update on column `t`, element `(b, t, e)` holds update `(b, n₀, e)`. -/
private theorem scatter_rows_hit (x : (⟨3, ![B, T, E]⟩ : Shape).Idx → α) (idx : IVec ⟨3, ![B, N, 2]⟩ 32)
    (upd : (⟨3, ![B, N, E]⟩ : Shape).Idx → α) (col : Fin B → Fin N → Fin T)
    (hr : ∀ b n, (idx (ix3 b n (0 : Fin 2))).toInt = b.val)
    (hc : ∀ b n, (idx (ix3 b n (1 : Fin 2))).toInt = (col b n).val)
    (b : Fin B) (t : Fin T) (e : Fin E) (n₀ : Fin N) (h₀ : col b n₀ = t) (huniq : ∀ n, col b n = t → n = n₀) :
    Host.scatter (setDims B T E N wf) (fun _ v => v) x idx upd (ix3 b t e) = upd (ix3 b n₀ e) := by
  refine Cert.LibScatterSet.scatter_set_of_hit _ x idx upd (ix3 b t e) (ix3 b n₀ e) ?_ ?_
  · rw [setDims_resultIdx wf idx b n₀ e b (col b n₀) (hr b n₀) (hc b n₀), h₀]
  · intro j hj
    obtain ⟨b', n', e', rfl⟩ : ∃ b' n' e', j = ix3 b' n' e' := ⟨_, _, _, eq_ix3 j⟩
    rw [setDims_resultIdx wf idx b' n' e' b' (col b' n') (hr b' n') (hc b' n')] at hj
    have hj' := Option.some.inj hj
    have hb : b' = b := congrFun hj' 0
    have he : e' = e := congrFun hj' 2
    subst hb; subst he
    have hcol : col b' n' = t := congrFun hj' 1
    rw [huniq n' hcol]

/-- THE SCATTER READ AT AN ELEMENT NO UPDATE SETS: when no update of row `b` lands on column `t`, element
    `(b, t, e)` keeps the operand's value. -/
private theorem scatter_rows_miss (x : (⟨3, ![B, T, E]⟩ : Shape).Idx → α) (idx : IVec ⟨3, ![B, N, 2]⟩ 32)
    (upd : (⟨3, ![B, N, E]⟩ : Shape).Idx → α) (col : Fin B → Fin N → Fin T)
    (hr : ∀ b n, (idx (ix3 b n (0 : Fin 2))).toInt = b.val)
    (hc : ∀ b n, (idx (ix3 b n (1 : Fin 2))).toInt = (col b n).val)
    (b : Fin B) (t : Fin T) (e : Fin E) (hmiss : ∀ n, col b n ≠ t) :
    Host.scatter (setDims B T E N wf) (fun _ v => v) x idx upd (ix3 b t e) = x (ix3 b t e) := by
  refine Cert.LibScatterSet.scatter_set_of_miss _ x idx upd (ix3 b t e) ?_
  intro j hj
  obtain ⟨b', n', e', rfl⟩ : ∃ b' n' e', j = ix3 b' n' e' := ⟨_, _, _, eq_ix3 j⟩
  rw [setDims_resultIdx wf idx b' n' e' b' (col b' n') (hr b' n') (hc b' n')] at hj
  have hj' := Option.some.inj hj
  have hb : b' = b := congrFun hj' 0
  subst hb
  exact hmiss n' (congrFun hj' 1)

end SetRowsLanding

/-! ## The two index components and numpy's negative-index wrap -/

section IndexPairs

variable {β : Type} {B N : ℕ}

/-- A pair array `[B, N, 2]` joined from two `[B, N, 1]` arrays reads the first at component 0. -/
private theorem concat_pair_at0 (h : Shape.Concatenates [⟨3, ![B, N, 1]⟩, ⟨3, ![B, N, 1]⟩] ⟨3, ![B, N, 2]⟩ 2)
    (x₁ x₂ : (⟨3, ![B, N, 1]⟩ : Shape).Idx → β) (b : Fin B) (n : Fin N) :
    concatenate ⟨3, ![B, N, 2]⟩ 2 [⟨⟨3, ![B, N, 1]⟩, x₁⟩, ⟨⟨3, ![B, N, 1]⟩, x₂⟩] h (ix3 b n (0 : Fin 2))
      = x₁ (ix3 b n (0 : Fin 1)) :=
  concatenate_pair_apply_left 2 x₁ x₂ h (ix3 b n (0 : Fin 2)) rfl (ix3 b n (0 : Fin 1)) (fun a =>
    match a with
    | ⟨0, _⟩ => rfl
    | ⟨1, _⟩ => rfl
    | ⟨2, _⟩ => rfl)

/-- … and the second at component 1. -/
private theorem concat_pair_at1 (h : Shape.Concatenates [⟨3, ![B, N, 1]⟩, ⟨3, ![B, N, 1]⟩] ⟨3, ![B, N, 2]⟩ 2)
    (x₁ x₂ : (⟨3, ![B, N, 1]⟩ : Shape).Idx → β) (b : Fin B) (n : Fin N) :
    concatenate ⟨3, ![B, N, 2]⟩ 2 [⟨⟨3, ![B, N, 1]⟩, x₁⟩, ⟨⟨3, ![B, N, 1]⟩, x₂⟩] h (ix3 b n (1 : Fin 2))
      = x₂ (ix3 b n (0 : Fin 1)) :=
  concatenate_pair_apply_right 2 x₁ x₂ h (ix3 b n (1 : Fin 2)) rfl rfl (ix3 b n (0 : Fin 1)) (fun a ha =>
    match a, ha with
    | ⟨0, _⟩, _ => rfl
    | ⟨1, _⟩, _ => rfl
    | ⟨2, _⟩, ha => absurd rfl ha) rfl

/-- The wrap `select(w < 0, w + m, w)` of a word that reads non-negative as a signed integer leaves it. -/
private theorem wrap_of_small (w m : BitVec 32) (hw : w.toNat < 2 ^ 31) :
    Scalar.select (IntOp.cmpi .slt w 0#32) (IntOp.addi w m) w = w := by
  unfold Scalar.select
  refine if_neg fun h => ?_
  have h0 : (0#32 : BitVec 32).toNat < 2 ^ 31 := by decide
  have := (StableHlo.Predicate.slt_iff_toNat hw h0).1 h
  simp at this

end IndexPairs

/-- A word whose value is below `T` is the 32-bit numeral of `t < 2^32` exactly when its value is `t`. -/
private theorem word_eq_iff {T : ℕ} (w : BitVec 32) {h : w.toNat < T} (t : Fin T) (ht : t.val < 2 ^ 32) :
    (⟨w.toNat, h⟩ : Fin T) = t ↔ w = BitVec.ofNat 32 t.val := by
  constructor
  · intro hw
    apply BitVec.eq_of_toNat_eq
    rw [BitVec.toNat_ofNat, Nat.mod_eq_of_lt ht, ← hw]
  · intro hw
    apply Fin.ext
    show w.toNat = t.val
    rw [hw, BitVec.toNat_ofNat, Nat.mod_eq_of_lt ht]

/-! ## The reference's two index-pair arrays -/

section Screen

variable (x13 : (⟨S4096x24, .i32⟩ : BufTy).Contents (Elt Ideal))

/-- The first component of the screen scatter's index pair `(b, n)` is the sample number `b`: the wrap of a
    non-negative sample number leaves it. -/
private theorem v16_row (b : Fin 4096) (n : Fin 24) :
    (val_main_v16 (F := Ideal) x13 (ix3 b n (0 : Fin 2))).toInt = (b.val : ℤ) := by
  have hb : b.val < 2 ^ 31 := lt_trans b.isLt (by norm_num)
  have hw : (BitVec.ofNat 32 b.val).toNat < 2 ^ 31 := by
    rw [BitVec.toNat_ofNat, Nat.mod_eq_of_lt (lt_trans hb (by norm_num))]; exact hb
  unfold val_main_v16
  rw [concat_pair_at0, val_main_v14_apply, val_main_v13_apply, val_main_v7_apply, val_main_v4_apply, val_main_v6_apply,
    val_main_v3_apply, val_main_c_apply, val_main_v1_apply, val_main_v0_apply]
  show (Scalar.select (IntOp.cmpi .slt (BitVec.ofNat 32 b.val) 0#32) (IntOp.addi (BitVec.ofNat 32 b.val) _)
    (BitVec.ofNat 32 b.val)).toInt = _
  rw [wrap_of_small _ _ hw]
  exact StableHlo.Predicate.toInt_ofNat_small _ hb

/-- The second component is the detection's id: the wrap of an id below 66 leaves it. -/
private theorem v16_col (hlt : ∀ (b : Fin 4096) (n : Fin 24), (x13 (ix2 b n)).toNat < 66) (b : Fin 4096) (n : Fin 24) :
    (val_main_v16 (F := Ideal) x13 (ix3 b n (1 : Fin 2))).toInt = ((x13 (ix2 b n)).toNat : ℤ) := by
  have hw : (x13 (ix2 b n)).toNat < 2 ^ 31 := lt_trans (hlt b n) (by norm_num)
  have hi : idx_main_v15 (ix3 b n (0 : Fin 1)) = ix2 b n := by
    funext a
    match a with
    | ⟨0, _⟩ => rfl
    | ⟨1, _⟩ => rfl
  unfold val_main_v16
  rw [concat_pair_at1, val_main_v15_apply, val_main_v12_apply, val_main_v9_apply, val_main_v11_apply, val_main_v8_apply,
    val_main_c_1_apply, hi, wrap_of_small _ _ hw]
  exact StableHlo.Predicate.toInt_eq_toNat_of_lt hw

end Screen

section Minimap

variable (x14 : (⟨S4096x40, .i32⟩ : BufTy).Contents (Elt Ideal))

/-- The first component of the minimap scatter's index pair `(b, n)` is the sample number `b`. -/
private theorem v32_row (b : Fin 4096) (n : Fin 40) :
    (val_main_v32 (F := Ideal) x14 (ix3 b n (0 : Fin 2))).toInt = (b.val : ℤ) := by
  have hb : b.val < 2 ^ 31 := lt_trans b.isLt (by norm_num)
  have hw : (BitVec.ofNat 32 b.val).toNat < 2 ^ 31 := by
    rw [BitVec.toNat_ofNat, Nat.mod_eq_of_lt (lt_trans hb (by norm_num))]; exact hb
  unfold val_main_v32
  rw [concat_pair_at0, val_main_v30_apply, val_main_v29_apply, val_main_v23_apply, val_main_v20_apply, val_main_v22_apply,
    val_main_v19_apply, val_main_c_4_apply, val_main_v1_apply, val_main_v0_apply]
  show (Scalar.select (IntOp.cmpi .slt (BitVec.ofNat 32 b.val) 0#32) (IntOp.addi (BitVec.ofNat 32 b.val) _)
    (BitVec.ofNat 32 b.val)).toInt = _
  rw [wrap_of_small _ _ hw]
  exact StableHlo.Predicate.toInt_ofNat_small _ hb

/-- The second component is the detection's id: the wrap of an id below 66 leaves it. -/
private theorem v32_col (hlt : ∀ (b : Fin 4096) (n : Fin 40), (x14 (ix2 b n)).toNat < 66) (b : Fin 4096) (n : Fin 40) :
    (val_main_v32 (F := Ideal) x14 (ix3 b n (1 : Fin 2))).toInt = ((x14 (ix2 b n)).toNat : ℤ) := by
  have hw : (x14 (ix2 b n)).toNat < 2 ^ 31 := lt_trans (hlt b n) (by norm_num)
  have hi : idx_main_v31 (ix3 b n (0 : Fin 1)) = ix2 b n := by
    funext a
    match a with
    | ⟨0, _⟩ => rfl
    | ⟨1, _⟩ => rfl
  unfold val_main_v32
  rw [concat_pair_at1, val_main_v31_apply, val_main_v28_apply, val_main_v25_apply, val_main_v27_apply, val_main_v24_apply,
    val_main_c_6_apply, hi, wrap_of_small _ _ hw]
  exact StableHlo.Predicate.toInt_eq_toNat_of_lt hw

end Minimap

/-! ## The two scatters read at an index -/

/-- The reference's screen scatter read at (sample b, slot t, feature e), for ids that name slots and are pairwise distinct
    within the sample: the slot holds the features of the one detection that names it, or zero. -/
theorem scatterS_apply (x1 : (⟨S4096x24x4, .f32⟩ : BufTy).Contents (Elt Ideal)) (x13 : (⟨S4096x24, .i32⟩ : BufTy).Contents (Elt Ideal))
    (hlt : ∀ (b : Fin 4096) (n : Fin 24), (x13 (ix2 b n)).toNat < 66)
    (hinj : ∀ (b : Fin 4096) (n n' : Fin 24), n ≠ n' → x13 (ix2 b n) ≠ x13 (ix2 b n'))
    (b : Fin 4096) (t : Fin 66) (e : Fin 4) :
    val_main_v17 (F := Ideal) x1 x13 (ix3 b t e)
      = Spec.slot (fun n : Fin 24 => x13 (ix2 b n)) (fun n e => x1 (ix3 b n e)) t.val e := by
  -- the column update (b, n, ·) lands on: the detection's id
  let col : Fin 4096 → Fin 24 → Fin 66 := fun b n => ⟨(x13 (ix2 b n)).toNat, hlt b n⟩
  have hcol : ∀ n, col b n = t ↔ x13 (ix2 b n) = BitVec.ofNat 32 t.val := fun n =>
    word_eq_iff _ _ (lt_trans t.isLt (by norm_num))
  show Host.scatter (setDims 4096 66 4 24 Gen.scatter_S4096x66x4_S4096x24x2_S4096x24x4_2_01_01_2_wf) (fun _ v => v)
    (val_main_v2 (F := Ideal)) (val_main_v16 (F := Ideal) x13) x1 (ix3 b t e) = _
  by_cases h : ∃ n, x13 (ix2 b n) = BitVec.ofNat 32 t.val
  · -- one detection names slot t: its update is the only one that lands there
    obtain ⟨n₀, h₀⟩ := h
    rw [Spec.slot_of_hit _ _ _ _ n₀ h₀ (fun n hn => hinj b n n₀ hn)]
    refine scatter_rows_hit _ _ _ _ col (v16_row x13) (v16_col x13 hlt) b t e n₀ ((hcol n₀).2 h₀) (fun n hn => ?_)
    by_contra hne
    exact hinj b n n₀ hne (((hcol n).1 hn).trans h₀.symm)
  · -- no detection names slot t: the operand's zero stays
    have h' : ∀ n, x13 (ix2 b n) ≠ BitVec.ofNat 32 t.val := fun n hn => h ⟨n, hn⟩
    rw [Spec.slot_of_miss _ _ _ _ h']
    refine (scatter_rows_miss _ _ _ _ col (v16_row x13) (v16_col x13 hlt) b t e
      (fun n hn => h' n ((hcol n).1 hn))).trans ?_
    rw [val_main_v2_apply, val_main_cst_apply]
    exact Ideal.ofBits_zero_f32

/-- The same for the minimap scatter. -/
theorem scatterM_apply (x2 : (⟨S4096x40x2, .f32⟩ : BufTy).Contents (Elt Ideal)) (x14 : (⟨S4096x40, .i32⟩ : BufTy).Contents (Elt Ideal))
    (hlt : ∀ (b : Fin 4096) (n : Fin 40), (x14 (ix2 b n)).toNat < 66)
    (hinj : ∀ (b : Fin 4096) (n n' : Fin 40), n ≠ n' → x14 (ix2 b n) ≠ x14 (ix2 b n'))
    (b : Fin 4096) (t : Fin 66) (e : Fin 2) :
    val_main_v33 (F := Ideal) x2 x14 (ix3 b t e)
      = Spec.slot (fun n : Fin 40 => x14 (ix2 b n)) (fun n e => x2 (ix3 b n e)) t.val e := by
  -- the column update (b, n, ·) lands on: the detection's id
  let col : Fin 4096 → Fin 40 → Fin 66 := fun b n => ⟨(x14 (ix2 b n)).toNat, hlt b n⟩
  have hcol : ∀ n, col b n = t ↔ x14 (ix2 b n) = BitVec.ofNat 32 t.val := fun n =>
    word_eq_iff _ _ (lt_trans t.isLt (by norm_num))
  show Host.scatter (setDims 4096 66 2 40 Gen.scatter_S4096x66x2_S4096x40x2_S4096x40x2_2_01_01_2_wf) (fun _ v => v)
    (val_main_v18 (F := Ideal)) (val_main_v32 (F := Ideal) x14) x2 (ix3 b t e) = _
  by_cases h : ∃ n, x14 (ix2 b n) = BitVec.ofNat 32 t.val
  · -- one detection names slot t: its update is the only one that lands there
    obtain ⟨n₀, h₀⟩ := h
    rw [Spec.slot_of_hit _ _ _ _ n₀ h₀ (fun n hn => hinj b n n₀ hn)]
    refine scatter_rows_hit _ _ _ _ col (v32_row x14) (v32_col x14 hlt) b t e n₀ ((hcol n₀).2 h₀) (fun n hn => ?_)
    by_contra hne
    exact hinj b n n₀ hne (((hcol n).1 hn).trans h₀.symm)
  · -- no detection names slot t: the operand's zero stays
    have h' : ∀ n, x14 (ix2 b n) ≠ BitVec.ofNat 32 t.val := fun n hn => h ⟨n, hn⟩
    rw [Spec.slot_of_miss _ _ _ _ h']
    refine (scatter_rows_miss _ _ _ _ col (v32_row x14) (v32_col x14 hlt) b t e
      (fun n hn => h' n ((hcol n).1 hn))).trans ?_
    rw [val_main_v18_apply, val_main_cst_3_apply]
    exact Ideal.ofBits_zero_f32

end Cert.RScatter

end
-- ==== Proof.RGather.lean ====
/-
  The reference's item lookup, read entry by entry.

  The reference wraps a negative id by the table's height and the lookup clamps what it is given into the table.  For an
  id inside the table (0 ≤ id < 287) both leave it as it is, so entry (b, k, e) is the table's entry (id, e) — the
  specification's weighted sum of the table's rows, in which exactly the row the id names has weight one.
-/
import proofs.«428663_j32658931319072_2_alg».proof.Proof.RefRead
import proofs.«428663_j32658931319072_2_alg».proof.Proof.SpecLaws
import Idealize.ShloMosaic.Lib.ValueIdx
import Idealize.ShloMosaic.Lib.StableHlo.Predicate

noncomputable section

namespace Cert.RGather

open Idealize.ShloMosaic Idealize.ShloMosaic.ValueIdx Cert.ReferenceIdeal Cert.ReferenceIdeal.Read
open scoped BigOperators

/-- An axis of a rank-2 shape is the first or the second. -/
private theorem axis2 : ∀ a : Fin 2, a = 0 ∨ a = 1 := by decide

/-! ## The id as a start index

  The lookup first adds the row count to an id that is negative as a signed word and then, inside the gather, clamps
  what it got into the table's rows.  An id below 287 is not negative and is already a row: both steps leave it. -/

/-- An id below 287 is not negative as a signed word, so the wrap of negative ids leaves it. -/
private theorem wrap_of_lt (w y : BitVec 32) (h : w.toNat < 287) :
    Scalar.select (IntOp.cmpi .slt w 0#32) y w = w := by
  have hn : ¬ IntOp.cmpi .slt w 0#32 = 1#1 := by
    intro h1
    have h2 := (StableHlo.Predicate.slt_iff_toNat (a := w) (b := 0#32) (by omega) (by decide)).mp h1
    exact Nat.not_lt_zero _ h2
  rw [eq_zero_of_ne_one hn, select_zero]

/-- An id below 287, read signed and clamped into the table's rows, is itself. -/
private theorem clamp_of_lt (w : BitVec 32) (h : w.toNat < 287) : min w.toInt.toNat 286 = w.toNat := by
  rw [StableHlo.Predicate.toInt_eq_toNat_of_lt (a := w) (by omega), Int.toNat_natCast]
  omega

/-! ## The gather at an index

  The table's row axis is collapsed and is the one axis the start index names; the table's column axis is the result's
  one offset axis; the start indices carry their one component on a trailing unit axis.  So element (b, k, e) of the
  result is column e of the row that the start index at (b, k, 0) names, that index read signed and clamped into
  [0, 286]. -/

/-- The lookup of rows at (b, k, e): column e of the table's row at the start index of (b, k), read signed and clamped. -/
private theorem rows_apply {α : Type} (x : S287x64.Idx → α) (idx : IVec S4096x70x1 32) (b : Fin 4096) (k : Fin 70) (e : Fin 64)
    (ρ : Fin 287) (hρ : min (idx (ix3 b k (0 : Fin 1))).toInt.toNat 286 = ρ.val) :
    Host.gather gather_S287x64_S4096x70x1_S4096x70x64_2_0_n_n_0_2_164 x idx (ix3 b k e) = x (ix2 ρ e) := by
  unfold Host.gather
  refine congrArg x (funext fun a => Fin.ext ?_)
  rcases axis2 a with rfl | rfl
  · -- the row axis: collapsed, named by the start index map; no batching and no offset coordinate
    show GatherDims.start gather_S287x64_S4096x70x1_S4096x70x64_2_0_n_n_0_2_164 (ix3 b k e) idx 0
        + GatherDims.batchCoord gather_S287x64_S4096x70x1_S4096x70x64_2_0_n_n_0_2_164 (ix3 b k e) 0
        + GatherDims.offCoord gather_S287x64_S4096x70x1_S4096x70x64_2_0_n_n_0_2_164 (ix3 b k e) 0 = ρ.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S287x64.rank) ∈ gather_S287x64_S4096x70x1_S4096x70x64_2_0_n_n_0_2_164.startIndexMap from List.mem_singleton.mpr rfl)]
    -- the start index is read at the result's two batch coordinates, component 0 on the index vector's axis
    have hsi : gather_S287x64_S4096x70x1_S4096x70x64_2_0_n_n_0_2_164.siIdx (ix3 b k e)
        ⟨List.idxOf (0 : Fin S287x64.rank) gather_S287x64_S4096x70x1_S4096x70x64_2_0_n_n_0_2_164.startIndexMap,
          List.idxOf_lt_length_iff.2 (List.mem_singleton.mpr rfl)⟩ = ix3 b k (0 : Fin 1) := by
      funext c
      refine Fin.ext ?_
      match c with
      | ⟨0, _⟩ => rfl
      | ⟨1, _⟩ => rfl
      | ⟨2, _⟩ => rfl
    rw [hsi]
    exact hρ
  · -- the column axis: not in the start index map, the result's one offset axis
    show GatherDims.start gather_S287x64_S4096x70x1_S4096x70x64_2_0_n_n_0_2_164 (ix3 b k e) idx 1
        + GatherDims.batchCoord gather_S287x64_S4096x70x1_S4096x70x64_2_0_n_n_0_2_164 (ix3 b k e) 1
        + GatherDims.offCoord gather_S287x64_S4096x70x1_S4096x70x64_2_0_n_n_0_2_164 (ix3 b k e) 1 = e.val
    rw [GatherDims.batchCoord_eq_zero _ _ _ List.not_mem_nil]
    unfold GatherDims.start
    rw [dif_neg (show ¬(1 : Fin S287x64.rank) ∈ gather_S287x64_S4096x70x1_S4096x70x64_2_0_n_n_0_2_164.startIndexMap by decide)]
    unfold GatherDims.offCoord
    rw [dif_pos ((GatherDims.mem_sKept _ _).2 ⟨by decide, List.not_mem_nil⟩)]
    simp only [Nat.zero_add, Nat.add_zero]
    rfl

/-! ## The item lookup -/

/-- The reference's item lookup read at (sample b, item k, number e), for ids inside the table: the table's row the id
    names, written as the weighted sum of the table's rows. -/
theorem gather_apply (x4 : (⟨S287x64, .f32⟩ : BufTy).Contents (Elt Ideal)) (x15 : (⟨S4096x70, .i32⟩ : BufTy).Contents (Elt Ideal))
    (hlt : ∀ (b : Fin 4096) (k : Fin 70), (x15 (ix2 b k)).toNat < 287)
    (b : Fin 4096) (k : Fin 70) (e : Fin 64) :
    val_main_v40 (F := Ideal) x4 x15 (ix3 b k e)
      = Spec.itemRow (x15 (ix2 b k)) (fun (q : Fin 287) e => x4 (ix2 q e)) e := by
  have hw := hlt b k
  -- the start index at (b, k, 0) is the id of (b, k): the trailing unit axis is a broadcast, and the wrap leaves the id
  have hidx : val_main_v39 (F := Ideal) x15 (ix3 b k (0 : Fin 1)) = x15 (ix2 b k) := by
    have hi : idx_main_v39 (ix3 b k (0 : Fin 1)) = ix2 b k :=
      funext fun a => Fin.ext (by match a with | ⟨0, _⟩ => rfl | ⟨1, _⟩ => rfl)
    rw [val_main_v39_apply, hi, val_main_v38_apply, val_main_v35_apply, val_main_v34_apply, val_main_c_8_apply]
    exact wrap_of_lt _ _ hw
  unfold val_main_v40
  -- the gather reads the row the id names
  refine (rows_apply x4 (val_main_v39 (F := Ideal) x15) b k e ⟨(x15 (ix2 b k)).toNat, hw⟩ ?_).trans ?_
  · rw [hidx]
    exact clamp_of_lt _ hw
  -- and that row is the weighted sum of the table's rows
  exact (Spec.itemRow_of_lt (by norm_num) (x15 (ix2 b k)) (fun (q : Fin 287) e => x4 (ix2 q e)) e hw).symm

end Cert.RGather

end
-- ==== Proof.RChain.lean ====
/-
  The reference's result is the specification's observation array, on the specification's domain.

  Column by column: columns 0–31 are the continuous features; a column 32 + t·128 + j is, through the re-laying of the
  66 × 128 outputs as 8448 columns, the second matrix product plus bias at (b, t, j), whose hidden layer is the positive
  part of the first product plus bias, whose input row is the slot's embedding followed by the scattered screen features
  — the perceptron of the specification; columns from 8480 are the same for the minimap; a column 16928 + k·64 + e is the
  looked-up item embedding.  Every operation is read at an index; the scatters and the lookup are the two readings proved
  separately.
-/
import proofs.«428663_j32658931319072_2_alg».proof.Proof.RefRead
import proofs.«428663_j32658931319072_2_alg».proof.Proof.SpecLaws
import proofs.«428663_j32658931319072_2_alg».proof.Proof.RScatter
import proofs.«428663_j32658931319072_2_alg».proof.Proof.RGather

noncomputable section

namespace Cert.RChain

open Idealize.ShloMosaic Idealize.ShloMosaic.ValueIdx Cert.ReferenceIdeal Cert.ReferenceIdeal.Read
open scoped BigOperators

/-- The zero word is the number zero. -/
private theorem zero_word : FloatOps.ofBits (F := Ideal) .f32 0x00000000#32 = (0 : EReal) := Ideal.ofBits_zero_f32

/-! ## The four stretches of a row

The result is the concatenation, along the columns, of four arrays of 32, 8448, 8448 and 4480 columns. A column is read from
the piece whose span holds it, at the column less the widths of the pieces before it (0, 32, 8480, 16928). -/

section Cat4
variable {α : Type} (x0 : S4096x32.Idx → α) (y1 y2 : S4096x8448.Idx → α) (y3 : S4096x4480.Idx → α)

/-- A column below 32 is read from the first piece, at the same column. -/
private theorem cat4_at0 (b : Fin 4096) (c : Fin 21408) (h : c.val < 32) :
    concatenate S4096x21408 1 [⟨S4096x32, x0⟩, ⟨S4096x8448, y1⟩, ⟨S4096x8448, y2⟩, ⟨S4096x4480, y3⟩] Cert.ReferenceIdeal.Gen.concatenates_S4096x32_S4096x8448_S4096x8448_S4096x4480_S4096x21408_d1 (ix2 b c)
      = x0 (ix2 b (⟨c.val, h⟩ : Fin 32)) :=
  concatenate_apply_piece (1 : Fin S4096x21408.rank) [⟨S4096x32, x0⟩, ⟨S4096x8448, y1⟩, ⟨S4096x8448, y2⟩, ⟨S4096x4480, y3⟩] _ (ix2 b c) 0 (by show (0 : Nat) < 4; omega) S4096x32 x0 rfl rfl 0 (by simp)
    (ix2 b (⟨c.val, h⟩ : Fin 32)) (fun a ha => by
      match a with
      | ⟨0, _⟩ => rfl
      | ⟨1, _⟩ => exact absurd rfl ha) (by show 0 + c.val = c.val; omega)

/-- A column from 32 up to 8480 is read from the second piece, 32 columns to the left. -/
private theorem cat4_at1 (b : Fin 4096) (c : Fin 21408) (hlo : 32 ≤ c.val) (hhi : c.val < 8480) :
    concatenate S4096x21408 1 [⟨S4096x32, x0⟩, ⟨S4096x8448, y1⟩, ⟨S4096x8448, y2⟩, ⟨S4096x4480, y3⟩] Cert.ReferenceIdeal.Gen.concatenates_S4096x32_S4096x8448_S4096x8448_S4096x4480_S4096x21408_d1 (ix2 b c)
      = y1 (ix2 b (⟨c.val - 32, by omega⟩ : Fin 8448)) :=
  concatenate_apply_piece (1 : Fin S4096x21408.rank) [⟨S4096x32, x0⟩, ⟨S4096x8448, y1⟩, ⟨S4096x8448, y2⟩, ⟨S4096x4480, y3⟩] _ (ix2 b c) 1 (by show (1 : Nat) < 4; omega) S4096x8448 y1 rfl rfl 32 (by simp)
    (ix2 b (⟨c.val - 32, by omega⟩ : Fin 8448)) (fun a ha => by
      match a with
      | ⟨0, _⟩ => rfl
      | ⟨1, _⟩ => exact absurd rfl ha) (by show 32 + (c.val - 32) = c.val; omega)

/-- A column from 8480 up to 16928 is read from the third piece, 8480 columns to the left. -/
private theorem cat4_at2 (b : Fin 4096) (c : Fin 21408) (hlo : 8480 ≤ c.val) (hhi : c.val < 16928) :
    concatenate S4096x21408 1 [⟨S4096x32, x0⟩, ⟨S4096x8448, y1⟩, ⟨S4096x8448, y2⟩, ⟨S4096x4480, y3⟩] Cert.ReferenceIdeal.Gen.concatenates_S4096x32_S4096x8448_S4096x8448_S4096x4480_S4096x21408_d1 (ix2 b c)
      = y2 (ix2 b (⟨c.val - 8480, by omega⟩ : Fin 8448)) :=
  concatenate_apply_piece (1 : Fin S4096x21408.rank) [⟨S4096x32, x0⟩, ⟨S4096x8448, y1⟩, ⟨S4096x8448, y2⟩, ⟨S4096x4480, y3⟩] _ (ix2 b c) 2 (by show (2 : Nat) < 4; omega) S4096x8448 y2 rfl rfl 8480 (by simp)
    (ix2 b (⟨c.val - 8480, by omega⟩ : Fin 8448)) (fun a ha => by
      match a with
      | ⟨0, _⟩ => rfl
      | ⟨1, _⟩ => exact absurd rfl ha) (by show 8480 + (c.val - 8480) = c.val; omega)

/-- A column from 16928 on is read from the fourth piece, 16928 columns to the left. -/
private theorem cat4_at3 (b : Fin 4096) (c : Fin 21408) (hlo : 16928 ≤ c.val) (hhi : c.val < 21408) :
    concatenate S4096x21408 1 [⟨S4096x32, x0⟩, ⟨S4096x8448, y1⟩, ⟨S4096x8448, y2⟩, ⟨S4096x4480, y3⟩] Cert.ReferenceIdeal.Gen.concatenates_S4096x32_S4096x8448_S4096x8448_S4096x4480_S4096x21408_d1 (ix2 b c)
      = y3 (ix2 b (⟨c.val - 16928, by omega⟩ : Fin 4480)) :=
  concatenate_apply_piece (1 : Fin S4096x21408.rank) [⟨S4096x32, x0⟩, ⟨S4096x8448, y1⟩, ⟨S4096x8448, y2⟩, ⟨S4096x4480, y3⟩] _ (ix2 b c) 3 (by show (3 : Nat) < 4; omega) S4096x4480 y3 rfl rfl 16928 (by simp)
    (ix2 b (⟨c.val - 16928, by omega⟩ : Fin 4480)) (fun a ha => by
      match a with
      | ⟨0, _⟩ => rfl
      | ⟨1, _⟩ => exact absurd rfl ha) (by show 16928 + (c.val - 16928) = c.val; omega)

end Cat4

/-! ## The two perceptrons, layer by layer

Each lemma reads one stage of the reference at a sample `b`, a slot `t` and a position inside the slot's row, and says it is
the specification's function of the inputs there. A matrix product at an index is the sum over the contracted position of the
products of the two operands' entries; a broadcast bias is the bias at the last coordinate; the rectifier is the maximum with
zero. -/

section Layers
variable (I : Spec.Inputs)

/-- The screen perceptron's input row: the slot's 128 embedding numbers, then the 4 features scattered into the slot. -/
private theorem rowS_apply (hd : Spec.Dom I) (b : Fin 4096) (t : Fin 66) (f : Fin 132) :
    val_main_v43 (F := Ideal) I.sfeat I.char I.sids (ix3 b t f) = Spec.rowS I b t f := by
  unfold val_main_v43 Spec.rowS Spec.catRow
  by_cases h : f.val < 128
  · -- a column below 128 falls in the first piece: the embedding table broadcast over the samples
    rw [dif_pos h]
    refine (concatenate_pair_apply_left (t := S4096x66x132) (s₁ := S4096x66x128) (s₂ := S4096x66x4)
      (2 : Fin S4096x66x132.rank) _ _ _ _ rfl (ix3 b t (⟨f.val, h⟩ : Fin 128)) (fun a => by
        match a with
        | ⟨0, _⟩ => rfl
        | ⟨1, _⟩ => rfl
        | ⟨2, _⟩ => rfl)).trans ?_
    rw [val_main_v42_apply]
    exact congrArg I.char (funext fun a => by
      match a with
      | ⟨0, _⟩ => rfl
      | ⟨1, _⟩ => rfl)
  · -- a column from 128 on falls in the second piece, 128 less: the scattered features
    have h' : f.val - 128 < 4 := by have := f.isLt; omega
    rw [dif_neg h, dif_pos h']
    refine (concatenate_pair_apply_right (t := S4096x66x132) (s₁ := S4096x66x128) (s₂ := S4096x66x4)
      (2 : Fin S4096x66x132.rank) _ _ _ _ rfl rfl (ix3 b t (⟨f.val - 128, h'⟩ : Fin 4)) (fun a ha => by
        match a with
        | ⟨0, _⟩ => rfl
        | ⟨1, _⟩ => rfl
        | ⟨2, _⟩ => exact absurd rfl ha) (by
        show f.val - 128 + 128 = f.val; omega)).trans ?_
    exact Cert.RScatter.scatterS_apply I.sfeat I.sids hd.sids_lt hd.sids_inj b t ⟨f.val - 128, h'⟩

/-- The screen perceptron's hidden layer: the input row times the first weights, plus the bias, rectified. -/
private theorem hiddenS_apply (hd : Spec.Dom I) (b : Fin 4096) (t : Fin 66) (k : Fin 128) :
    val_main_v48 (F := Ideal) I.sfeat I.char I.Ws1 I.bs1 I.sids (ix3 b t k)
      = Spec.hidden (Spec.rowS I b t) (fun f k => I.Ws1 (ix2 f k)) (fun k => I.bs1 (ix1 k)) k := by
  rw [val_main_v48_apply, val_main_v47_apply, val_main_v44_apply, val_main_v46_apply, val_main_v45_apply,
    val_main_call0_v0_apply, val_main_call0_cst_apply, zero_word, Ideal.maximumf_def, Ideal.addf_def]
  unfold Spec.hidden
  refine congrArg₂ max (congrArg₂ (· + ·) (Finset.sum_congr rfl fun f _ => ?_) ?_) rfl
  · have el : lidx_main_v44 (ix3 b t k) f = ix3 b t f := funext fun a => by
      match a with
      | ⟨0, _⟩ => rfl
      | ⟨1, _⟩ => rfl
      | ⟨2, _⟩ => rfl
    have er : ridx_main_v44 (ix3 b t k) f = ix2 f k := funext fun a => by
      match a with
      | ⟨0, _⟩ => rfl
      | ⟨1, _⟩ => rfl
    rw [el, er, rowS_apply I hd]
  · exact congrArg I.bs1 (funext fun a => by
      match a with
      | ⟨0, _⟩ => rfl)

/-- The screen perceptron's output: the hidden layer times the second weights, plus the bias. -/
private theorem outS_apply (hd : Spec.Dom I) (b : Fin 4096) (t : Fin 66) (j : Fin 128) :
    val_main_v52 (F := Ideal) I.sfeat I.char I.Ws1 I.bs1 I.Ws2 I.bs2 I.sids (ix3 b t j) = Spec.outS I b t j := by
  rw [val_main_v52_apply, val_main_v49_apply, val_main_v51_apply, val_main_v50_apply, Ideal.addf_def]
  unfold Spec.outS Spec.mlp
  refine congrArg₂ (· + ·) (Finset.sum_congr rfl fun k _ => ?_) ?_
  · have el : lidx_main_v49 (ix3 b t j) k = ix3 b t k := funext fun a => by
      match a with
      | ⟨0, _⟩ => rfl
      | ⟨1, _⟩ => rfl
      | ⟨2, _⟩ => rfl
    have er : ridx_main_v49 (ix3 b t j) k = ix2 k j := funext fun a => by
      match a with
      | ⟨0, _⟩ => rfl
      | ⟨1, _⟩ => rfl
    rw [el, er, hiddenS_apply I hd]
  · exact congrArg I.bs2 (funext fun a => by
      match a with
      | ⟨0, _⟩ => rfl)

/-- The minimap perceptron's input row: the slot's 128 embedding numbers, then the 2 features scattered into the slot. -/
private theorem rowM_apply (hd : Spec.Dom I) (b : Fin 4096) (t : Fin 66) (f : Fin 130) :
    val_main_v53 (F := Ideal) I.mfeat I.char I.mids (ix3 b t f) = Spec.rowM I b t f := by
  unfold val_main_v53 Spec.rowM Spec.catRow
  by_cases h : f.val < 128
  · -- a column below 128 falls in the first piece: the embedding table broadcast over the samples
    rw [dif_pos h]
    refine (concatenate_pair_apply_left (t := S4096x66x130) (s₁ := S4096x66x128) (s₂ := S4096x66x2)
      (2 : Fin S4096x66x130.rank) _ _ _ _ rfl (ix3 b t (⟨f.val, h⟩ : Fin 128)) (fun a => by
        match a with
        | ⟨0, _⟩ => rfl
        | ⟨1, _⟩ => rfl
        | ⟨2, _⟩ => rfl)).trans ?_
    rw [val_main_v42_apply]
    exact congrArg I.char (funext fun a => by
      match a with
      | ⟨0, _⟩ => rfl
      | ⟨1, _⟩ => rfl)
  · -- a column from 128 on falls in the second piece, 128 less: the scattered features
    have h' : f.val - 128 < 2 := by have := f.isLt; omega
    rw [dif_neg h, dif_pos h']
    refine (concatenate_pair_apply_right (t := S4096x66x130) (s₁ := S4096x66x128) (s₂ := S4096x66x2)
      (2 : Fin S4096x66x130.rank) _ _ _ _ rfl rfl (ix3 b t (⟨f.val - 128, h'⟩ : Fin 2)) (fun a ha => by
        match a with
        | ⟨0, _⟩ => rfl
        | ⟨1, _⟩ => rfl
        | ⟨2, _⟩ => exact absurd rfl ha) (by
        show f.val - 128 + 128 = f.val; omega)).trans ?_
    exact Cert.RScatter.scatterM_apply I.mfeat I.mids hd.mids_lt hd.mids_inj b t ⟨f.val - 128, h'⟩

/-- The minimap perceptron's hidden layer: the input row times the first weights, plus the bias, rectified. -/
private theorem hiddenM_apply (hd : Spec.Dom I) (b : Fin 4096) (t : Fin 66) (k : Fin 128) :
    val_main_v58 (F := Ideal) I.mfeat I.char I.Wm1 I.bm1 I.mids (ix3 b t k)
      = Spec.hidden (Spec.rowM I b t) (fun f k => I.Wm1 (ix2 f k)) (fun k => I.bm1 (ix1 k)) k := by
  rw [val_main_v58_apply, val_main_v57_apply, val_main_v54_apply, val_main_v56_apply, val_main_v55_apply,
    val_main_call1_v0_apply, val_main_call1_cst_apply, zero_word, Ideal.maximumf_def, Ideal.addf_def]
  unfold Spec.hidden
  refine congrArg₂ max (congrArg₂ (· + ·) (Finset.sum_congr rfl fun f _ => ?_) ?_) rfl
  · have el : lidx_main_v54 (ix3 b t k) f = ix3 b t f := funext fun a => by
      match a with
      | ⟨0, _⟩ => rfl
      | ⟨1, _⟩ => rfl
      | ⟨2, _⟩ => rfl
    have er : ridx_main_v54 (ix3 b t k) f = ix2 f k := funext fun a => by
      match a with
      | ⟨0, _⟩ => rfl
      | ⟨1, _⟩ => rfl
    rw [el, er, rowM_apply I hd]
  · exact congrArg I.bm1 (funext fun a => by
      match a with
      | ⟨0, _⟩ => rfl)

/-- The minimap perceptron's output: the hidden layer times the second weights, plus the bias. -/
private theorem outM_apply (hd : Spec.Dom I) (b : Fin 4096) (t : Fin 66) (j : Fin 128) :
    val_main_v62 (F := Ideal) I.mfeat I.char I.Wm1 I.bm1 I.Wm2 I.bm2 I.mids (ix3 b t j) = Spec.outM I b t j := by
  rw [val_main_v62_apply, val_main_v59_apply, val_main_v61_apply, val_main_v60_apply, Ideal.addf_def]
  unfold Spec.outM Spec.mlp
  refine congrArg₂ (· + ·) (Finset.sum_congr rfl fun k _ => ?_) ?_
  · have el : lidx_main_v59 (ix3 b t j) k = ix3 b t k := funext fun a => by
      match a with
      | ⟨0, _⟩ => rfl
      | ⟨1, _⟩ => rfl
      | ⟨2, _⟩ => rfl
    have er : ridx_main_v59 (ix3 b t j) k = ix2 k j := funext fun a => by
      match a with
      | ⟨0, _⟩ => rfl
      | ⟨1, _⟩ => rfl
    rw [el, er, hiddenM_apply I hd]
  · exact congrArg I.bm2 (funext fun a => by
      match a with
      | ⟨0, _⟩ => rfl)

/-! ## The whole row -/

/-- The reference's result at sample `b`, column `c`, is the observation there: by the stretch the column falls in. -/
private theorem ref_at (hd : Spec.Dom I) (b : Fin 4096) (c : Fin 21408) :
    val_main_v65 (F := Ideal) I.cont I.sfeat I.mfeat I.char I.item I.Ws1 I.bs1 I.Ws2 I.bs2 I.Wm1 I.bm1 I.Wm2 I.bm2 I.sids I.mids I.items (ix2 b c) = Spec.obsAt I b c.val c.isLt := by
  have hc : c.val < 21408 := c.isLt
  unfold val_main_v65 Spec.obsAt
  by_cases h1 : c.val < 32
  · -- the continuous features, unchanged
    rw [dif_pos h1]
    exact cat4_at0 _ _ _ _ b c h1
  · rw [dif_neg h1]
    by_cases h2 : c.val < 8480
    · -- the screen stretch: column 32 + t * 128 + j is output j of slot t
      rw [dif_pos h2]
      refine (cat4_at1 _ _ _ _ b c (by omega) h2).trans ?_
      rw [val_main_v63_apply]
      have e : idx_main_v63 (ix2 b (⟨c.val - 32, by omega⟩ : Fin 8448))
          = ix3 b (⟨(c.val - 32) / 128, by omega⟩ : Fin 66) (⟨(c.val - 32) % 128, Nat.mod_lt _ (by norm_num)⟩ : Fin 128) :=
        funext fun a => Fin.ext (by
          have hb : b.val < 4096 := b.isLt
          match a with
          | ⟨0, _⟩ => show (b.val * 8448 + (c.val - 32)) / 8448 = b.val; omega
          | ⟨1, _⟩ => show (b.val * 8448 + (c.val - 32)) / 128 % 66 = (c.val - 32) / 128; omega
          | ⟨2, _⟩ => show (b.val * 8448 + (c.val - 32)) % 128 = (c.val - 32) % 128; omega)
      rw [e]
      exact outS_apply I hd b _ _
    · rw [dif_neg h2]
      by_cases h3 : c.val < 16928
      · -- the minimap stretch: column 8480 + t * 128 + j
        rw [dif_pos h3]
        refine (cat4_at2 _ _ _ _ b c (by omega) h3).trans ?_
        rw [val_main_v64_apply]
        have e : idx_main_v64 (ix2 b (⟨c.val - 8480, by omega⟩ : Fin 8448))
          = ix3 b (⟨(c.val - 8480) / 128, by omega⟩ : Fin 66) (⟨(c.val - 8480) % 128, Nat.mod_lt _ (by norm_num)⟩ : Fin 128) :=
        funext fun a => Fin.ext (by
          have hb : b.val < 4096 := b.isLt
          match a with
          | ⟨0, _⟩ => show (b.val * 8448 + (c.val - 8480)) / 8448 = b.val; omega
          | ⟨1, _⟩ => show (b.val * 8448 + (c.val - 8480)) / 128 % 66 = (c.val - 8480) / 128; omega
          | ⟨2, _⟩ => show (b.val * 8448 + (c.val - 8480)) % 128 = (c.val - 8480) % 128; omega)
        rw [e]
        exact outM_apply I hd b _ _
      · -- the item stretch: column 16928 + k * 64 + e is number e of item k's embedding
        rw [dif_neg h3]
        refine (cat4_at3 _ _ _ _ b c (by omega) hc).trans ?_
        rw [val_main_v41_apply]
        have e : idx_main_v41 (ix2 b (⟨c.val - 16928, by omega⟩ : Fin 4480))
            = ix3 b (⟨(c.val - 16928) / 64, by omega⟩ : Fin 70) (⟨(c.val - 16928) % 64, Nat.mod_lt _ (by norm_num)⟩ : Fin 64) :=
          funext fun a => Fin.ext (by
            have hb : b.val < 4096 := b.isLt
            match a with
            | ⟨0, _⟩ => show (b.val * 4480 + (c.val - 16928)) / 4480 = b.val; omega
            | ⟨1, _⟩ => show (b.val * 4480 + (c.val - 16928)) / 64 % 70 = (c.val - 16928) / 64; omega
            | ⟨2, _⟩ => show (b.val * 4480 + (c.val - 16928)) % 64 = (c.val - 16928) % 64; omega)
        rw [e]
        exact Cert.RGather.gather_apply I.item I.items hd.items_lt b _ _

/-- The reference's result, as one array, is the observation array. -/
private theorem ref_obs (hd : Spec.Dom I) :
    val_main_v65 (F := Ideal) I.cont I.sfeat I.mfeat I.char I.item I.Ws1 I.bs1 I.Ws2 I.bs2 I.Wm1 I.bm1 I.Wm2 I.bm2 I.sids I.mids I.items = Spec.obs I := by
  funext i
  obtain ⟨b, c, rfl⟩ : ∃ (b : Fin 4096) (c : Fin 21408), i = ix2 b c := ⟨i 0, i 1, eq_ix2 i⟩
  exact ref_at I hd b c

end Layers

/-- On the claim's domain the reference's result is the observation array. -/
theorem ref_eq (x0 : (⟨S4096x32, .f32⟩ : BufTy).Contents (Elt Ideal)) (x1 : (⟨S4096x24x4, .f32⟩ : BufTy).Contents (Elt Ideal)) (x2 : (⟨S4096x40x2, .f32⟩ : BufTy).Contents (Elt Ideal)) (x3 : (⟨S66x128, .f32⟩ : BufTy).Contents (Elt Ideal)) (x4 : (⟨S287x64, .f32⟩ : BufTy).Contents (Elt Ideal)) (x5 : (⟨S132x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S130x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S4096x24, .i32⟩ : BufTy).Contents (Elt Ideal)) (x14 : (⟨S4096x40, .i32⟩ : BufTy).Contents (Elt Ideal)) (x15 : (⟨S4096x70, .i32⟩ : BufTy).Contents (Elt Ideal))
    (hd : Spec.Dom ⟨x0, x1, x2, x3, x4, x5, x6, x7, x8, x9, x10, x11, x12, x13, x14, x15⟩) :
    val_main_v65 (F := Ideal) x0 x1 x2 x3 x4 x5 x6 x7 x8 x9 x10 x11 x12 x13 x14 x15 = Spec.obs ⟨x0, x1, x2, x3, x4, x5, x6, x7, x8, x9, x10, x11, x12, x13, x14, x15⟩ := by
  exact ref_obs ⟨x0, x1, x2, x3, x4, x5, x6, x7, x8, x9, x10, x11, x12, x13, x14, x15⟩ hd

end Cert.RChain

end
-- ==== Proof.RPre.lean ====
/-
  What the precondition says of the integer inputs.

  The precondition is printed as a conjunction of "for every entry" tests.  The last five are about the index inputs: an
  id is at least 0 and below 66 (screen, minimap), an item id at least 0 and below 287, and for every sample and every
  pair of positions p, q the ids at p and q differ unless p = q.  Read entry by entry, with the signed compares of 32-bit
  words turned into bounds on their values, they are the five facts the specification's domain asks for.  The thirteen
  tests on the float inputs (finiteness) are left unopened: nothing needs them.
-/
import proofs.«428663_j32658931319072_2_alg».proof.Pre_finite_inputs
import proofs.«428663_j32658931319072_2_alg».proof.Proof.Gen.Pre_finite_inputs
import proofs.«428663_j32658931319072_2_alg».proof.Proof.Spec
import Idealize.ShloMosaic.Lib.ReduceAll
import Idealize.ShloMosaic.Lib.StableHlo.Predicate
import Idealize.ShloMosaic.Lib.Pipeline.Value

noncomputable section

namespace Cert.RPre

open Idealize.ShloMosaic Idealize.ShloMosaic.ValueIdx
open scoped BigOperators

/-- The scalar shape has one index. -/
private instance scalarIdxSubsingleton : Subsingleton Cert.Pre_finite_inputs.S_.Idx :=
  ⟨fun a b => funext fun d => d.elim0⟩

/-- A word that is at least 0 and below `n`, both read signed, is below `n` read unsigned (for `n` below 2³¹). -/
private theorem toNat_lt_of_signed (w : BitVec 32) (n : ℕ) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide, BitVec.toInt_pos_iff] at h0
  rw [IntOp.cmpi_slt, StableHlo.Predicate.toInt_ofNat_small n hn,
    StableHlo.Predicate.toInt_eq_toNat_of_lt (by omega)] at h1
  omega

/-- `all((ids ≥ 0) & (ids < n))`, read back at an index: the word there is below `n`. -/
private theorem lt_of_all {s : Shape} {axes : List (Fin s.rank)} (ids : IVec s 32) (n : ℕ) (hn : n < 2 ^ 31)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (andi (cmpi .sge ids (broadcastInDim s ![] hb (constantI Cert.Pre_finite_inputs.S_ 32 0#32)))
          (cmpi .slt ids (broadcastInDim s ![] hb (constantI Cert.Pre_finite_inputs.S_ 32 (BitVec.ofNat 32 n)))))
        (constantI Cert.Pre_finite_inputs.S_ 1 1#1) hr hu ix0 = 1#1)
    (i : s.Idx) : (ids i).toNat < n := by
  have hi := Host.reduce_andi_all _ _ hr hu ix0 e i
  change IntOp.andi (IntOp.cmpi .sge (ids i) 0#32) (IntOp.cmpi .slt (ids i) (BitVec.ofNat 32 n)) = 1#1 at hi
  obtain ⟨ha, hb'⟩ := IntOp.andi_eq_one.1 hi
  exact toNat_lt_of_signed _ n hn ha hb'

/-- `all((ids[:, :, None] ≠ ids[:, None, :]) | (iota₁ = iota₂))`, read back at the index `(b, p, q)`: two different
    positions of sample `b` hold different words. -/
private theorem ne_of_all {m : ℕ} (hm : m < 2 ^ 32) {axes : List (Fin (⟨3, ![4096, m, m]⟩ : Shape).rank)}
    (ids : IVec ⟨2, ![4096, m]⟩ 32)
    (h1 : (⟨2, ![4096, m]⟩ : Shape).BroadcastsInDim ⟨3, ![4096, m, m]⟩ ![0, 1])
    (h2 : (⟨2, ![4096, m]⟩ : Shape).BroadcastsInDim ⟨3, ![4096, m, m]⟩ ![0, 2])
    (hr : (⟨3, ![4096, m, m]⟩ : Shape).ReducesTo axes Cert.Pre_finite_inputs.S_)
    (hu : 0 < Cert.Pre_finite_inputs.S_.numel)
    (e : Host.reduce IntOp.andi
        (ori (cmpi .ne (broadcastInDim ⟨3, ![4096, m, m]⟩ ![0, 1] h1 ids) (broadcastInDim ⟨3, ![4096, m, m]⟩ ![0, 2] h2 ids))
          (cmpi .eq (iotaInDim ⟨3, ![4096, m, m]⟩ 32 1) (iotaInDim ⟨3, ![4096, m, m]⟩ 32 2)))
        (constantI Cert.Pre_finite_inputs.S_ 1 1#1) hr hu ix0 = 1#1)
    (b : Fin 4096) (p q : Fin m) (hpq : p ≠ q) : ids (ix2 b p) ≠ ids (ix2 b q) := by
  have hi := Host.reduce_andi_all _ _ hr hu ix0 e (ix3 b p q)
  -- the two broadcasts at (b, p, q) read the ids at (b, p) and at (b, q)
  have e1 : broadcastInDim ⟨3, ![4096, m, m]⟩ ![0, 1] h1 ids (ix3 b p q) = ids (ix2 b p) :=
    broadcastInDim_apply _ h1 ids _ (ix2 b p) (fun a => by
      match a with
      | ⟨0, _⟩ => exact (if_neg (show ¬(4096 : ℕ) = 1 by decide)).symm
      | ⟨1, _⟩ =>
        show p.val = if m = 1 then 0 else p.val
        split
        · have := p.isLt; omega
        · rfl)
  have e2 : broadcastInDim ⟨3, ![4096, m, m]⟩ ![0, 2] h2 ids (ix3 b p q) = ids (ix2 b q) :=
    broadcastInDim_apply _ h2 ids _ (ix2 b q) (fun a => by
      match a with
      | ⟨0, _⟩ => exact (if_neg (show ¬(4096 : ℕ) = 1 by decide)).symm
      | ⟨1, _⟩ =>
        show q.val = if m = 1 then 0 else q.val
        split
        · have := q.isLt; omega
        · rfl)
  change IntOp.ori
      (IntOp.cmpi .ne (broadcastInDim ⟨3, ![4096, m, m]⟩ ![0, 1] h1 ids (ix3 b p q))
        (broadcastInDim ⟨3, ![4096, m, m]⟩ ![0, 2] h2 ids (ix3 b p q)))
      (IntOp.cmpi .eq (BitVec.ofNat 32 p.val) (BitVec.ofNat 32 q.val)) = 1#1 at hi
  rw [e1, e2] at hi
  rcases IntOp.ori_eq_one.1 hi with hne | heq
  · exact IntOp.cmpi_ne.1 hne
  · -- the two positions, as words, are equal only if they are the same position
    exfalso
    apply hpq
    have hw := congrArg BitVec.toNat (IntOp.cmpi_eq.1 heq)
    rw [BitVec.toNat_ofNat, BitVec.toNat_ofNat] at hw
    have := p.isLt; have := q.isLt
    apply Fin.ext
    rw [Nat.mod_eq_of_lt (by omega), Nat.mod_eq_of_lt (by omega)] at hw
    exact hw

/-- What the precondition says of the integer inputs: ids name slots, items name table rows, and a sample's screen ids
    (and its minimap ids) are pairwise distinct. -/
theorem dom_of_pre [Cert.Pre_finite_inputs.Facts] (x0 : FVec Ideal Cert.Pre_finite_inputs.S4096x32 .f32) (x1 : FVec Ideal Cert.Pre_finite_inputs.S4096x24x4 .f32) (x2 : FVec Ideal Cert.Pre_finite_inputs.S4096x40x2 .f32) (x3 : FVec Ideal Cert.Pre_finite_inputs.S66x128 .f32) (x4 : FVec Ideal Cert.Pre_finite_inputs.S287x64 .f32) (x5 : FVec Ideal Cert.Pre_finite_inputs.S132x128 .f32) (x6 : FVec Ideal Cert.Pre_finite_inputs.S128 .f32) (x7 : FVec Ideal Cert.Pre_finite_inputs.S128x128 .f32) (x8 : FVec Ideal Cert.Pre_finite_inputs.S128 .f32) (x9 : FVec Ideal Cert.Pre_finite_inputs.S130x128 .f32) (x10 : FVec Ideal Cert.Pre_finite_inputs.S128 .f32) (x11 : FVec Ideal Cert.Pre_finite_inputs.S128x128 .f32) (x12 : FVec Ideal Cert.Pre_finite_inputs.S128 .f32) (x13 : IVec Cert.Pre_finite_inputs.S4096x24 32) (x14 : IVec Cert.Pre_finite_inputs.S4096x40 32) (x15 : IVec Cert.Pre_finite_inputs.S4096x70 32)
    (h : Cert.Pre_finite_inputs.fn (F := Ideal) x0 x1 x2 x3 x4 x5 x6 x7 x8 x9 x10 x11 x12 x13 x14 x15 = fun _ => 1#1) :
    Spec.Dom ⟨x0, x1, x2, x3, x4, x5, x6, x7, x8, x9, x10, x11, x12, x13, x14, x15⟩ := by
  have h0 := congrFun h ix0
  -- the predicate's value is a left-nested conjunction; its last five conjuncts are the integer ones, and everything
  -- before them (the float inputs being finite) stays one unopened word
  change IntOp.andi (IntOp.andi (IntOp.andi (IntOp.andi (IntOp.andi _ _) _) _) _) _ = 1#1 at h0
  obtain ⟨h0, hdm⟩ := IntOp.andi_eq_one.1 h0
  obtain ⟨h0, hds⟩ := IntOp.andi_eq_one.1 h0
  obtain ⟨h0, hit⟩ := IntOp.andi_eq_one.1 h0
  obtain ⟨h0, hmr⟩ := IntOp.andi_eq_one.1 h0
  obtain ⟨-, hsr⟩ := IntOp.andi_eq_one.1 h0
  exact
    { sids_lt := fun b n => lt_of_all x13 66 (by norm_num) _ _ _ hsr (ix2 b n)
      mids_lt := fun b n => lt_of_all x14 66 (by norm_num) _ _ _ hmr (ix2 b n)
      items_lt := fun b k => lt_of_all x15 287 (by norm_num) _ _ _ hit (ix2 b k)
      sids_inj := fun b n n' hn => ne_of_all (by norm_num) x13 _ _ _ _ hds b n n' hn
      mids_inj := fun b n n' hn => ne_of_all (by norm_num) x14 _ _ _ _ hdm b n n' hn }

end Cert.RPre

end
-- ==== Proof.lean ====
/-
  The certificate: the kernel writes, for every sample, the observation row — the continuous features, the screen and the
  minimap perceptrons' outputs over the 66 character slots, and the 70 item embeddings — and the reference computes the
  same array.

  The statement's domain (added to "every float input is finite"): every detection id names one of the 66 slots, every
  item id a row of the item table, and within a sample no two screen detections and no two minimap detections share an id.
  On that domain the reference's scatter puts at most one detection into a slot, which is what the kernel's sum of
  0/1-weighted detections computes; and the reference's clamped table lookup is the kernel's sum of 0/1-weighted rows.
  Everything downstream (the two perceptrons) is the same arithmetic on both sides, so no algebraic law is needed and the
  finiteness of the float inputs is never used.

  Both sides are shown equal to one function of the inputs, `Spec.obs` (Proof/Spec.lean): the kernel block by block
  (Proof/KArray.lean over the per-entry readings of the body's values in KScreen / KMini / KItem), the reference operation
  by operation (Proof/RChain.lean over RScatter / RGather); Proof/RPre.lean reads the domain out of the precondition.
-/
import proofs.«428663_j32658931319072_2_alg».proof.Defs
import proofs.«428663_j32658931319072_2_alg».proof.Proof.Gen.Kernel
import proofs.«428663_j32658931319072_2_alg».proof.Proof.Gen.Kernel.Skeleton
import proofs.«428663_j32658931319072_2_alg».proof.Proof.Gen.Kernel.Launch
import proofs.«428663_j32658931319072_2_alg».proof.Proof.Gen.Kernel.Points
import proofs.«428663_j32658931319072_2_alg».proof.Proof.Gen.Kernel.Frame
import proofs.«428663_j32658931319072_2_alg».proof.Proof.Gen.KernelIdeal
import proofs.«428663_j32658931319072_2_alg».proof.Proof.Gen.KernelIdeal.Skeleton
import proofs.«428663_j32658931319072_2_alg».proof.Proof.Gen.KernelIdeal.Launch
import proofs.«428663_j32658931319072_2_alg».proof.Proof.Gen.KernelIdeal.Points
import proofs.«428663_j32658931319072_2_alg».proof.Proof.Gen.KernelIdeal.Frame
import proofs.«428663_j32658931319072_2_alg».proof.Proof.Gen.ReferenceIdeal
import proofs.«428663_j32658931319072_2_alg».proof.Proof.Gen.Pre_finite_inputs
import proofs.«428663_j32658931319072_2_alg».proof.Proof.Gen.KernelIdeal.Value
import proofs.«428663_j32658931319072_2_alg».proof.Proof.RefRun
import proofs.«428663_j32658931319072_2_alg».proof.Proof.RefRead
import proofs.«428663_j32658931319072_2_alg».proof.Proof.KArray
import proofs.«428663_j32658931319072_2_alg».proof.Proof.RChain
import proofs.«428663_j32658931319072_2_alg».proof.Proof.RPre
import Idealize.ShloMosaic.Adequacy
import Idealize.ShloMosaic.Init

noncomputable section

namespace Cert.Proof

open Idealize.ShloMosaic Idealize.SL.Sem Cert.Kernel

/-- The word-level kernel runs to the end without a fault and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the inputs, on the domain, both programs end with the observation array of the inputs. -/
theorem algebraic : Cert.algebraic_KernelIdeal_ReferenceIdeal := by
  intro m ρ m' ρ' hpre hagree
  refine ⟨fun c => Spec.obs (Cert.KArray.inputs m c), Cert.KArray.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  exact Cert.RChain.ref_eq _ _ _ _ _ _ _ _ _ _ _ _ _ _ _ _ (Cert.RPre.dom_of_pre _ _ _ _ _ _ _ _ _ _ _ _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
